-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x512 : Shape := ⟨2, ![2048, 512]⟩
abbrev S512 : Shape := ⟨1, ![512]⟩
abbrev S7x512 : Shape := ⟨2, ![7, 512]⟩
abbrev S9x512x512 : Shape := ⟨3, ![9, 512, 512]⟩
abbrev S4096x4 : Shape := ⟨2, ![4096, 4]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S7x512 : S_.BroadcastsInDim S7x512 (![] : Fin 0 → Fin S7x512.rank)
  reducesTo_S7x512_S_d0_1 : S7x512.ReducesTo [0, 1] S_
  bcast_S_S9x512x512 : S_.BroadcastsInDim S9x512x512 (![] : Fin 0 → Fin S9x512x512.rank)
  reducesTo_S9x512x512_S_d0_1_2 : S9x512x512.ReducesTo [0, 1, 2] S_
  bcast_S_S4096x4 : S_.BroadcastsInDim S4096x4 (![] : Fin 0 → Fin S4096x4.rank)
  reducesTo_S4096x4_S_d0_1 : S4096x4.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg9 : IVec S4096 32) (main_v48 : IVec S_ 1) (main_v49 : IVec S4096 32) : IVec S_ 1 :=
  let main_v50 : IVec S4096 1 := cmpi .sge main_arg9 main_v49
  let main_c_20 : IVec S_ 32 := constantI S_ 32 9#32
  let main_v51 : IVec S4096 32 := broadcastInDim S4096 ![] bcast_S_S4096 main_c_20
  let main_v52 : IVec S4096 1 := cmpi .slt main_arg9 main_v51
  let main_v53 : IVec S4096 1 := andi main_v50 main_v52
  let main_c_21 : IVec S_ 1 := constantI S_ 1 1#1
  let main_v54 : IVec S_ 1 := (fun x v => Host.reduce IntOp.andi x v reducesTo_S4096_S_d0 h_S_) main_v53 main_c_21
  let main_v55 : IVec S_ 1 := andi main_v48 main_v54
  main_v55

def fn_part2 {F : FTy → Type} [FloatOps F] (main_arg6 : IVec S4096x4 32) (main_arg7 : IVec S4096 32) (main_arg8 : IVec S4096 32) (main_arg9 : IVec S4096 32) (main_v30 : IVec S_ 1) (main_v32 : IVec S4096x4 1) (main_c_12 : IVec S_ 32) : IVec S_ 1 :=
  let main_v33 : IVec S4096x4 32 := broadcastInDim S4096x4 ![] bcast_S_S4096x4 main_c_12
  let main_v34 : IVec S4096x4 1 := cmpi .slt main_arg6 main_v33
  let main_v35 : IVec S4096x4 1 := andi main_v32 main_v34
  let main_c_13 : IVec S_ 1 := constantI S_ 1 1#1
  let main_v36 : IVec S_ 1 := (fun x v => Host.reduce IntOp.andi x v reducesTo_S4096x4_S_d0_1 h_S_) main_v35 main_c_13
  let main_v37 : IVec S_ 1 := andi main_v30 main_v36
  let main_c_14 : IVec S_ 32 := constantI S_ 32 0#32
  let main_v38 : IVec S4096 32 := broadcastInDim S4096 ![] bcast_S_S4096 main_c_14
  let main_v39 : IVec S4096 1 := cmpi .ne main_arg7 main_v38
  let main_c_15 : IVec S_ 1 := constantI S_ 1 1#1
  let main_v40 : IVec S_ 1 := (fun x v => Host.reduce IntOp.andi x v reducesTo_S4096_S_d0 h_S_) main_v39 main_c_15
  let main_v41 : IVec S_ 1 := andi main_v37 main_v40
  let main_c_16 : IVec S_ 32 := constantI S_ 32 0#32
  let main_v42 : IVec S4096 32 := broadcastInDim S4096 ![] bcast_S_S4096 main_c_16
  let main_v43 : IVec S4096 1 := cmpi .sge main_arg8 main_v42
  let main_c_17 : IVec S_ 32 := constantI S_ 32 7#32
  let main_v44 : IVec S4096 32 := broadcastInDim S4096 ![] bcast_S_S4096 main_c_17
  let main_v45 : IVec S4096 1 := cmpi .slt main_arg8 main_v44
  let main_v46 : IVec S4096 1 := andi main_v43 main_v45
  let main_c_18 : IVec S_ 1 := constantI S_ 1 1#1
  let main_v47 : IVec S_ 1 := (fun x v => Host.reduce IntOp.andi x v reducesTo_S4096_S_d0 h_S_) main_v46 main_c_18
  let main_v48 : IVec S_ 1 := andi main_v41 main_v47
  let main_c_19 : IVec S_ 32 := constantI S_ 32 0#32
  let main_v49 : IVec S4096 32 := broadcastInDim S4096 ![] bcast_S_S4096 main_c_19
  fn_part3 (F := F) main_arg9 main_v48 main_v49

def fn_part1 {F : FTy → Type} [FloatOps F] (main_arg4 : FVec F S9x512x512 .f32) (main_arg5 : IVec S4096x4 32) (main_arg6 : IVec S4096x4 32) (main_arg7 : IVec S4096 32) (main_arg8 : IVec S4096 32) (main_arg9 : IVec S4096 32) (main_v13 : IVec S_ 1) (main_v16 : IVec S7x512 1) : IVec S_ 1 :=
  let main_c_5 : IVec S_ 1 := constantI S_ 1 1#1
  let main_v17 : IVec S_ 1 := (fun x v => Host.reduce IntOp.andi x v reducesTo_S7x512_S_d0_1 h_S_) main_v16 main_c_5
  let main_v18 : IVec S_ 1 := andi main_v13 main_v17
  let main_v19 : FVec F S9x512x512 .f32 := Host.absf main_arg4
  let main_cst_6 : FVec F S_ .f32 := constant S_ .f32 0x7F800000#32
  let main_v20 : FVec F S9x512x512 .f32 := broadcastInDim S9x512x512 ![] bcast_S_S9x512x512 main_cst_6
  let main_v21 : IVec S9x512x512 1 := cmpf .olt main_v19 main_v20
  let main_c_7 : IVec S_ 1 := constantI S_ 1 1#1
  let main_v22 : IVec S_ 1 := (fun x v => Host.reduce IntOp.andi x v reducesTo_S9x512x512_S_d0_1_2 h_S_) main_v21 main_c_7
  let main_v23 : IVec S_ 1 := andi main_v18 main_v22
  let main_c_8 : IVec S_ 32 := constantI S_ 32 0#32
  let main_v24 : IVec S4096x4 32 := broadcastInDim S4096x4 ![] bcast_S_S4096x4 main_c_8
  let main_v25 : IVec S4096x4 1 := cmpi .sge main_arg5 main_v24
  let main_c_9 : IVec S_ 32 := constantI S_ 32 7#32
  let main_v26 : IVec S4096x4 32 := broadcastInDim S4096x4 ![] bcast_S_S4096x4 main_c_9
  let main_v27 : IVec S4096x4 1 := cmpi .slt main_arg5 main_v26
  let main_v28 : IVec S4096x4 1 := andi main_v25 main_v27
  let main_c_10 : IVec S_ 1 := constantI S_ 1 1#1
  let main_v29 : IVec S_ 1 := (fun x v => Host.reduce IntOp.andi x v reducesTo_S4096x4_S_d0_1 h_S_) main_v28 main_c_10
  let main_v30 : IVec S_ 1 := andi main_v23 main_v29
  let main_c_11 : IVec S_ 32 := constantI S_ 32 0#32
  let main_v31 : IVec S4096x4 32 := broadcastInDim S4096x4 ![] bcast_S_S4096x4 main_c_11
  let main_v32 : IVec S4096x4 1 := cmpi .sge main_arg6 main_v31
  let main_c_12 : IVec S_ 32 := constantI S_ 32 9#32
  fn_part2 (F := F) main_arg6 main_arg7 main_arg8 main_arg9 main_v30 main_v32 main_c_12

def fn {F : FTy → Type} [FloatOps F] (main_arg0 : FVec F S4096x2048 .f32) (main_arg1 : FVec F S2048x512 .f32) (main_arg2 : FVec F S512 .f32) (main_arg3 : FVec F S7x512 .f32) (main_arg4 : FVec F S9x512x512 .f32) (main_arg5 : IVec S4096x4 32) (main_arg6 : IVec S4096x4 32) (main_arg7 : IVec S4096 32) (main_arg8 : IVec S4096 32) (main_arg9 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S7x512 .f32 := Host.absf main_arg3
  let main_cst_4 : FVec F S_ .f32 := constant S_ .f32 0x7F800000#32
  let main_v15 : FVec F S7x512 .f32 := broadcastInDim S7x512 ![] bcast_S_S7x512 main_cst_4
  let main_v16 : IVec S7x512 1 := cmpf .olt main_v14 main_v15
  fn_part1 (F := F) main_arg4 main_arg5 main_arg6 main_arg7 main_arg8 main_arg9 main_v13 main_v16
-- ==== Kernel.lean ====
abbrev S4096x2048 : Shape := ⟨2, ![4096, 2048]⟩
abbrev S2048x512 : Shape := ⟨2, ![2048, 512]⟩
abbrev S512 : Shape := ⟨1, ![512]⟩
abbrev S7x512 : Shape := ⟨2, ![7, 512]⟩
abbrev S9x512x512 : Shape := ⟨3, ![9, 512, 512]⟩
abbrev S4096x4 : Shape := ⟨2, ![4096, 4]⟩
abbrev S4096 : Shape := ⟨1, ![4096]⟩
abbrev S9x7x512 : Shape := ⟨3, ![9, 7, 512]⟩
abbrev S1x512x512 : Shape := ⟨3, ![1, 512, 512]⟩
abbrev S512x512 : Shape := ⟨2, ![512, 512]⟩
abbrev S1x7x512 : Shape := ⟨3, ![1, 7, 512]⟩
abbrev S63x512 : Shape := ⟨2, ![63, 512]⟩
abbrev S1x512 : Shape := ⟨2, ![1, 512]⟩
abbrev S4096x8 : Shape := ⟨2, ![4096, 8]⟩
abbrev S4096x1 : Shape := ⟨2, ![4096, 1]⟩
abbrev S4096x3 : Shape := ⟨2, ![4096, 3]⟩
abbrev S512x2048 : Shape := ⟨2, ![512, 2048]⟩
abbrev S512x8 : Shape := ⟨2, ![512, 8]⟩
abbrev S512x3 : Shape := ⟨2, ![512, 3]⟩
abbrev S512x4 : Shape := ⟨2, ![512, 4]⟩
abbrev S512x1 : Shape := ⟨2, ![512, 1]⟩
abbrev S512x63 : Shape := ⟨2, ![512, 63]⟩
abbrev S_ : Shape := ⟨0, ![]⟩

abbrev nBuf : Space → Nat
  | .hbm => 23
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S2048x512, .f32⟩
  | .hbm, ⟨2, _⟩ => ⟨S512, .f32⟩
  | .hbm, ⟨3, _⟩ => ⟨S7x512, .f32⟩
  | .hbm, ⟨4, _⟩ => ⟨S9x512x512, .f32⟩
  | .hbm, ⟨5, _⟩ => ⟨S4096x4, .i32⟩
  | .hbm, ⟨6, _⟩ => ⟨S4096x4, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S9x7x512, .f32⟩
  | .hbm, ⟨11, _⟩ => ⟨S63x512, .f32⟩
  | .hbm, ⟨12, _⟩ => ⟨S1x512, .f32⟩
  | .hbm, ⟨13, _⟩ => ⟨S4096x8, .i32⟩
  | .hbm, ⟨14, _⟩ => ⟨S4096x1, .i32⟩
  | .hbm, ⟨15, _⟩ => ⟨S4096x1, .i32⟩
  | .hbm, ⟨16, _⟩ => ⟨S4096x1, .i32⟩
  | .hbm, ⟨17, _⟩ => ⟨S4096x3, .i32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S7x512, .f32⟩
  | .local _ .vmem, ⟨1, _⟩ => ⟨S9x512x512, .f32⟩
  | .local _ .vmem, ⟨2, _⟩ => ⟨S9x7x512, .f32⟩
  | .local _ .vmem, ⟨3, _⟩ => ⟨S512x2048, .f32⟩
  | .local _ .vmem, ⟨4, _⟩ => ⟨S512x2048, .f32⟩
  | .local _ .vmem, ⟨5, _⟩ => ⟨S2048x512, .f32⟩
  | .local _ .vmem, ⟨6, _⟩ => ⟨S1x512, .f32⟩
  | .local _ .vmem, ⟨7, _⟩ => ⟨S512x8, .i32⟩
  | .local _ .vmem, ⟨8, _⟩ => ⟨S512x8, .i32⟩
  | .local _ .vmem, ⟨9, _⟩ => ⟨S512x3, .i32⟩
  | .local _ .vmem, ⟨10, _⟩ => ⟨S512x3, .i32⟩
  | .local _ .vmem, ⟨11, _⟩ => ⟨S63x512, .f32⟩
  | .local _ .vmem, ⟨12, _⟩ => ⟨S512, .f32⟩
  | .local _ .vmem, ⟨13, _⟩ => ⟨S512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S7x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x7x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x8 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x3 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S63x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S7x512_S7x512_0_0 : ∀ a, (![0, 0] : Fin 2 → Nat) a + S7x512.size a ≤ S7x512.size a
  h_S7x512 : 0 < S7x512.numel
  bitsLt_bf16_f32 : FTy.bits .bf16 < FTy.bits .f32
  inb_S9x512x512_S1x512x512_0_0_0 : ∀ a, (![0, 0, 0] : Fin 3 → Nat) a + S1x512x512.size a ≤ S9x512x512.size a
  h_S1x512x512 : 0 < S1x512x512.numel
  shapeCasts_S1x512x512_S512x512 : S1x512x512.ShapeCasts S512x512
  inb_S9x7x512_S1x7x512_0_0_0 : ∀ a, (![0, 0, 0] : Fin 3 → Nat) a + S1x7x512.size a ≤ S9x7x512.size a
  h_S1x7x512 : 0 < S1x7x512.numel
  shapeCasts_S1x7x512_S7x512 : S1x7x512.ShapeCasts S7x512
  shapeCasts_S7x512_S1x7x512 : S7x512.ShapeCasts S1x7x512
  inb_S9x512x512_S1x512x512_1_0_0 : ∀ a, (![1, 0, 0] : Fin 3 → Nat) a + S1x512x512.size a ≤ S9x512x512.size a
  inb_S9x7x512_S1x7x512_1_0_0 : ∀ a, (![1, 0, 0] : Fin 3 → Nat) a + S1x7x512.size a ≤ S9x7x512.size a
  inb_S9x512x512_S1x512x512_2_0_0 : ∀ a, (![2, 0, 0] : Fin 3 → Nat) a + S1x512x512.size a ≤ S9x512x512.size a
  inb_S9x7x512_S1x7x512_2_0_0 : ∀ a, (![2, 0, 0] : Fin 3 → Nat) a + S1x7x512.size a ≤ S9x7x512.size a
  inb_S9x512x512_S1x512x512_3_0_0 : ∀ a, (![3, 0, 0] : Fin 3 → Nat) a + S1x512x512.size a ≤ S9x512x512.size a
  inb_S9x7x512_S1x7x512_3_0_0 : ∀ a, (![3, 0, 0] : Fin 3 → Nat) a + S1x7x512.size a ≤ S9x7x512.size a
  inb_S9x512x512_S1x512x512_4_0_0 : ∀ a, (![4, 0, 0] : Fin 3 → Nat) a + S1x512x512.size a ≤ S9x512x512.size a
  inb_S9x7x512_S1x7x512_4_0_0 : ∀ a, (![4, 0, 0] : Fin 3 → Nat) a + S1x7x512.size a ≤ S9x7x512.size a
  inb_S9x512x512_S1x512x512_5_0_0 : ∀ a, (![5, 0, 0] : Fin 3 → Nat) a + S1x512x512.size a ≤ S9x512x512.size a
  inb_S9x7x512_S1x7x512_5_0_0 : ∀ a, (![5, 0, 0] : Fin 3 → Nat) a + S1x7x512.size a ≤ S9x7x512.size a
  inb_S9x512x512_S1x512x512_6_0_0 : ∀ a, (![6, 0, 0] : Fin 3 → Nat) a + S1x512x512.size a ≤ S9x512x512.size a
  inb_S9x7x512_S1x7x512_6_0_0 : ∀ a, (![6, 0, 0] : Fin 3 → Nat) a + S1x7x512.size a ≤ S9x7x512.size a
  inb_S9x512x512_S1x512x512_7_0_0 : ∀ a, (![7, 0, 0] : Fin 3 → Nat) a + S1x512x512.size a ≤ S9x512x512.size a
  inb_S9x7x512_S1x7x512_7_0_0 : ∀ a, (![7, 0, 0] : Fin 3 → Nat) a + S1x7x512.size a ≤ S9x7x512.size a
  inb_S9x512x512_S1x512x512_8_0_0 : ∀ a, (![8, 0, 0] : Fin 3 → Nat) a + S1x512x512.size a ≤ S9x512x512.size a
  inb_S9x7x512_S1x7x512_8_0_0 : ∀ a, (![8, 0, 0] : Fin 3 → Nat) a + S1x7x512.size a ≤ S9x7x512.size a
  shapeCasts_S9x7x512_S63x512 : S9x7x512.ShapeCasts S63x512
  shapeCasts_S512_S1x512 : S512.ShapeCasts S1x512
  concatenates_S4096x4_S4096x4_S4096x8_d1 : Shape.Concatenates [S4096x4, S4096x4] S4096x8 1
  bcast_S4096_S4096x1_0 : S4096.BroadcastsInDim S4096x1 (![0] : Fin 1 → Fin S4096x1.rank)
  concatenates_S4096x1_S4096x1_S4096x1_S4096x3_d1 : Shape.Concatenates [S4096x1, S4096x1, S4096x1] S4096x3 1
  inb_S512x2048_S512x2048_0_0 : ∀ a, (![0, 0] : Fin 2 → Nat) a + S512x2048.size a ≤ S512x2048.size a
  h_S512x2048 : 0 < S512x2048.numel
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S63x512_S63x512_0_0 : ∀ a, (![0, 0] : Fin 2 → Nat) a + S63x512.size a ≤ S63x512.size a
  h_S63x512 : 0 < S63x512.numel
  shapeCasts_S63x512_S63x512 : S63x512.ShapeCasts S63x512
  inb_S512x8_S512x8_0_0 : ∀ a, (![0, 0] : Fin 2 → Nat) a + S512x8.size a ≤ S512x8.size a
  h_S512x8 : 0 < S512x8.numel
  shapeCasts_S512x8_S512x8 : S512x8.ShapeCasts S512x8
  slices_S512x8_o0_0_S512x4 : S512x8.Slices ![0, 0] S512x4
  slices_S512x8_o0_4_S512x4 : S512x8.Slices ![0, 4] S512x4
  inb_S512x3_S512x3_0_0 : ∀ a, (![0, 0] : Fin 2 → Nat) a + S512x3.size a ≤ S512x3.size a
  h_S512x3 : 0 < S512x3.numel
  shapeCasts_S512x3_S512x3 : S512x3.ShapeCasts S512x3
  slices_S512x3_o0_0_S512x1 : S512x3.Slices ![0, 0] S512x1
  slices_S512x3_o0_1_S512x1 : S512x3.Slices ![0, 1] S512x1
  slices_S512x3_o0_2_S512x1 : S512x3.Slices ![0, 2] S512x1
  iota_S512x63_d1_w32 : S512x63.Iotas .tc 32 [1]
  slices_S512x4_o0_0_S512x1 : S512x4.Slices ![0, 0] S512x1
  broadcasts_S512x1_S512x63 : S512x1.Broadcasts S512x63
  natLt_1_32 : 1 < 32
  slices_S512x4_o0_1_S512x1 : S512x4.Slices ![0, 1] S512x1
  slices_S512x4_o0_2_S512x1 : S512x4.Slices ![0, 2] S512x1
  slices_S512x4_o0_3_S512x1 : S512x4.Slices ![0, 3] S512x1
  reduces_S512x512_S512 : S512x512.Reduces [1] S512
  inb_S512_S512_0 : ∀ a, (![0] : Fin 1 → Nat) a + S512.size a ≤ S512.size a
  h_S512 : 0 < S512.numel
  reducesTo_S4096_S_d0 : S4096.ReducesTo [0] S_
  h_S_ : 0 < S_.numel
  dot_S7x512_S512x512_S7x512_1_1_0_0_n_n_wf : DotDims.WF S7x512 S512x512 S7x512 [1] [1] [0] [0] [] []
  dot_S512x2048_S2048x512_S512x512_1_0_0_1_n_n_wf : DotDims.WF S512x2048 S2048x512 S512x512 [1] [0] [0] [1] [] []
  dot_S512x63_S63x512_S512x512_1_0_0_1_n_n_wf : DotDims.WF S512x63 S63x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S7x512.size a ≤ S7x512.size a
  hwx0_0 : ∀ i : grid0.Coords, EltTy.bits .f32 = 32 ∨ (Rect.block (s := S7x512) S7x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x512x512.size a ≤ S9x512x512.size a
  hwx0_1 : ∀ i : grid0.Coords, EltTy.bits .f32 = 32 ∨ (Rect.block (s := S9x512x512) S9x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x7x512.size a ≤ S9x7x512.size a
  hwx0_2 : ∀ i : grid0.Coords, EltTy.bits .f32 = 32 ∨ (Rect.block (s := S9x7x512) S9x7x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .f32 = 32 ∨ (Rect.block (s := S2048x512) S2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x8.size a ≤ S4096x8.size a
  hwx1_3 : ∀ i : grid1.Coords, EltTy.bits .i32 = 32 ∨ (Rect.block (s := S4096x8) S512x8.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x3.size a ≤ S4096x3.size a
  hwx1_4 : ∀ i : grid1.Coords, EltTy.bits .i32 = 32 ∨ (Rect.block (s := S4096x3) S512x3.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S63x512.size a ≤ S63x512.size a
  hwx1_5 : ∀ i : grid1.Coords, EltTy.bits .f32 = 32 ∨ (Rect.block (s := S63x512) S63x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S4096.size a
  hwx1_6 : ∀ i : grid1.Coords, EltTy.bits .f32 = 32 ∨ (Rect.block (s := S4096) S512.size (cc1_transform_6 i) (hinb1_6 i)).WholeWords (EltTy.packing .f32)

variable [Facts₀]

def dot_S7x512_S512x512_S7x512_1_1_0_0_n_n : DotDims S7x512 S512x512 S7x512 where
  lhsContracting := [1]
  rhsContracting := [1]
  lhsNonContracting := [0]
  rhsNonContracting := [0]
  lhsBatch := []
  rhsBatch := []
  wf := dot_S7x512_S512x512_S7x512_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x63_S63x512_S512x512_1_0_0_1_n_n : DotDims S512x63 S63x512 S512x512 where
  lhsContracting := [1]
  rhsContracting := [0]
  lhsNonContracting := [0]
  rhsNonContracting := [1]
  lhsBatch := []
  rhsBatch := []
  wf := dot_S512x63_S63x512_S512x512_1_0_0_1_n_n_wf

abbrev win0_0 : Pipeline.Window sig grid0 :=
  Pipeline.Window.ofSpec (Memref.whole main_arg3) S7x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S9x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S9x7x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x8.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x3.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S63x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S2048x512 : Shape := ⟨2, ![2048, 512]⟩
abbrev S512 : Shape := ⟨1, ![512]⟩
abbrev S7x512 : Shape := ⟨2, ![7, 512]⟩
abbrev S9x512x512 : Shape := ⟨3, ![9, 512, 512]⟩
abbrev S4096x4 : Shape := ⟨2, ![4096, 4]⟩
abbrev S4096 : Shape := ⟨1, ![4096]⟩
abbrev S4096x512 : Shape := ⟨2, ![4096, 512]⟩
abbrev S1x512 : Shape := ⟨2, ![1, 512]⟩
abbrev S_ : Shape := ⟨0, ![]⟩
abbrev S4096x4x1 : Shape := ⟨3, ![4096, 4, 1]⟩
abbrev S4096x4x512 : Shape := ⟨3, ![4096, 4, 512]⟩
abbrev S4096x4x9x512 : Shape := ⟨4, ![4096, 4, 9, 512]⟩
abbrev S4096x4x1x1 : Shape := ⟨4, ![4096, 4, 1, 1]⟩
abbrev S1 : Shape := ⟨1, ![1]⟩
abbrev S1x1x1x1 : Shape := ⟨4, ![1, 1, 1, 1]⟩
abbrev S4096x4x1x512 : Shape := ⟨4, ![4096, 4, 1, 512]⟩
abbrev S4 : Shape := ⟨1, ![4]⟩
abbrev S1x4 : Shape := ⟨2, ![1, 4]⟩
abbrev S4096x1 : Shape := ⟨2, ![4096, 1]⟩
abbrev S4096x9x512 : Shape := ⟨3, ![4096, 9, 512]⟩
abbrev S4096x1x1 : Shape := ⟨3, ![4096, 1, 1]⟩
abbrev S1x1x1 : Shape := ⟨3, ![1, 1, 1]⟩
abbrev S4096x1x512 : Shape := ⟨3, ![4096, 1, 512]⟩

abbrev nBuf : Space → Nat
  | .hbm => 134
  | .vmem => 0
  | .smem => 0
  | _ => 0

abbrev hbmTy0_0 (i : Nat) : BufTy := match i % 128 with
  | 0 => ⟨S4096x2048, .f32⟩
  | 1 => ⟨S2048x512, .f32⟩
  | 2 => ⟨S512, .f32⟩
  | 3 => ⟨S7x512, .f32⟩
  | 4 => ⟨S9x512x512, .f32⟩
  | 5 => ⟨S4096x4, .i32⟩
  | 6 => ⟨S4096x4, .i32⟩
  | 7 => ⟨S4096, .i32⟩
  | 8 => ⟨S4096, .i32⟩
  | 9 => ⟨S4096, .i32⟩
  | 10 => ⟨S4096x512, .f32⟩
  | 11 => ⟨S1x512, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S_, .i32⟩
  | 18 => ⟨S4096x4, .i32⟩
  | 19 => ⟨S4096x4, .i1⟩
  | 20 => ⟨S_, .i32⟩
  | 21 => ⟨S4096x4, .i32⟩
  | 22 => ⟨S4096x4, .i32⟩
  | 23 => ⟨S4096x4, .i32⟩
  | 24 => ⟨S4096x4x1, .i32⟩
  | 25 => ⟨S4096x4x512, .f32⟩
  | 26 => ⟨S4096x4x9x512, .f32⟩
  | 27 => ⟨S4096x4x1x1, .i32⟩
  | 28 => ⟨S_, .i32⟩
  | 29 => ⟨S4096x4x1x1, .i32⟩
  | 30 => ⟨S4096x4x1x1, .i1⟩
  | 31 => ⟨S_, .i32⟩
  | 32 => ⟨S4096x4x1x1, .i32⟩
  | 33 => ⟨S4096x4x1x1, .i32⟩
  | 34 => ⟨S4096x4x1x1, .i32⟩
  | 35 => ⟨S1, .i32⟩
  | 36 => ⟨S_, .i32⟩
  | 37 => ⟨S4096x4x1x1, .i32⟩
  | 38 => ⟨S4096x4x1x1, .i1⟩
  | 39 => ⟨S1x1x1x1, .i32⟩
  | 40 => ⟨S4096x4x1x1, .i32⟩
  | 41 => ⟨S4096x4x1x1, .i1⟩
  | 42 => ⟨S4096x4x1x1, .i1⟩
  | 43 => ⟨S_, .i1⟩
  | 44 => ⟨S4096x4x1, .i1⟩
  | 45 => ⟨S4096x4x1x512, .f32⟩
  | 46 => ⟨S4096x4x1x512, .i1⟩
  | 47 => ⟨S_, .f32⟩
  | 48 => ⟨S4096x4x1x512, .f32⟩
  | 49 => ⟨S4096x4x1x512, .f32⟩
  | 50 => ⟨S4096x4x512, .f32⟩
  | 51 => ⟨S_, .f32⟩
  | 52 => ⟨S4096x4x512, .f32⟩
  | 53 => ⟨S4096x4x512, .f32⟩
  | 54 => ⟨S4, .i32⟩
  | 55 => ⟨S1x4, .i32⟩
  | 56 => ⟨S4096x1, .i32⟩
  | 57 => ⟨S4096x4, .i32⟩
  | 58 => ⟨S4096x4, .i32⟩
  | 59 => ⟨S4096x4, .i1⟩
  | 60 => ⟨S4096x4, .f32⟩
  | 61 => ⟨S4096x4x1, .f32⟩
  | 62 => ⟨S4096x4x512, .f32⟩
  | 63 => ⟨S4096x4x512, .f32⟩
  | 64 => ⟨S_, .f32⟩
  | 65 => ⟨S4096x512, .f32⟩
  | 66 => ⟨S4096x1, .i32⟩
  | 67 => ⟨S4096x1, .f32⟩
  | 68 => ⟨S4096x512, .f32⟩
  | 69 => ⟨S4096x512, .f32⟩
  | 70 => ⟨S_, .i32⟩
  | 71 => ⟨S4096, .i32⟩
  | 72 => ⟨S4096, .i1⟩
  | 73 => ⟨S_, .i32⟩
  | 74 => ⟨S4096, .i32⟩
  | 75 => ⟨S4096, .i32⟩
  | 76 => ⟨S4096, .i32⟩
  | 77 => ⟨S4096x1, .i32⟩
  | 78 => ⟨S4096x512, .f32⟩
  | 79 => ⟨S4096x9x512, .f32⟩
  | 80 => ⟨S4096x1x1, .i32⟩
  | 81 => ⟨S_, .i32⟩
  | 82 => ⟨S4096x1x1, .i32⟩
  | 83 => ⟨S4096x1x1, .i1⟩
  | 84 => ⟨S_, .i32⟩
  | 85 => ⟨S4096x1x1, .i32⟩
  | 86 => ⟨S4096x1x1, .i32⟩
  | 87 => ⟨S4096x1x1, .i32⟩
  | 88 => ⟨S1, .i32⟩
  | 89 => ⟨S_, .i32⟩
  | 90 => ⟨S4096x1x1, .i32⟩
  | 91 => ⟨S4096x1x1, .i1⟩
  | 92 => ⟨S1x1x1, .i32⟩
  | 93 => ⟨S4096x1x1, .i32⟩
  | 94 => ⟨S4096x1x1, .i1⟩
  | 95 => ⟨S4096x1x1, .i1⟩
  | 96 => ⟨S_, .i1⟩
  | 97 => ⟨S4096x1, .i1⟩
  | 98 => ⟨S4096x1x512, .f32⟩
  | 99 => ⟨S4096x1x512, .i1⟩
  | 100 => ⟨S_, .f32⟩
  | 101 => ⟨S4096x1x512, .f32⟩
  | 102 => ⟨S4096x1x512, .f32⟩
  | 103 => ⟨S4096x512, .f32⟩
  | 104 => ⟨S_, .f32⟩
  | 105 => ⟨S4096x512, .f32⟩
  | 106 => ⟨S4096x512, .f32⟩
  | 107 => ⟨S4096x512, .f32⟩
  | 108 => ⟨S_, .f32⟩
  | 109 => ⟨S4096x512, .f32⟩
  | 110 => ⟨S4096x512, .f32⟩
  | 111 => ⟨S4096x512, .f32⟩
  | 112 => ⟨S_, .f32⟩
  | 113 => ⟨S4096, .f32⟩
  | 114 => ⟨S4096, .f32⟩
  | 115 => ⟨S4096x512, .f32⟩
  | 116 => ⟨S_, .f32⟩
  | 117 => ⟨S4096x512, .f32⟩
  | 118 => ⟨S4096x512, .f32⟩
  | 119 => ⟨S4096x512, .f32⟩
  | 120 => ⟨S_, .f32⟩
  | 121 => ⟨S4096, .f32⟩
  | 122 => ⟨S4096, .f32⟩
  | 123 => ⟨S4096, .f32⟩
  | 124 => ⟨S_, .f32⟩
  | 125 => ⟨S4096, .f32⟩
  | 126 => ⟨S4096, .f32⟩
  | 127 => ⟨S_, .f32⟩
  | _ => ⟨S4096x2048, .f32⟩

abbrev hbmTy0_1 (i : Nat) : BufTy := match i % 128 with
  | 0 => ⟨S4096, .f32⟩
  | 1 => ⟨S4096, .f32⟩
  | 2 => ⟨S_, .f32⟩
  | 3 => ⟨S_, .f32⟩
  | 4 => ⟨S_, .f32⟩
  | 5 => ⟨S_, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_c_2 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_c_3 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v14 : Ref sig .tc := ⟨.hbm, 49, rfl⟩
abbrev main_v15 : Ref sig .tc := ⟨.hbm, 50, rfl⟩
abbrev main_call2_cst : Ref sig .tc := ⟨.hbm, 51, rfl⟩
abbrev main_call2_v0 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_1 : Ref sig .tc := ⟨.hbm, 70, rfl⟩
abbrev main_v32 : Ref sig .tc := ⟨.hbm, 71, rfl⟩
abbrev main_v33 : Ref sig .tc := ⟨.hbm, 72, rfl⟩
abbrev main_c_2 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_c_1 : Ref sig .tc := ⟨.hbm, 88, rfl⟩
abbrev main_call3_c_2 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_c_3 : Ref sig .tc := ⟨.hbm, 96, rfl⟩
abbrev main_call3_v11 : Ref sig .tc := ⟨.hbm, 97, rfl⟩
abbrev main_call3_v12 : Ref sig .tc := ⟨.hbm, 98, rfl⟩
abbrev main_call3_v13 : Ref sig .tc := ⟨.hbm, 99, rfl⟩
abbrev main_call3_cst : Ref sig .tc := ⟨.hbm, 100, rfl⟩
abbrev main_call3_v14 : Ref sig .tc := ⟨.hbm, 101, rfl⟩
abbrev main_v41 : Ref sig .tc := ⟨.hbm, 102, rfl⟩
abbrev main_v42 : Ref sig .tc := ⟨.hbm, 103, rfl⟩
abbrev main_call4_cst : Ref sig .tc := ⟨.hbm, 104, rfl⟩
abbrev main_call4_v0 : Ref sig .tc := ⟨.hbm, 105, rfl⟩
abbrev main_v43 : Ref sig .tc := ⟨.hbm, 106, rfl⟩
abbrev main_v44 : Ref sig .tc := ⟨.hbm, 107, rfl⟩
abbrev main_cst_3 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_cst_4 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_cst_5 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_cst_6 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_cst_7 : Ref sig .tc := ⟨.hbm, 124, rfl⟩
abbrev main_v57 : Ref sig .tc := ⟨.hbm, 125, rfl⟩
abbrev main_v58 : Ref sig .tc := ⟨.hbm, 126, rfl⟩
abbrev main_call5_cst : Ref sig .tc := ⟨.hbm, 127, rfl⟩
abbrev main_call5_v0 : Ref sig .tc := ⟨.hbm, 128, rfl⟩
abbrev main_v59 : Ref sig .tc := ⟨.hbm, 129, rfl⟩
abbrev main_cst_8 : Ref sig .tc := ⟨.hbm, 130, rfl⟩
abbrev main_v60 : Ref sig .tc := ⟨.hbm, 131, rfl⟩
abbrev main_cst_9 : Ref sig .tc := ⟨.hbm, 132, rfl⟩
abbrev main_v61 : Ref sig .tc := ⟨.hbm, 133, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S_S4096x4 : S_.BroadcastsInDim S4096x4 (![] : Fin 0 → Fin S4096x4.rank)
  bcast_S4096x4_S4096x4x1_0_1 : S4096x4.BroadcastsInDim S4096x4x1 (![0, 1] : Fin 2 → Fin S4096x4x1.rank)
  bcast_S4096x4_S4096x4x1x1_0_1 : S4096x4.BroadcastsInDim S4096x4x1x1 (![0, 1] : Fin 2 → Fin S4096x4x1x1.rank)
  bcast_S_S4096x4x1x1 : S_.BroadcastsInDim S4096x4x1x1 (![] : Fin 0 → Fin S4096x4x1x1.rank)
  bcast_S1_S1x1x1x1_3 : S1.BroadcastsInDim S1x1x1x1 (![3] : Fin 1 → Fin S1x1x1x1.rank)
  bcast_S1x1x1x1_S4096x4x1x1_0_1_2_3 : S1x1x1x1.BroadcastsInDim S4096x4x1x1 (![0, 1, 2, 3] : Fin 4 → Fin S4096x4x1x1.rank)
  reducesTo_S4096x4x1x1_S4096x4x1_d3 : S4096x4x1x1.ReducesTo [3] S4096x4x1
  h_S_ : 0 < S_.numel
  bcast_S4096x4x1_S4096x4x1x512_0_1_2 : S4096x4x1.BroadcastsInDim S4096x4x1x512 (![0, 1, 2] : Fin 3 → Fin S4096x4x1x512.rank)
  bcast_S_S4096x4x1x512 : S_.BroadcastsInDim S4096x4x1x512 (![] : Fin 0 → Fin S4096x4x1x512.rank)
  shapeCasts_S4096x4x1x512_S4096x4x512 : S4096x4x1x512.ShapeCasts S4096x4x512
  bcast_S_S4096x4x512 : S_.BroadcastsInDim S4096x4x512 (![] : Fin 0 → Fin S4096x4x512.rank)
  bcast_S4_S1x4_1 : S4.BroadcastsInDim S1x4 (![1] : Fin 1 → Fin S1x4.rank)
  bcast_S4096_S4096x1_0 : S4096.BroadcastsInDim S4096x1 (![0] : Fin 1 → Fin S4096x1.rank)
  bcast_S1x4_S4096x4_0_1 : S1x4.BroadcastsInDim S4096x4 (![0, 1] : Fin 2 → Fin S4096x4.rank)
  bcast_S4096x1_S4096x4_0_1 : S4096x1.BroadcastsInDim S4096x4 (![0, 1] : Fin 2 → Fin S4096x4.rank)
  bcast_S4096x4x1_S4096x4x512_0_1_2 : S4096x4x1.BroadcastsInDim S4096x4x512 (![0, 1, 2] : Fin 3 → Fin S4096x4x512.rank)
  reducesTo_S4096x4x512_S4096x512_d1 : S4096x4x512.ReducesTo [1] S4096x512
  bcast_S4096x1_S4096x512_0_1 : S4096x1.BroadcastsInDim S4096x512 (![0, 1] : Fin 2 → Fin S4096x512.rank)
  bcast_S_S4096 : S_.BroadcastsInDim S4096 (![] : Fin 0 → Fin S4096.rank)
  bcast_S4096_S4096x1x1_0 : S4096.BroadcastsInDim S4096x1x1 (![0] : Fin 1 → Fin S4096x1x1.rank)
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  bcast_S4096x1_S4096x1x512_0_1 : S4096x1.BroadcastsInDim S4096x1x512 (![0, 1] : Fin 2 → Fin S4096x1x512.rank)
  bcast_S_S4096x1x512 : S_.BroadcastsInDim S4096x1x512 (![] : Fin 0 → Fin S4096x1x512.rank)
  shapeCasts_S4096x1x512_S4096x512 : S4096x1x512.ShapeCasts S4096x512
  reducesTo_S4096x512_S4096_d1 : S4096x512.ReducesTo [1] S4096
  reducesTo_S4096_S_d0 : S4096.ReducesTo [0] S_
  dot_S4096x2048_S2048x512_S4096x512_1_0_0_1_n_n_wf : DotDims.WF S4096x2048 S2048x512 S4096x512 [1] [0] [0] [1] [] []
  gather_S7x512_S4096x4x1_S4096x4x512_2_0_n_n_0_2_1512_wf : GatherDims.WF S7x512 S4096x4x1 S4096x4x512 [2] [0] [] [0] [] 2 ![1, 512]
  dot_S4096x4x512_S9x512x512_S4096x4x9x512_2_2_01_01_n_n_wf : DotDims.WF S4096x4x512 S9x512x512 S4096x4x9x512 [2] [2] [0, 1] [0, 1] [] []
  gather_S4096x4x9x512_S4096x4x1x1_S4096x4x1x512_3_2_01_01_2_3_111512_wf : GatherDims.WF S4096x4x9x512 S4096x4x1x1 S4096x4x1x512 [3] [2] [0, 1] [2] [0, 1] 3 ![1, 1, 1, 512]
  gather_S7x512_S4096x1_S4096x512_1_0_n_n_0_1_1512_wf : GatherDims.WF S7x512 S4096x1 S4096x512 [1] [0] [] [0] [] 1 ![1, 512]
  dot_S4096x512_S9x512x512_S4096x9x512_1_2_0_01_n_n_wf : DotDims.WF S4096x512 S9x512x512 S4096x9x512 [1] [2] [0] [0, 1] [] []
  gather_S4096x9x512_S4096x1x1_S4096x1x512_2_1_0_0_1_2_11512_wf : GatherDims.WF S4096x9x512 S4096x1x1 S4096x1x512 [2] [1] [0] [1] [0] 2 ![1, 1, 512]

variable [Facts₀]

def dot_S4096x2048_S2048x512_S4096x512_1_0_0_1_n_n : DotDims S4096x2048 S2048x512 S4096x512 where
  lhsContracting := [1]
  rhsContracting := [0]
  lhsNonContracting := [0]
  rhsNonContracting := [1]
  lhsBatch := []
  rhsBatch := []
  wf := dot_S4096x2048_S2048x512_S4096x512_1_0_0_1_n_n_wf
def gather_S7x512_S4096x4x1_S4096x4x512_2_0_n_n_0_2_1512 : GatherDims S7x512 S4096x4x1 S4096x4x512 where
  offsetDims := [2]
  collapsedSliceDims := [0]
  operandBatchingDims := []
  startIndicesBatchingDims := []
  startIndexMap := [0]
  indexVectorDim := 2
  sliceSizes := ![1, 512]
  wf := gather_S7x512_S4096x4x1_S4096x4x512_2_0_n_n_0_2_1512_wf
def dot_S4096x4x512_S9x512x512_S4096x4x9x512_2_2_01_01_n_n : DotDims S4096x4x512 S9x512x512 S4096x4x9x512 where
  lhsContracting := [2]
  rhsContracting := [2]
  lhsNonContracting := [0, 1]
  rhsNonContracting := [0, 1]
  lhsBatch := []
  rhsBatch := []
  wf := dot_S4096x4x512_S9x512x512_S4096x4x9x512_2_2_01_01_n_n_wf
def gather_S4096x4x9x512_S4096x4x1x1_S4096x4x1x512_3_2_01_01_2_3_111512 : GatherDims S4096x4x9x512 S4096x4x1x1 S4096x4x1x512 where
  offsetDims := [3]
  collapsedSliceDims := [2]
  operandBatchingDims := [0, 1]
  startIndicesBatchingDims := [0, 1]
  startIndexMap := [2]
  indexVectorDim := 3
  sliceSizes := ![1, 1, 1, 512]
  wf := gather_S4096x4x9x512_S4096x4x1x1_S4096x4x1x512_3_2_01_01_2_3_111512_wf
def gather_S7x512_S4096x1_S4096x512_1_0_n_n_0_1_1512 : GatherDims S7x512 S4096x1 S4096x512 where
  offsetDims := [1]
  collapsedSliceDims := [0]
  operandBatchingDims := []
  startIndicesBatchingDims := []
  startIndexMap := [0]
  indexVectorDim := 1
  sliceSizes := ![1, 512]
  wf := gather_S7x512_S4096x1_S4096x512_1_0_n_n_0_1_1512_wf
def dot_S4096x512_S9x512x512_S4096x9x512_1_2_0_01_n_n : DotDims S4096x512 S9x512x512 S4096x9x512 where
  lhsContracting := [1]
  rhsContracting := [2]
  lhsNonContracting := [0]
  rhsNonContracting := [0, 1]
  lhsBatch := []
  rhsBatch := []
  wf := dot_S4096x512_S9x512x512_S4096x9x512_1_2_0_01_n_n_wf
def gather_S4096x9x512_S4096x1x1_S4096x1x512_2_1_0_0_1_2_11512 : GatherDims S4096x9x512 S4096x1x1 S4096x1x512 where
  offsetDims := [2]
  collapsedSliceDims := [1]
  operandBatchingDims := [0]
  startIndicesBatchingDims := [0]
  startIndexMap := [1]
  indexVectorDim := 2
  sliceSizes := ![1, 1, 512]
  wf := gather_S4096x9x512_S4096x1x1_S4096x1x512_2_1_0_0_1_2_11512_wf

class Facts : Prop extends Facts₀ where

variable [Facts]
-- ==== Proof.TableRegionW.lean ====
/- The first kernel region (the 9×7×512 table of rectified products) as proof data for the pipeline:
   what each window's staging buffer holds before and after the body at a grid point, at any float instance,
   from the buffers' contents `V` when the region is entered. The body reads the whole 7×512 embedding block once
   and each of the nine 512×512 operator slabs once, and stores the nine 1×7×512 slabs of the table; the table
   block after the body is the assembly `tableOut` of those nine stored slabs. -/
import proofs.«423928_j62526133895556_3_alg».proof.Proof.Gen.Kernel.Launch
import proofs.«423928_j62526133895556_3_alg».proof.Proof.Gen.Kernel.Skeleton
import proofs.«423928_j62526133895556_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole embedding block. -/
abbrev rE : Rect S7x512 := Rect.unit (s := S7x512) ![0, 0] S7x512.size inb_S7x512_S7x512_0_0
/-- Slab `r` of the operator block. -/
abbrev rO0 : Rect S9x512x512 := Rect.unit (s := S9x512x512) ![0, 0, 0] S1x512x512.size inb_S9x512x512_S1x512x512_0_0_0
abbrev rO1 : Rect S9x512x512 := Rect.unit (s := S9x512x512) ![1, 0, 0] S1x512x512.size inb_S9x512x512_S1x512x512_1_0_0
abbrev rO2 : Rect S9x512x512 := Rect.unit (s := S9x512x512) ![2, 0, 0] S1x512x512.size inb_S9x512x512_S1x512x512_2_0_0
abbrev rO3 : Rect S9x512x512 := Rect.unit (s := S9x512x512) ![3, 0, 0] S1x512x512.size inb_S9x512x512_S1x512x512_3_0_0
abbrev rO4 : Rect S9x512x512 := Rect.unit (s := S9x512x512) ![4, 0, 0] S1x512x512.size inb_S9x512x512_S1x512x512_4_0_0
abbrev rO5 : Rect S9x512x512 := Rect.unit (s := S9x512x512) ![5, 0, 0] S1x512x512.size inb_S9x512x512_S1x512x512_5_0_0
abbrev rO6 : Rect S9x512x512 := Rect.unit (s := S9x512x512) ![6, 0, 0] S1x512x512.size inb_S9x512x512_S1x512x512_6_0_0
abbrev rO7 : Rect S9x512x512 := Rect.unit (s := S9x512x512) ![7, 0, 0] S1x512x512.size inb_S9x512x512_S1x512x512_7_0_0
abbrev rO8 : Rect S9x512x512 := Rect.unit (s := S9x512x512) ![8, 0, 0] S1x512x512.size inb_S9x512x512_S1x512x512_8_0_0
/-- Slab `r` of the table block. -/
abbrev rT0 : Rect S9x7x512 := Rect.unit (s := S9x7x512) ![0, 0, 0] S1x7x512.size inb_S9x7x512_S1x7x512_0_0_0
abbrev rT1 : Rect S9x7x512 := Rect.unit (s := S9x7x512) ![1, 0, 0] S1x7x512.size inb_S9x7x512_S1x7x512_1_0_0
abbrev rT2 : Rect S9x7x512 := Rect.unit (s := S9x7x512) ![2, 0, 0] S1x7x512.size inb_S9x7x512_S1x7x512_2_0_0
abbrev rT3 : Rect S9x7x512 := Rect.unit (s := S9x7x512) ![3, 0, 0] S1x7x512.size inb_S9x7x512_S1x7x512_3_0_0
abbrev rT4 : Rect S9x7x512 := Rect.unit (s := S9x7x512) ![4, 0, 0] S1x7x512.size inb_S9x7x512_S1x7x512_4_0_0
abbrev rT5 : Rect S9x7x512 := Rect.unit (s := S9x7x512) ![5, 0, 0] S1x7x512.size inb_S9x7x512_S1x7x512_5_0_0
abbrev rT6 : Rect S9x7x512 := Rect.unit (s := S9x7x512) ![6, 0, 0] S1x7x512.size inb_S9x7x512_S1x7x512_6_0_0
abbrev rT7 : Rect S9x7x512 := Rect.unit (s := S9x7x512) ![7, 0, 0] S1x7x512.size inb_S9x7x512_S1x7x512_7_0_0
abbrev rT8 : Rect S9x7x512 := Rect.unit (s := S9x7x512) ![8, 0, 0] S1x7x512.size inb_S9x7x512_S1x7x512_8_0_0

/-- The table block after the body, from the embedding block `x0` and the operator block `x1`: its nine stored
    slabs, the last store first. Slab `r` is the rectified product of the embedding block with slab `r` of the operators. -/
def tableOut (x0 : Vec F S7x512 .f32) (x1 : Vec F S9x512x512 .f32) : Vec F S9x7x512 .f32 :=
  View.canon [
    ⟨rT8, k0_pay3 (k0_pay4 (View.ld x0 rE)) (View.ld x1 rO8)⟩,
    ⟨rT7, k0_pay2 (k0_pay4 (View.ld x0 rE)) (View.ld x1 rO7)⟩,
    ⟨rT6, k0_pay1 (k0_pay4 (View.ld x0 rE)) (k0_pay11 (View.ld x1 rO6)) (constant S7x512 .f32 0x00000000#32)⟩,
    ⟨rT5, k0_pay10 (k0_pay4 (View.ld x0 rE)) (View.ld x1 rO5)⟩,
    ⟨rT4, k0_pay9 (k0_pay4 (View.ld x0 rE)) (View.ld x1 rO4)⟩,
    ⟨rT3, k0_pay8 (k0_pay4 (View.ld x0 rE)) (View.ld x1 rO3)⟩,
    ⟨rT2, k0_pay7 (View.ld x0 rE) (View.ld x1 rO2)⟩,
    ⟨rT1, k0_pay6 (View.ld x0 rE) (View.ld x1 rO1)⟩,
    ⟨rT0, k0_pay5 (View.ld x0 rE) (View.ld x1 rO0)⟩]

/-- The proof data of the first pipeline on core `c`: the arrays as the region finds them; after the body each input's
    buffer at its block and the table's buffer at `tableOut` of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => tableOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = tableOut (iblk0 V c 0 t) (iblk0 V c 1 t) := by dsimp only [dat0]

/-- An input window's current staging buffer holds its block at every point, for any proof data whose array is the
    entry contents and whose body leaves the block in place: the window is fetched whole at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The nine stored slabs tile the table block, so they cover it. -/
theorem coverT (p0 p1 p2 p3 p4 p5 p6 p7 p8 : Vec F S1x7x512 .f32) (y : S9x7x512.Idx) :
    ∃ pc ∈ ([⟨rT8, p8⟩, ⟨rT7, p7⟩, ⟨rT6, p6⟩, ⟨rT5, p5⟩, ⟨rT4, p4⟩, ⟨rT3, p3⟩, ⟨rT2, p2⟩, ⟨rT1, p1⟩, ⟨rT0, p0⟩] :
      List (View.Piece (Elt F) S9x7x512 .f32)), y ∈ pc.1.set :=
  View.cover_of_tiled [⟨rT8, p8⟩, ⟨rT7, p7⟩, ⟨rT6, p6⟩, ⟨rT5, p5⟩, ⟨rT4, p4⟩, ⟨rT3, p3⟩, ⟨rT2, p2⟩, ⟨rT1, p1⟩, ⟨rT0, p0⟩]
    S1x7x512.size (by rfl) y

set_option maxHeartbeats 4000000 in
/-- The kernel body on whole staging memrefs, the two inputs' at read contents `x0`, `x1` and the table's at anything,
    runs to the continuation holding the inputs' as they were and the table's at `tableOut x0 x1`. -/
theorem sound_kernel0 (c : Dev nD) (E : Set ℕ) (i : grid0.Coords)
    (arg1 : Memref sig .tc .vmem S7x512 .f32) (harg1 : arg1.IsWhole)
    (arg2 : Memref sig .tc .vmem S9x512x512 .f32) (harg2 : arg2.IsWhole)
    (arg3 : Memref sig .tc .vmem S9x7x512 .f32) (harg3 : arg3.IsWhole)
    (x0 : Vec F S7x512 .f32) (x1 : Vec F S9x512x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (tableOut x0 x1)) -∗ K ⟨⟩))
      ⊢ wp frame (wpE (defs₀ (F := F)) Variants.none c none) E (cc0__table_build_kernel i arg1 harg1 arg2 harg2 arg3 harg3) K := by
  simp only [cc0__table_build_kernel_eq_skeleton]; unfold cc0__table_build_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (coverT _ _ _ _ _ _ _ _ _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the first pipeline, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FusedRegionW.lean ====
/- The second kernel region (the fused embedder, pooled table look-up and triplet hinge, one tile of 512 rows per
   grid point) as proof data for the pipeline: what each window's staging buffer holds before and after the body at
   a grid point, at any float instance, from the buffers' contents `V` when the region is entered. The body reads
   each of its six input blocks whole, once, and stores the 512 hinge values of the tile, once: the output block
   after the body is `hingeOut` of the six input blocks. -/
import proofs.«423928_j62526133895556_3_alg».proof.Proof.Gen.Kernel.Launch
import proofs.«423928_j62526133895556_3_alg».proof.Proof.Gen.Kernel.Skeleton
import proofs.«423928_j62526133895556_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each block is accessed whole. -/
abbrev rImg : Rect S512x2048 := Rect.unit (s := S512x2048) ![0, 0] S512x2048.size inb_S512x2048_S512x2048_0_0
abbrev rW : Rect S2048x512 := Rect.unit (s := S2048x512) ![0, 0] S2048x512.size inb_S2048x512_S2048x512_0_0
abbrev rB : Rect S1x512 := Rect.unit (s := S1x512) ![0, 0] S1x512.size inb_S1x512_S1x512_0_0
abbrev rIdx : Rect S512x8 := Rect.unit (s := S512x8) ![0, 0] S512x8.size inb_S512x8_S512x8_0_0
abbrev rScal : Rect S512x3 := Rect.unit (s := S512x3) ![0, 0] S512x3.size inb_S512x3_S512x3_0_0
abbrev rTab : Rect S63x512 := Rect.unit (s := S63x512) ![0, 0] S63x512.size inb_S63x512_S63x512_0_0
abbrev rH : Rect S512 := Rect.unit (s := S512) ![0] S512.size inb_S512_S512_0

/-- The lane index 0 … 62 along the table-row axis, the same in every row of the tile. -/
abbrev comboIota : IVec S512x63 32 := iota .tc S512x63 32 [1] iota_S512x63_d1_w32

/-- The hinge block after the body, from the six input blocks (image tile, weights, bias row, packed pair indices,
    packed count and negative indices, table): its one store. -/
def hingeOut (x0 : Vec F S512x2048 .f32) (x1 : Vec F S2048x512 .f32) (x2 : Vec F S1x512 .f32) (x3 : Vec F S512x8 .i32)
    (x4 : Vec F S512x3 .i32) (x5 : Vec F S63x512 .f32) : Vec F S512 .f32 :=
  View.canon [⟨rH, k1_pay1 (k1_pay2 (View.ld x0 rImg) (View.ld x1 rW) (View.ld x2 rB)) (k1_pay4 (View.ld x5 rTab))
    (k1_pay10 (View.ld x4 rScal)) (k1_pay11 (View.ld x4 rScal)) comboIota
    (k1_pay14 (k1_pay3 (View.ld x5 rTab)) (k1_pay6 (View.ld x3 rIdx)) (k1_pay7 (View.ld x3 rIdx)) (k1_pay9 (View.ld x4 rScal))
      (k1_pay12 (View.ld x4 rScal)) comboIota (k1_pay13 (View.ld x3 rIdx) (View.ld x4 rScal)))
    k1_pay15⟩]

/-- The proof data of the second pipeline on core `c`: the arrays as the region finds them; after the body each input's
    buffer at its block and the output's at `hingeOut` of the six input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => hingeOut (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    hingeOut (iblk1 V c 0 t) (iblk1 V c 1 t) (iblk1 V c 2 t) (iblk1 V c 3 t) (iblk1 V c 4 t) (iblk1 V c 5 t) := by dsimp only [dat1]

/-! ## What the body finds in each input's buffer -/

/-- Input window 0 (the image tile): its current buffer holds its block at every grid point, fetched there or not
    (where it is not fetched its block index has not moved), for any proof data over the arrays `V` whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the weights): its current buffer holds its block at every grid point, fetched there or not
    (where it is not fetched its block index has not moved), for any proof data over the arrays `V` whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the bias row): its current buffer holds its block at every grid point, fetched there or not
    (where it is not fetched its block index has not moved), for any proof data over the arrays `V` whose body leaves
    the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the packed pair indices): its current buffer holds its block at every grid point, fetched there or not
    (where it is not fetched its block index has not moved), for any proof data over the arrays `V` whose body leaves
    the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (the packed count and negative indices): its current buffer holds its block at every grid point, fetched there or not
    (where it is not fetched its block index has not moved), for any proof data over the arrays `V` whose body leaves
    the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5 (the table): its current buffer holds its block at every grid point, fetched there or not
    (where it is not fetched its block index has not moved), for any proof data over the arrays `V` whose body leaves
    the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output block -/

/-- The stored rectangle is the whole block of 512 values. -/
theorem cover1_6 (p0 : Vec F S512 .f32) (y : S512.Idx) :
    ∃ pc ∈ ([⟨rH, p0⟩] : List (View.Piece (Elt F) S512 .f32)), y ∈ pc.1.set :=
  View.cover_of_tiled [⟨rH, p0⟩] S512.size (by rfl) y

/-! ## The body's triple -/

set_option maxHeartbeats 4000000 in
/-- The kernel body on whole memrefs, the six inputs' at contents `x0` … `x5` and the output's at anything, runs to the
    continuation holding the inputs' as they were and the output's at `hingeOut` of the inputs': the body is its
    skeleton of memory operations (six whole loads, one unused load of the output, one whole store), run through
    both part calls. -/
theorem sound_kernel1 (c : Dev nD) (E : Set ℕ) (i : grid1.Coords) (arg1 : Memref sig .tc .vmem S512x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S512x8 .i32) (harg4 : arg4.IsWhole) (arg5 : Memref sig .tc .vmem S512x3 .i32) (harg5 : arg5.IsWhole) (arg6 : Memref sig .tc .vmem S63x512 .f32) (harg6 : arg6.IsWhole) (arg7 : Memref sig .tc .vmem S512 .f32) (harg7 : arg7.IsWhole)
    (x0 : Vec F S512x2048 .f32) (x1 : Vec F S2048x512 .f32) (x2 : Vec F S1x512 .f32) (x3 : Vec F S512x8 .i32) (x4 : Vec F S512x3 .i32) (x5 : Vec F S63x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hingeOut x0 x1 x2 x3 x4 x5)) -∗ K ⟨⟩))
      ⊢ wp frame (wpE (defs₀ (F := F)) Variants.none c none) E (cc1__fused_kernel i arg1 harg1 arg2 harg2 arg3 harg3 arg4 harg4 arg5 harg5 arg6 harg6 arg7 harg7) K := by
  simp only [cc1__fused_kernel_eq_skeleton]; unfold cc1__fused_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The proof data's input buffers -/

/-- Each input's current buffer holds its block at every grid point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic grid point -/

/-- What the body is called with at point `t`: the invariant, what the core owes, and the seven windows' current
    buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any grid point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the second pipeline, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelValsW.lean ====
/- The contents of core `c`'s unscoped buffers at each boundary of the program's four items, as a fold from the launch
   memory `m`: the first kernel region (which writes the table array), a stretch of seven host operations (reshapes
   and the two packings of the index and scalar inputs), the second kernel region (which writes the hinge array),
   and a stretch of four host operations (the mean of the hinge values). A region leaves its arrays at what the
   pipeline's write-backs leave and every other buffer as it found it. -/
import proofs.«423928_j62526133895556_3_alg».proof.Proof.TableRegionW
import proofs.«423928_j62526133895556_3_alg».proof.Proof.FusedRegionW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- The same read at the core's own references (what the first region's proof data take). -/
abbrev V0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (V0 m) c).arrAt w cfg0.N
abbrev V1 : (c : Dev nD) → (b : Ref sig .tc) → Buf (Elt F) ((c : Thread nD τ).loc b) := fun c b => W1 m c b
/-- After the seven host operations between the regions (the second region's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the four closing host operations: the program's last contents. -/
abbrev W4 : Dev nD → Valuation τ sig (Elt F) := fun c => StableHlo.after hostOps2 (W3 m c)

theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

end Cert.Kernel.Hand

end
-- ==== Proof.KernelRunW.lean ====
/- The run of the whole program from the launch: its two kernel regions and its two host stretches as segments over
   the thread state "every unscoped buffer of the core at the boundary's contents, the generator register at some
   state, nothing owed", chained from the launch memory to the last contents `W4`. Every weakly fair execution
   terminates, nothing faulting, and the final memory holds every unscoped buffer at `W4`; the argument arrays are
   written by no item, so they end as launched. -/
import proofs.«423928_j62526133895556_3_alg».proof.Proof.KernelValsW
import proofs.«423928_j62526133895556_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region leaves: its arrays at the write-backs' fold, every other buffer as entered -/

/-- When the first region is left each of its arrays holds what the pipeline leaves there, -/
theorem exitArr0 (c : Dev nD) (w : Fin cfg0.W) : (dat0 (V0 m) c).arrAt w cfg0.N = V1 m c (Pipeline.arrRef spec0 w) :=
  (W1_arr m c w).symm
/-- and a buffer that is none of its arrays holds what it held when the region was entered. -/
theorem exitRest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- The same two facts for the second region. -/
theorem exitArr1 (c : Dev nD) (w : Fin cfg1.W) : (dat1 (V2 m) c).arrAt w cfg1.N = V3 m c (Pipeline.arrRef spec1 w) :=
  (W3_arr m c w).symm
theorem exitRest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data of both pipelines and the thread state -/

/-- Each pipeline's proof data at the contents its region is entered from: the first region's at the launch
    contents, the second's at the contents after the seven host operations. Matching on the literal index lets the
    pipeline's configuration at a numeral reduce to the printed one. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
/-- No barrier variant is in play. -/
abbrev noVar : Variants := Variants.none
/-- No core owes another anything, so no pair carries a level. -/
abbrev noPairs : GSem nD τ sig → Finset Unit := fun _ => ∅
abbrev noLevel : GSem nD τ sig → Unit → ℕ := fun _ _ => 0
/-- What rides beside the buffers through every segment: the core's generator register at some state and the core
    owing nothing. -/
abbrev ride (c : Dev nD) : sProp 𝕄 := iprop((∃ r, prngReg c r) ∗ ∃ W, owes (c : Thread nD τ) (0 : CellTallies nD τ sig Unit) W)
/-- A stretch of host operations as a segment: from every unscoped buffer at `W c` to every unscoped buffer at
    `StableHlo.after ops (W c)`, `ride` untouched. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride
/-- The last thread state but for the `owes`: every unscoped buffer at the last contents `W4`, the generator register
    at some state. -/
abbrev lastState (c : Dev nD) : sProp 𝕄 := iprop(StableHlo.held (c : Thread nD τ) (Pipeline.ucRefs τ sig) (W4 m c) ∗ ∃ r, prngReg c r)

/-! ## The two kernel regions as segments -/

-- a library lemma stated over the pipeline's configuration at an index meets the printed configuration only when
-- unification may unfold plain definitions inside a metavariable's type
set_option backward.isDefEq.respectTransparency.types false in
/-- THE FIRST REGION over the thread state: entered from every unscoped buffer at the launch contents `W0`, left at
    `W1`. Its three arrays are split out of the unscoped buffers and put back at what the write-backs leave; the
    generator register goes into the pipeline's invariant and comes out; nothing is owed; the kernel has no semaphore
    of its own. -/
def reg0 : Pipeline.RegionSeg (pcfgs (F := F)) adm (pdats m) () defs₀ noVar noPairs noLevel 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ noPairs noLevel 0 fun _ _ => rfl
  pre c := iprop(StableHlo.held (c : Thread nD τ) (Pipeline.ucRefs τ sig) (W0 m c) ∗ ride c)
  post c := iprop(StableHlo.held (c : Thread nD τ) (Pipeline.ucRefs τ sig) (W1 m c) ∗ ride c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pipeline's configuration at an index meets the printed configuration only when
-- unification may unfold plain definitions inside a metavariable's type
set_option backward.isDefEq.respectTransparency.types false in
/-- THE SECOND REGION over the thread state: entered from every unscoped buffer at `W2` (the contents after the seven
    host operations), left at `W3`. Its seven arrays are split out and put back in the same way. -/
def reg1 : Pipeline.RegionSeg (pcfgs (F := F)) adm (pdats m) () defs₀ noVar noPairs noLevel 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ noPairs noLevel 1 fun _ _ => rfl
  pre c := iprop(StableHlo.held (c : Thread nD τ) (Pipeline.ucRefs τ sig) (W2 m c) ∗ ride c)
  post c := iprop(StableHlo.held (c : Thread nD τ) (Pipeline.ucRefs τ sig) (W3 m c) ∗ ride c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's four segments in order: region, host stretch, region, host stretch, each from its boundary's contents. -/
abbrev segs : List (Pipeline.Seg (pcfgs (F := F)) adm (pdats m) () defs₀ noVar noPairs noLevel) :=
  [ .region (reg0 m),
    .host (hostSeg hostOps1 hostOps1_sub hostOps1_fresh (W1 m)),
    .region (reg1 m),
    .host (hostSeg hostOps2 hostOps2_sub hostOps2_fresh (W3 m)) ]
/-- The program is the run of these segments: it is the chain of its four items, and the segments' run unfolds to the
    same chain. -/
theorem main_run (c : Dev nD) : main (F := F) c = Pipeline.Seg.run (segs m) := (main_chain c).trans (by chain_rfl)

-- the launch theorem's implicit arguments are found by unifying its conclusion with the statement, which takes
-- unfolding plain definitions inside a metavariable's type
set_option backward.isDefEq.respectTransparency.types false in
/-- THE RUN: every weakly fair execution of the program from memory `m` with zero counters terminates, nothing
    faulting, and the final memory holds each unscoped buffer of each core at the last contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ noVar noPairs noLevel m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ ride c)) (Tₙ := lastState m)
    (hch := ⟨fun _ => .rfl, fun _ => .rfl, fun _ => .rfl, fun _ => .rfl, fun c => by
      show (iprop(StableHlo.held (c : Thread nD τ) (Pipeline.ucRefs τ sig) (W4 m c)
          ∗ (∃ r, prngReg c r) ∗ ∃ W, owes (c : Thread nD τ) (0 : CellTallies nD τ sig Unit) W) : sProp 𝕄)
        ⊢ iprop((StableHlo.held (c : Thread nD τ) (Pipeline.ucRefs τ sig) (W4 m c) ∗ ∃ r, prngReg c r)
          ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched

No host operation writes an argument array, and a region either bypasses it or reads it through an input window,
whose array the pipeline leaves as entered: the fold at an argument's buffer walks back to the launch memory. -/

/-- No item writes an argument array: read through the fold, each holds its launch contents at the end. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := (W3_arr m c 0).trans (((dat1 (V2 m) c).arrAt_in 0 rfl _).trans (A_eq1 (V2 m) c 0))
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := (W3_arr m c 1).trans (((dat1 (V2 m) c).arrAt_in 1 rfl _).trans (A_eq1 (V2 m) c 1))
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := (W1_arr m c 0).trans (((dat0 (V0 m) c).arrAt_in 0 rfl _).trans (A_eq0 (V0 m) c 0))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := StableHlo.after_of_writes_sub hostOps1 _ hostOps1_writes (by decide)
    _ = W0 m c (Proc.devRef .tc main_arg4) := (W1_arr m c 1).trans (((dat0 (V0 m) c).arrAt_in 1 rfl _).trans (A_eq0 (V0 m) c 1))
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := StableHlo.after_of_writes_sub hostOps1 _ hostOps1_writes (by decide)
    _ = W0 m c (Proc.devRef .tc main_arg5) := W1_of_ne m c main_arg5 (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (by decide)
    _ = W2 m c (Proc.devRef .tc main_arg6) := W3_of_ne m c main_arg6 (by decide)
    _ = W1 m c (Proc.devRef .tc main_arg6) := StableHlo.after_of_writes_sub hostOps1 _ hostOps1_writes (by decide)
    _ = W0 m c (Proc.devRef .tc main_arg6) := W1_of_ne m c main_arg6 (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_writes_sub hostOps2 _ hostOps2_writes (by decide)
    _ = W2 m c (Proc.devRef .tc main_arg7) := W3_of_ne m c main_arg7 (by decide)
    _ = W1 m c (Proc.devRef .tc main_arg7) := StableHlo.after_of_writes_sub hostOps1 _ hostOps1_writes (by decide)
    _ = W0 m c (Proc.devRef .tc main_arg7) := W1_of_ne m c main_arg7 (by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := StableHlo.after_of_writes_sub hostOps2 _ hostOps2_writes (by decide)
    _ = W2 m c (Proc.devRef .tc main_arg8) := W3_of_ne m c main_arg8 (by decide)
    _ = W1 m c (Proc.devRef .tc main_arg8) := StableHlo.after_of_writes_sub hostOps1 _ hostOps1_writes (by decide)
    _ = W0 m c (Proc.devRef .tc main_arg8) := W1_of_ne m c main_arg8 (by decide)
    _ = m ((c : Thread nD τ).loc main_arg8) := rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) := StableHlo.after_of_writes_sub hostOps2 _ hostOps2_writes (by decide)
    _ = W2 m c (Proc.devRef .tc main_arg9) := W3_of_ne m c main_arg9 (by decide)
    _ = W1 m c (Proc.devRef .tc main_arg9) := StableHlo.after_of_writes_sub hostOps1 _ hostOps1_writes (by decide)
    _ = W0 m c (Proc.devRef .tc main_arg9) := W1_of_ne m c main_arg9 (by decide)
    _ = m ((c : Thread nD τ).loc main_arg9) := rfl

/-- The run with the result array named and the arguments read back: what both value claims and the frame claim take. -/
theorem run_result : θ_run defs (onTc (τ := τ) (main (F := F))) ⟨m, fun _ => 0, ρ⟩ (fun r => ∀ c : Dev nD,
      r.2.mem ((c.tc : Thread nD τ).loc main_v10) = W4 m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v10 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c),
     (h c _ (mem_uc main_arg9 (by decide))).trans (W4_main_arg9 m c)⟩) (run m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_result m ρ)

end Cert.Kernel.Hand

end
-- ==== Proof.TableRegion.lean ====
/- The first kernel region (the 9×7×512 table of rectified products) as proof data for the pipeline:
   what each window's staging buffer holds before and after the body at a grid point, at any float instance,
   from the buffers' contents `V` when the region is entered. The body reads the whole 7×512 embedding block once
   and each of the nine 512×512 operator slabs once, and stores the nine 1×7×512 slabs of the table; the table
   block after the body is the assembly `tableOut` of those nine stored slabs. -/
import proofs.«423928_j62526133895556_3_alg».proof.Proof.Gen.KernelIdeal.Launch
import proofs.«423928_j62526133895556_3_alg».proof.Proof.Gen.KernelIdeal.Skeleton
import proofs.«423928_j62526133895556_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole embedding block. -/
abbrev rE : Rect S7x512 := Rect.unit (s := S7x512) ![0, 0] S7x512.size inb_S7x512_S7x512_0_0
/-- Slab `r` of the operator block. -/
abbrev rO0 : Rect S9x512x512 := Rect.unit (s := S9x512x512) ![0, 0, 0] S1x512x512.size inb_S9x512x512_S1x512x512_0_0_0
abbrev rO1 : Rect S9x512x512 := Rect.unit (s := S9x512x512) ![1, 0, 0] S1x512x512.size inb_S9x512x512_S1x512x512_1_0_0
abbrev rO2 : Rect S9x512x512 := Rect.unit (s := S9x512x512) ![2, 0, 0] S1x512x512.size inb_S9x512x512_S1x512x512_2_0_0
abbrev rO3 : Rect S9x512x512 := Rect.unit (s := S9x512x512) ![3, 0, 0] S1x512x512.size inb_S9x512x512_S1x512x512_3_0_0
abbrev rO4 : Rect S9x512x512 := Rect.unit (s := S9x512x512) ![4, 0, 0] S1x512x512.size inb_S9x512x512_S1x512x512_4_0_0
abbrev rO5 : Rect S9x512x512 := Rect.unit (s := S9x512x512) ![5, 0, 0] S1x512x512.size inb_S9x512x512_S1x512x512_5_0_0
abbrev rO6 : Rect S9x512x512 := Rect.unit (s := S9x512x512) ![6, 0, 0] S1x512x512.size inb_S9x512x512_S1x512x512_6_0_0
abbrev rO7 : Rect S9x512x512 := Rect.unit (s := S9x512x512) ![7, 0, 0] S1x512x512.size inb_S9x512x512_S1x512x512_7_0_0
abbrev rO8 : Rect S9x512x512 := Rect.unit (s := S9x512x512) ![8, 0, 0] S1x512x512.size inb_S9x512x512_S1x512x512_8_0_0
/-- Slab `r` of the table block. -/
abbrev rT0 : Rect S9x7x512 := Rect.unit (s := S9x7x512) ![0, 0, 0] S1x7x512.size inb_S9x7x512_S1x7x512_0_0_0
abbrev rT1 : Rect S9x7x512 := Rect.unit (s := S9x7x512) ![1, 0, 0] S1x7x512.size inb_S9x7x512_S1x7x512_1_0_0
abbrev rT2 : Rect S9x7x512 := Rect.unit (s := S9x7x512) ![2, 0, 0] S1x7x512.size inb_S9x7x512_S1x7x512_2_0_0
abbrev rT3 : Rect S9x7x512 := Rect.unit (s := S9x7x512) ![3, 0, 0] S1x7x512.size inb_S9x7x512_S1x7x512_3_0_0
abbrev rT4 : Rect S9x7x512 := Rect.unit (s := S9x7x512) ![4, 0, 0] S1x7x512.size inb_S9x7x512_S1x7x512_4_0_0
abbrev rT5 : Rect S9x7x512 := Rect.unit (s := S9x7x512) ![5, 0, 0] S1x7x512.size inb_S9x7x512_S1x7x512_5_0_0
abbrev rT6 : Rect S9x7x512 := Rect.unit (s := S9x7x512) ![6, 0, 0] S1x7x512.size inb_S9x7x512_S1x7x512_6_0_0
abbrev rT7 : Rect S9x7x512 := Rect.unit (s := S9x7x512) ![7, 0, 0] S1x7x512.size inb_S9x7x512_S1x7x512_7_0_0
abbrev rT8 : Rect S9x7x512 := Rect.unit (s := S9x7x512) ![8, 0, 0] S1x7x512.size inb_S9x7x512_S1x7x512_8_0_0

/-- The table block after the body, from the embedding block `x0` and the operator block `x1`: its nine stored
    slabs, the last store first. Slab `r` is the rectified product of the embedding block with slab `r` of the operators. -/
def tableOut (x0 : Vec F S7x512 .f32) (x1 : Vec F S9x512x512 .f32) : Vec F S9x7x512 .f32 :=
  View.canon [
    ⟨rT8, k0_pay3 (k0_pay4 (View.ld x0 rE)) (View.ld x1 rO8)⟩,
    ⟨rT7, k0_pay2 (k0_pay4 (View.ld x0 rE)) (View.ld x1 rO7)⟩,
    ⟨rT6, k0_pay1 (k0_pay4 (View.ld x0 rE)) (k0_pay11 (View.ld x1 rO6)) (constant S7x512 .f32 0x00000000#32)⟩,
    ⟨rT5, k0_pay10 (k0_pay4 (View.ld x0 rE)) (View.ld x1 rO5)⟩,
    ⟨rT4, k0_pay9 (k0_pay4 (View.ld x0 rE)) (View.ld x1 rO4)⟩,
    ⟨rT3, k0_pay8 (k0_pay4 (View.ld x0 rE)) (View.ld x1 rO3)⟩,
    ⟨rT2, k0_pay7 (View.ld x0 rE) (View.ld x1 rO2)⟩,
    ⟨rT1, k0_pay6 (View.ld x0 rE) (View.ld x1 rO1)⟩,
    ⟨rT0, k0_pay5 (View.ld x0 rE) (View.ld x1 rO0)⟩]

/-- The proof data of the first pipeline on core `c`: the arrays as the region finds them; after the body each input's
    buffer at its block and the table's buffer at `tableOut` of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => tableOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = tableOut (iblk0 V c 0 t) (iblk0 V c 1 t) := by dsimp only [dat0]

/-- An input window's current staging buffer holds its block at every point, for any proof data whose array is the
    entry contents and whose body leaves the block in place: the window is fetched whole at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The nine stored slabs tile the table block, so they cover it. -/
theorem coverT (p0 p1 p2 p3 p4 p5 p6 p7 p8 : Vec F S1x7x512 .f32) (y : S9x7x512.Idx) :
    ∃ pc ∈ ([⟨rT8, p8⟩, ⟨rT7, p7⟩, ⟨rT6, p6⟩, ⟨rT5, p5⟩, ⟨rT4, p4⟩, ⟨rT3, p3⟩, ⟨rT2, p2⟩, ⟨rT1, p1⟩, ⟨rT0, p0⟩] :
      List (View.Piece (Elt F) S9x7x512 .f32)), y ∈ pc.1.set :=
  View.cover_of_tiled [⟨rT8, p8⟩, ⟨rT7, p7⟩, ⟨rT6, p6⟩, ⟨rT5, p5⟩, ⟨rT4, p4⟩, ⟨rT3, p3⟩, ⟨rT2, p2⟩, ⟨rT1, p1⟩, ⟨rT0, p0⟩]
    S1x7x512.size (by rfl) y

set_option maxHeartbeats 4000000 in
/-- The kernel body on whole staging memrefs, the two inputs' at read contents `x0`, `x1` and the table's at anything,
    runs to the continuation holding the inputs' as they were and the table's at `tableOut x0 x1`. -/
theorem sound_kernel0 (c : Dev nD) (E : Set ℕ) (i : grid0.Coords)
    (arg1 : Memref sig .tc .vmem S7x512 .f32) (harg1 : arg1.IsWhole)
    (arg2 : Memref sig .tc .vmem S9x512x512 .f32) (harg2 : arg2.IsWhole)
    (arg3 : Memref sig .tc .vmem S9x7x512 .f32) (harg3 : arg3.IsWhole)
    (x0 : Vec F S7x512 .f32) (x1 : Vec F S9x512x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (tableOut x0 x1)) -∗ K ⟨⟩))
      ⊢ wp frame (wpE (defs₀ (F := F)) Variants.none c none) E (cc0__table_build_kernel i arg1 harg1 arg2 harg2 arg3 harg3) K := by
  simp only [cc0__table_build_kernel_eq_skeleton]; unfold cc0__table_build_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (coverT _ _ _ _ _ _ _ _ _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for the first pipeline, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FusedRegion.lean ====
/- The second kernel region (the fused embedder, pooled table look-up and triplet hinge, one tile of 512 rows per
   grid point) as proof data for the pipeline: what each window's staging buffer holds before and after the body at
   a grid point, at any float instance, from the buffers' contents `V` when the region is entered. The body reads
   each of its six input blocks whole, once, and stores the 512 hinge values of the tile, once: the output block
   after the body is `hingeOut` of the six input blocks. -/
import proofs.«423928_j62526133895556_3_alg».proof.Proof.Gen.KernelIdeal.Launch
import proofs.«423928_j62526133895556_3_alg».proof.Proof.Gen.KernelIdeal.Skeleton
import proofs.«423928_j62526133895556_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each block is accessed whole. -/
abbrev rImg : Rect S512x2048 := Rect.unit (s := S512x2048) ![0, 0] S512x2048.size inb_S512x2048_S512x2048_0_0
abbrev rW : Rect S2048x512 := Rect.unit (s := S2048x512) ![0, 0] S2048x512.size inb_S2048x512_S2048x512_0_0
abbrev rB : Rect S1x512 := Rect.unit (s := S1x512) ![0, 0] S1x512.size inb_S1x512_S1x512_0_0
abbrev rIdx : Rect S512x8 := Rect.unit (s := S512x8) ![0, 0] S512x8.size inb_S512x8_S512x8_0_0
abbrev rScal : Rect S512x3 := Rect.unit (s := S512x3) ![0, 0] S512x3.size inb_S512x3_S512x3_0_0
abbrev rTab : Rect S63x512 := Rect.unit (s := S63x512) ![0, 0] S63x512.size inb_S63x512_S63x512_0_0
abbrev rH : Rect S512 := Rect.unit (s := S512) ![0] S512.size inb_S512_S512_0

/-- The lane index 0 … 62 along the table-row axis, the same in every row of the tile. -/
abbrev comboIota : IVec S512x63 32 := iota .tc S512x63 32 [1] iota_S512x63_d1_w32

/-- The hinge block after the body, from the six input blocks (image tile, weights, bias row, packed pair indices,
    packed count and negative indices, table): its one store. -/
def hingeOut (x0 : Vec F S512x2048 .f32) (x1 : Vec F S2048x512 .f32) (x2 : Vec F S1x512 .f32) (x3 : Vec F S512x8 .i32)
    (x4 : Vec F S512x3 .i32) (x5 : Vec F S63x512 .f32) : Vec F S512 .f32 :=
  View.canon [⟨rH, k1_pay1 (k1_pay2 (View.ld x0 rImg) (View.ld x1 rW) (View.ld x2 rB)) (k1_pay4 (View.ld x5 rTab))
    (k1_pay10 (View.ld x4 rScal)) (k1_pay11 (View.ld x4 rScal)) comboIota
    (k1_pay14 (k1_pay3 (View.ld x5 rTab)) (k1_pay6 (View.ld x3 rIdx)) (k1_pay7 (View.ld x3 rIdx)) (k1_pay9 (View.ld x4 rScal))
      (k1_pay12 (View.ld x4 rScal)) comboIota (k1_pay13 (View.ld x3 rIdx) (View.ld x4 rScal)))
    k1_pay15⟩]

/-- The proof data of the second pipeline on core `c`: the arrays as the region finds them; after the body each input's
    buffer at its block and the output's at `hingeOut` of the six input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => hingeOut (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    hingeOut (iblk1 V c 0 t) (iblk1 V c 1 t) (iblk1 V c 2 t) (iblk1 V c 3 t) (iblk1 V c 4 t) (iblk1 V c 5 t) := by dsimp only [dat1]

/-! ## What the body finds in each input's buffer -/

/-- Input window 0 (the image tile): its current buffer holds its block at every grid point, fetched there or not
    (where it is not fetched its block index has not moved), for any proof data over the arrays `V` whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the weights): its current buffer holds its block at every grid point, fetched there or not
    (where it is not fetched its block index has not moved), for any proof data over the arrays `V` whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the bias row): its current buffer holds its block at every grid point, fetched there or not
    (where it is not fetched its block index has not moved), for any proof data over the arrays `V` whose body leaves
    the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the packed pair indices): its current buffer holds its block at every grid point, fetched there or not
    (where it is not fetched its block index has not moved), for any proof data over the arrays `V` whose body leaves
    the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (the packed count and negative indices): its current buffer holds its block at every grid point, fetched there or not
    (where it is not fetched its block index has not moved), for any proof data over the arrays `V` whose body leaves
    the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5 (the table): its current buffer holds its block at every grid point, fetched there or not
    (where it is not fetched its block index has not moved), for any proof data over the arrays `V` whose body leaves
    the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output block -/

/-- The stored rectangle is the whole block of 512 values. -/
theorem cover1_6 (p0 : Vec F S512 .f32) (y : S512.Idx) :
    ∃ pc ∈ ([⟨rH, p0⟩] : List (View.Piece (Elt F) S512 .f32)), y ∈ pc.1.set :=
  View.cover_of_tiled [⟨rH, p0⟩] S512.size (by rfl) y

/-! ## The body's triple -/

set_option maxHeartbeats 4000000 in
/-- The kernel body on whole memrefs, the six inputs' at contents `x0` … `x5` and the output's at anything, runs to the
    continuation holding the inputs' as they were and the output's at `hingeOut` of the inputs': the body is its
    skeleton of memory operations (six whole loads, one unused load of the output, one whole store), run through
    both part calls. -/
theorem sound_kernel1 (c : Dev nD) (E : Set ℕ) (i : grid1.Coords) (arg1 : Memref sig .tc .vmem S512x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S512x8 .i32) (harg4 : arg4.IsWhole) (arg5 : Memref sig .tc .vmem S512x3 .i32) (harg5 : arg5.IsWhole) (arg6 : Memref sig .tc .vmem S63x512 .f32) (harg6 : arg6.IsWhole) (arg7 : Memref sig .tc .vmem S512 .f32) (harg7 : arg7.IsWhole)
    (x0 : Vec F S512x2048 .f32) (x1 : Vec F S2048x512 .f32) (x2 : Vec F S1x512 .f32) (x3 : Vec F S512x8 .i32) (x4 : Vec F S512x3 .i32) (x5 : Vec F S63x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hingeOut x0 x1 x2 x3 x4 x5)) -∗ K ⟨⟩))
      ⊢ wp frame (wpE (defs₀ (F := F)) Variants.none c none) E (cc1__fused_kernel i arg1 harg1 arg2 harg2 arg3 harg3 arg4 harg4 arg5 harg5 arg6 harg6 arg7 harg7) K := by
  simp only [cc1__fused_kernel_eq_skeleton]; unfold cc1__fused_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The proof data's input buffers -/

/-- Each input's current buffer holds its block at every grid point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic grid point -/

/-- What the body is called with at point `t`: the invariant, what the core owes, and the seven windows' current
    buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any grid point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the second pipeline, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelVals.lean ====
/- The contents of core `c`'s unscoped buffers at each boundary of the program's four items, as a fold from the launch
   memory `m`: the first kernel region (which writes the table array), a stretch of seven host operations (reshapes
   and the two packings of the index and scalar inputs), the second kernel region (which writes the hinge array),
   and a stretch of four host operations (the mean of the hinge values). A region leaves its arrays at what the
   pipeline's write-backs leave and every other buffer as it found it. -/
import proofs.«423928_j62526133895556_3_alg».proof.Proof.TableRegion
import proofs.«423928_j62526133895556_3_alg».proof.Proof.FusedRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- The same read at the core's own references (what the first region's proof data take). -/
abbrev V0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (V0 m) c).arrAt w cfg0.N
abbrev V1 : (c : Dev nD) → (b : Ref sig .tc) → Buf (Elt F) ((c : Thread nD τ).loc b) := fun c b => W1 m c b
/-- After the seven host operations between the regions (the second region's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the four closing host operations: the program's last contents. -/
abbrev W4 : Dev nD → Valuation τ sig (Elt F) := fun c => StableHlo.after hostOps2 (W3 m c)

theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

end Cert.KernelIdeal.Hand

end
-- ==== Proof.KernelRun.lean ====
/- The run of the whole program from the launch: its two kernel regions and its two host stretches as segments over
   the thread state "every unscoped buffer of the core at the boundary's contents, the generator register at some
   state, nothing owed", chained from the launch memory to the last contents `W4`. Every weakly fair execution
   terminates, nothing faulting, and the final memory holds every unscoped buffer at `W4`; the argument arrays are
   written by no item, so they end as launched. -/
import proofs.«423928_j62526133895556_3_alg».proof.Proof.KernelVals
import proofs.«423928_j62526133895556_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region leaves: its arrays at the write-backs' fold, every other buffer as entered -/

/-- When the first region is left each of its arrays holds what the pipeline leaves there, -/
theorem exitArr0 (c : Dev nD) (w : Fin cfg0.W) : (dat0 (V0 m) c).arrAt w cfg0.N = V1 m c (Pipeline.arrRef spec0 w) :=
  (W1_arr m c w).symm
/-- and a buffer that is none of its arrays holds what it held when the region was entered. -/
theorem exitRest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- The same two facts for the second region. -/
theorem exitArr1 (c : Dev nD) (w : Fin cfg1.W) : (dat1 (V2 m) c).arrAt w cfg1.N = V3 m c (Pipeline.arrRef spec1 w) :=
  (W3_arr m c w).symm
theorem exitRest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data of both pipelines and the thread state -/

/-- Each pipeline's proof data at the contents its region is entered from: the first region's at the launch
    contents, the second's at the contents after the seven host operations. Matching on the literal index lets the
    pipeline's configuration at a numeral reduce to the printed one. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
/-- No barrier variant is in play. -/
abbrev noVar : Variants := Variants.none
/-- No core owes another anything, so no pair carries a level. -/
abbrev noPairs : GSem nD τ sig → Finset Unit := fun _ => ∅
abbrev noLevel : GSem nD τ sig → Unit → ℕ := fun _ _ => 0
/-- What rides beside the buffers through every segment: the core's generator register at some state and the core
    owing nothing. -/
abbrev ride (c : Dev nD) : sProp 𝕄 := iprop((∃ r, prngReg c r) ∗ ∃ W, owes (c : Thread nD τ) (0 : CellTallies nD τ sig Unit) W)
/-- A stretch of host operations as a segment: from every unscoped buffer at `W c` to every unscoped buffer at
    `StableHlo.after ops (W c)`, `ride` untouched. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride
/-- The last thread state but for the `owes`: every unscoped buffer at the last contents `W4`, the generator register
    at some state. -/
abbrev lastState (c : Dev nD) : sProp 𝕄 := iprop(StableHlo.held (c : Thread nD τ) (Pipeline.ucRefs τ sig) (W4 m c) ∗ ∃ r, prngReg c r)

/-! ## The two kernel regions as segments -/

-- a library lemma stated over the pipeline's configuration at an index meets the printed configuration only when
-- unification may unfold plain definitions inside a metavariable's type
set_option backward.isDefEq.respectTransparency.types false in
/-- THE FIRST REGION over the thread state: entered from every unscoped buffer at the launch contents `W0`, left at
    `W1`. Its three arrays are split out of the unscoped buffers and put back at what the write-backs leave; the
    generator register goes into the pipeline's invariant and comes out; nothing is owed; the kernel has no semaphore
    of its own. -/
def reg0 : Pipeline.RegionSeg (pcfgs (F := F)) adm (pdats m) () defs₀ noVar noPairs noLevel 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ noPairs noLevel 0 fun _ _ => rfl
  pre c := iprop(StableHlo.held (c : Thread nD τ) (Pipeline.ucRefs τ sig) (W0 m c) ∗ ride c)
  post c := iprop(StableHlo.held (c : Thread nD τ) (Pipeline.ucRefs τ sig) (W1 m c) ∗ ride c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pipeline's configuration at an index meets the printed configuration only when
-- unification may unfold plain definitions inside a metavariable's type
set_option backward.isDefEq.respectTransparency.types false in
/-- THE SECOND REGION over the thread state: entered from every unscoped buffer at `W2` (the contents after the seven
    host operations), left at `W3`. Its seven arrays are split out and put back in the same way. -/
def reg1 : Pipeline.RegionSeg (pcfgs (F := F)) adm (pdats m) () defs₀ noVar noPairs noLevel 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ noPairs noLevel 1 fun _ _ => rfl
  pre c := iprop(StableHlo.held (c : Thread nD τ) (Pipeline.ucRefs τ sig) (W2 m c) ∗ ride c)
  post c := iprop(StableHlo.held (c : Thread nD τ) (Pipeline.ucRefs τ sig) (W3 m c) ∗ ride c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's four segments in order: region, host stretch, region, host stretch, each from its boundary's contents. -/
abbrev segs : List (Pipeline.Seg (pcfgs (F := F)) adm (pdats m) () defs₀ noVar noPairs noLevel) :=
  [ .region (reg0 m),
    .host (hostSeg hostOps1 hostOps1_sub hostOps1_fresh (W1 m)),
    .region (reg1 m),
    .host (hostSeg hostOps2 hostOps2_sub hostOps2_fresh (W3 m)) ]
/-- The program is the run of these segments: it is the chain of its four items, and the segments' run unfolds to the
    same chain. -/
theorem main_run (c : Dev nD) : main (F := F) c = Pipeline.Seg.run (segs m) := (main_chain c).trans (by chain_rfl)

-- the launch theorem's implicit arguments are found by unifying its conclusion with the statement, which takes
-- unfolding plain definitions inside a metavariable's type
set_option backward.isDefEq.respectTransparency.types false in
/-- THE RUN: every weakly fair execution of the program from memory `m` with zero counters terminates, nothing
    faulting, and the final memory holds each unscoped buffer of each core at the last contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ noVar noPairs noLevel m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ ride c)) (Tₙ := lastState m)
    (hch := ⟨fun _ => .rfl, fun _ => .rfl, fun _ => .rfl, fun _ => .rfl, fun c => by
      show (iprop(StableHlo.held (c : Thread nD τ) (Pipeline.ucRefs τ sig) (W4 m c)
          ∗ (∃ r, prngReg c r) ∗ ∃ W, owes (c : Thread nD τ) (0 : CellTallies nD τ sig Unit) W) : sProp 𝕄)
        ⊢ iprop((StableHlo.held (c : Thread nD τ) (Pipeline.ucRefs τ sig) (W4 m c) ∗ ∃ r, prngReg c r)
          ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched

No host operation writes an argument array, and a region either bypasses it or reads it through an input window,
whose array the pipeline leaves as entered: the fold at an argument's buffer walks back to the launch memory. -/

/-- No item writes an argument array: read through the fold, each holds its launch contents at the end. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := (W3_arr m c 0).trans (((dat1 (V2 m) c).arrAt_in 0 rfl _).trans (A_eq1 (V2 m) c 0))
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := (W3_arr m c 1).trans (((dat1 (V2 m) c).arrAt_in 1 rfl _).trans (A_eq1 (V2 m) c 1))
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := (W1_arr m c 0).trans (((dat0 (V0 m) c).arrAt_in 0 rfl _).trans (A_eq0 (V0 m) c 0))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := StableHlo.after_of_writes_sub hostOps1 _ hostOps1_writes (by decide)
    _ = W0 m c (Proc.devRef .tc main_arg4) := (W1_arr m c 1).trans (((dat0 (V0 m) c).arrAt_in 1 rfl _).trans (A_eq0 (V0 m) c 1))
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := StableHlo.after_of_writes_sub hostOps1 _ hostOps1_writes (by decide)
    _ = W0 m c (Proc.devRef .tc main_arg5) := W1_of_ne m c main_arg5 (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (by decide)
    _ = W2 m c (Proc.devRef .tc main_arg6) := W3_of_ne m c main_arg6 (by decide)
    _ = W1 m c (Proc.devRef .tc main_arg6) := StableHlo.after_of_writes_sub hostOps1 _ hostOps1_writes (by decide)
    _ = W0 m c (Proc.devRef .tc main_arg6) := W1_of_ne m c main_arg6 (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_writes_sub hostOps2 _ hostOps2_writes (by decide)
    _ = W2 m c (Proc.devRef .tc main_arg7) := W3_of_ne m c main_arg7 (by decide)
    _ = W1 m c (Proc.devRef .tc main_arg7) := StableHlo.after_of_writes_sub hostOps1 _ hostOps1_writes (by decide)
    _ = W0 m c (Proc.devRef .tc main_arg7) := W1_of_ne m c main_arg7 (by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := StableHlo.after_of_writes_sub hostOps2 _ hostOps2_writes (by decide)
    _ = W2 m c (Proc.devRef .tc main_arg8) := W3_of_ne m c main_arg8 (by decide)
    _ = W1 m c (Proc.devRef .tc main_arg8) := StableHlo.after_of_writes_sub hostOps1 _ hostOps1_writes (by decide)
    _ = W0 m c (Proc.devRef .tc main_arg8) := W1_of_ne m c main_arg8 (by decide)
    _ = m ((c : Thread nD τ).loc main_arg8) := rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) := StableHlo.after_of_writes_sub hostOps2 _ hostOps2_writes (by decide)
    _ = W2 m c (Proc.devRef .tc main_arg9) := W3_of_ne m c main_arg9 (by decide)
    _ = W1 m c (Proc.devRef .tc main_arg9) := StableHlo.after_of_writes_sub hostOps1 _ hostOps1_writes (by decide)
    _ = W0 m c (Proc.devRef .tc main_arg9) := W1_of_ne m c main_arg9 (by decide)
    _ = m ((c : Thread nD τ).loc main_arg9) := rfl

/-- The run with the result array named and the arguments read back: what both value claims and the frame claim take. -/
theorem run_result : θ_run defs (onTc (τ := τ) (main (F := F))) ⟨m, fun _ => 0, ρ⟩ (fun r => ∀ c : Dev nD,
      r.2.mem ((c.tc : Thread nD τ).loc main_v10) = W4 m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v10 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c),
     (h c _ (mem_uc main_arg9 (by decide))).trans (W4_main_arg9 m c)⟩) (run m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_result m ρ)

end Cert.KernelIdeal.Hand

end
-- ==== Proof.KernelBlocks.lean ====
/- From blocks to arrays, at any float instance. The first region has one grid point whose blocks are the whole
   arrays, so the table array ends at the stored table block of the embedding and operator arrays. The second region
   has eight points; point t's blocks of the image, packed-index and packed-scalar arrays are their rows 512·t … 512·t + 511,
   the weight, bias and table blocks are the whole arrays, and row 512·t + y of the hinge array is entry y of what point t
   stored. -/
import proofs.«423928_j62526133895556_3_alg».proof.Proof.TableRegion
import proofs.«423928_j62526133895556_3_alg».proof.Proof.FusedRegion
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem ValueIdx
open Idealize.ShloMosaic.Pipeline (Dat)

variable {F : FTy → Type} [FloatOps F]

variable (V : (c : Dev nD) → (b : Ref sig .tc) → Buf (Elt F) ((c : Thread nD τ).loc b))

/-! ## The block indices, decided over the grids -/

/-- In the first region every window's block index is zero on every axis: the block's offset in its array is zero. -/
theorem off0_0 : ∀ t : Fin cfg0.N, (fun a => win0_0.index t a * main_arg3.ty.shape.size a) = fun _ => 0 :=
  (by decide +kernel : ∀ t : Fin grid0.N, (fun a => win0_0.index t a * main_arg3.ty.shape.size a) = fun _ => 0)
theorem off0_1 : ∀ t : Fin cfg0.N, (fun a => win0_1.index t a * main_arg4.ty.shape.size a) = fun _ => 0 :=
  (by decide +kernel : ∀ t : Fin grid0.N, (fun a => win0_1.index t a * main_arg4.ty.shape.size a) = fun _ => 0)
theorem off0_2 : ∀ t : Fin cfg0.N, (fun a => win0_2.index t a * main_v0.ty.shape.size a) = fun _ => 0 :=
  (by decide +kernel : ∀ t : Fin grid0.N, (fun a => win0_2.index t a * main_v0.ty.shape.size a) = fun _ => 0)

/-- In the second region the image, packed-index and packed-scalar windows have block index `(t, 0)` and the hinge
    window block index `t`; -/
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_3 : ∀ t : Fin cfg1.N, win1_3.index t 0 = t.val ∧ win1_3.index t 1 = 0 :=
  (by decide +kernel : ∀ t : Fin grid1.N, win1_3.index t 0 = t.val ∧ win1_3.index t 1 = 0)
theorem idx1_4 : ∀ t : Fin cfg1.N, win1_4.index t 0 = t.val ∧ win1_4.index t 1 = 0 :=
  (by decide +kernel : ∀ t : Fin grid1.N, win1_4.index t 0 = t.val ∧ win1_4.index t 1 = 0)
theorem idx1_6 : ∀ t : Fin cfg1.N, win1_6.index t 0 = t.val :=
  (by decide +kernel : ∀ t : Fin grid1.N, win1_6.index t 0 = t.val)
/-- the weight, bias and table windows have block index zero on every axis. -/
theorem off1_1 : ∀ t : Fin cfg1.N, (fun a => win1_1.index t a * main_arg1.ty.shape.size a) = fun _ => 0 :=
  (by decide +kernel : ∀ t : Fin grid1.N, (fun a => win1_1.index t a * main_arg1.ty.shape.size a) = fun _ => 0)
theorem off1_2 : ∀ t : Fin cfg1.N, (fun a => win1_2.index t a * main_v2.ty.shape.size a) = fun _ => 0 :=
  (by decide +kernel : ∀ t : Fin grid1.N, (fun a => win1_2.index t a * main_v2.ty.shape.size a) = fun _ => 0)
theorem off1_5 : ∀ t : Fin cfg1.N, (fun a => win1_5.index t a * main_v1.ty.shape.size a) = fun _ => 0 :=
  (by decide +kernel : ∀ t : Fin grid1.N, (fun a => win1_5.index t a * main_v1.ty.shape.size a) = fun _ => 0)

/-! ## The first region -/

/-- The one point's embedding block is the embedding array, -/
theorem iblk0_emb (c : Dev nD) (t : Fin cfg0.N) : (iblk0 V c 0 t : Vec F S7x512 .f32) = V c main_arg3 := by
  unfold iblk0
  exact Memref.read_access_unit_zero (Elt F) main_arg3 (off0_0 t) (fun a => by rw [congrFun (off0_0 t) a]; simp) (V c main_arg3)
/-- and its operator block the operator array. -/
theorem iblk0_ops (c : Dev nD) (t : Fin cfg0.N) : (iblk0 V c 1 t : Vec F S9x512x512 .f32) = V c main_arg4 := by
  unfold iblk0
  exact Memref.read_access_unit_zero (Elt F) main_arg4 (off0_1 t) (fun a => by rw [congrFun (off0_1 t) a]; simp) (V c main_arg4)

/-- Distinct points of the second region store to disjoint runs of 512 rows of the hinge array. -/
theorem disj1_6 (t t' : Fin cfg1.N) (hf : (cfg1.win 6).flush t = true) (hf' : (cfg1.win 6).flush t' = true) (hne : t ≠ t') :
    Disjoint ((cfg1.win 6).blk t).view.set ((cfg1.win 6).blk t').view.set := by
  show Disjoint ((View.whole main_v8).slice (win1_6.rect t)).set ((View.whole main_v8).slice (win1_6.rect t')).set
  rw [View.set_slice_whole, View.set_slice_whole]
  refine Rect.unit_disjoint 0 ?_
  show win1_6.index t 0 * 512 + 512 ≤ win1_6.index t' 0 * 512 ∨ win1_6.index t' 0 * 512 + 512 ≤ win1_6.index t 0 * 512
  rw [idx1_6 t, idx1_6 t']
  have : t.val ≠ t'.val := fun e => hne (Fin.ext e)
  omega

/-! ## From blocks to arrays -/

/-- The table array after the first region. -/
theorem table_final (c : Dev nD) :
    ((dat0 V c).arrAt 2 cfg0.N : Vec F S9x7x512 .f32) = tableOut (V c main_arg3) (V c main_arg4) := by
  refine (dat0 V c).arrAt_eq_of_cover 2 (tableOut (V c main_arg3) (V c main_arg4)) (fun t _ => ?_) (fun i => ?_)
  · -- what the one point stores back: the assembled table of the two whole arrays, read through zero offsets
    show (cfg0.win 2).cut (grid0.coords t) ((dat0 V c).after 2 t) = _
    rw [after0_2, iblk0_emb, iblk0_ops]
    exact (Memref.read_access_unit_zero (Elt F) main_v0 (off0_2 t) (fun a => by rw [congrFun (off0_2 t) a]; simp)
      (tableOut (V c main_arg3) (V c main_arg4))).symm
  · -- its block is the whole array
    refine ⟨t0_0, flush0_2 t0_0, ?_⟩
    show i ∈ ((View.whole main_v0).slice (win0_2.rect t0_0)).set
    rw [View.set_slice_whole, Rect.mem_set_unit]
    intro a
    have h0 : (i 0 : Nat) < 9 := (i 0).isLt
    have h1 : (i 1 : Nat) < 7 := (i 1).isLt
    have h2 : (i 2 : Nat) < 512 := (i 2).isLt
    have e := off0_2 t0_0
    match a with
    | ⟨0, _⟩ =>
      show win0_2.index t0_0 0 * 9 ≤ (i 0 : Nat) ∧ (i 0 : Nat) < win0_2.index t0_0 0 * 9 + 9
      have := congrFun e 0
      change win0_2.index t0_0 0 * 9 = 0 at this
      omega
    | ⟨1, _⟩ =>
      show win0_2.index t0_0 1 * 7 ≤ (i 1 : Nat) ∧ (i 1 : Nat) < win0_2.index t0_0 1 * 7 + 7
      have := congrFun e 1
      change win0_2.index t0_0 1 * 7 = 0 at this
      omega
    | ⟨2, _⟩ =>
      show win0_2.index t0_0 2 * 512 ≤ (i 2 : Nat) ∧ (i 2 : Nat) < win0_2.index t0_0 2 * 512 + 512
      have := congrFun e 2
      change win0_2.index t0_0 2 * 512 = 0 at this
      omega

/-- Row `y` of grid point `t`'s tile is row `512·t + y` of the batch. -/
def rowOf (t : Fin cfg1.N) (y : Fin 512) : Fin 4096 :=
  ⟨512 * t.val + y.val, by have h8 : t.val < 8 := lt_of_lt_of_eq t.isLt N_1; have := y.isLt; omega⟩

theorem iblk1_img (c : Dev nD) (t : Fin cfg1.N) (y : Fin 512) (k : Fin 2048) :
    (iblk1 V c 0 t : Vec F S512x2048 .f32) (ix2 y k) = (V c main_arg0 : Vec F S4096x2048 .f32) (ix2 (rowOf t y) k) := by
  obtain ⟨e0, e1⟩ := idx1_0 t
  unfold iblk1
  rw [View.read_apply]
  show V c main_arg0 _ = V c main_arg0 _
  congr 1
  funext a
  apply Fin.ext
  match a with
  | ⟨0, _⟩ => show win1_0.index t 0 * 512 + 1 * y.val = 512 * t.val + y.val; rw [e0]; omega
  | ⟨1, _⟩ => show win1_0.index t 1 * 2048 + 1 * k.val = k.val; rw [e1]; omega
theorem iblk1_weights (c : Dev nD) (t : Fin cfg1.N) : (iblk1 V c 1 t : Vec F S2048x512 .f32) = V c main_arg1 := by
  unfold iblk1
  exact Memref.read_access_unit_zero (Elt F) main_arg1 (off1_1 t) (fun a => by rw [congrFun (off1_1 t) a]; simp) (V c main_arg1)
theorem iblk1_bias (c : Dev nD) (t : Fin cfg1.N) : (iblk1 V c 2 t : Vec F S1x512 .f32) = V c main_v2 := by
  unfold iblk1
  exact Memref.read_access_unit_zero (Elt F) main_v2 (off1_2 t) (fun a => by rw [congrFun (off1_2 t) a]; simp) (V c main_v2)
theorem iblk1_idx (c : Dev nD) (t : Fin cfg1.N) (y : Fin 512) (j : Fin 8) :
    (iblk1 V c 3 t : Vec F S512x8 .i32) (ix2 y j) = (V c main_v3 : Vec F S4096x8 .i32) (ix2 (rowOf t y) j) := by
  obtain ⟨e0, e1⟩ := idx1_3 t
  unfold iblk1
  rw [View.read_apply]
  show V c main_v3 _ = V c main_v3 _
  congr 1
  funext a
  apply Fin.ext
  match a with
  | ⟨0, _⟩ => show win1_3.index t 0 * 512 + 1 * y.val = 512 * t.val + y.val; rw [e0]; omega
  | ⟨1, _⟩ => show win1_3.index t 1 * 8 + 1 * j.val = j.val; rw [e1]; omega
theorem iblk1_scal (c : Dev nD) (t : Fin cfg1.N) (y : Fin 512) (j : Fin 3) :
    (iblk1 V c 4 t : Vec F S512x3 .i32) (ix2 y j) = (V c main_v7 : Vec F S4096x3 .i32) (ix2 (rowOf t y) j) := by
  obtain ⟨e0, e1⟩ := idx1_4 t
  unfold iblk1
  rw [View.read_apply]
  show V c main_v7 _ = V c main_v7 _
  congr 1
  funext a
  apply Fin.ext
  match a with
  | ⟨0, _⟩ => show win1_4.index t 0 * 512 + 1 * y.val = 512 * t.val + y.val; rw [e0]; omega
  | ⟨1, _⟩ => show win1_4.index t 1 * 3 + 1 * j.val = j.val; rw [e1]; omega
theorem iblk1_table (c : Dev nD) (t : Fin cfg1.N) : (iblk1 V c 5 t : Vec F S63x512 .f32) = V c main_v1 := by
  unfold iblk1
  exact Memref.read_access_unit_zero (Elt F) main_v1 (off1_5 t) (fun a => by rw [congrFun (off1_5 t) a]; simp) (V c main_v1)

/-- The hinge array after the second region, at row `512·t + y`: entry `y` of what point `t` stored. -/
theorem hinge_final (c : Dev nD) (t : Fin cfg1.N) (y : Fin 512) :
    ((dat1 V c).arrAt 6 cfg1.N : Vec F S4096 .f32) (ix1 (rowOf t y))
      = hingeOut (iblk1 V c 0 t) (iblk1 V c 1 t) (iblk1 V c 2 t) (iblk1 V c 3 t) (iblk1 V c 4 t) (iblk1 V c 5 t) (ix1 y) := by
  have h := (dat1 V c).arrAt_emb_eq_flushed 6 disj1_6 t (flush1_6 t) (ix1 y)
  have hemb : ((cfg1.win 6).blk t).view.emb (ix1 y) = ix1 (rowOf t y) := by
    funext a
    apply Fin.ext
    match a with
    | ⟨0, _⟩ => show win1_6.index t 0 * 512 + 1 * y.val = 512 * t.val + y.val; rw [idx1_6 t]; omega
  rw [hemb] at h
  refine h.trans ?_
  show (cfg1.win 6).cut (grid1.coords t) ((dat1 V c).after 6 t) (ix1 y) = _
  rw [after1_6]
  rfl

/-- Every row of the batch is row `y` of some tile `t`. -/
theorem exists_rowOf (b : Fin 4096) : ∃ (t : Fin cfg1.N) (y : Fin 512), b = rowOf t y := by
  have hb := b.isLt
  refine ⟨⟨b.val / 512, by rw [show cfg1.N = 8 from N_1]; omega⟩, ⟨b.val % 512, Nat.mod_lt _ (by decide)⟩, ?_⟩
  apply Fin.ext
  show b.val = 512 * (b.val / 512) + b.val % 512
  omega

end Cert.KernelIdeal.Hand

end
-- ==== Proof.Spec.lean ====
/- The mathematics both programs compute, row by row, on the extended reals: the rectified linear feature of an image
   row, the 9×7 table of rectified products of an actor embedding with a relation operator, the mean-pooled
   positive vector (in the two arrangements the programs use: a weighted sum over the 63 table rows, and the quotient
   of a masked sum of four looked-up rows), the negative vector, and the triplet hinge of the three. Nothing here
   mentions a program. -/
import Idealize.ShloMosaic.PureOps.Ideal
import Idealize.ShloMosaic.Lib.ValueIdx

noncomputable section

namespace Cert.Spec

open Idealize.ShloMosaic

/-- The shift added to a difference before its norm is taken (one f32 word, at its exact value). -/
def eps : EReal := Ideal.ofBits .f32 0x358637BD#32
/-- The triplet margin, one half. -/
def margin : EReal := Ideal.ofBits .f32 0x3F000000#32

/-- The indicator of a proposition, as an extended real. -/
def ind (p : Prop) [Decidable p] : EReal := if p then 1 else 0

/-- A word read as an index into an axis of extent 7 (for a word below 7, itself). -/
def fin7 (v : BitVec 32) : Fin 7 := ⟨v.toNat % 7, Nat.mod_lt _ (by decide)⟩
/-- A word read as an index into an axis of extent 9 (for a word below 9, itself). -/
def fin9 (v : BitVec 32) : Fin 9 := ⟨v.toNat % 9, Nat.mod_lt _ (by decide)⟩
/-- Row `c` of the 63-row table is relation `c / 7`, actor `c % 7`. -/
def rel (c : Fin 63) : Fin 9 := ⟨c.val / 7, by have := c.isLt; omega⟩
def act (c : Fin 63) : Fin 7 := ⟨c.val % 7, Nat.mod_lt _ (by decide)⟩

/-- The feature vector of an image row `x`: the rectified affine image `max (x·W + bias) 0`. -/
def feat (x : Fin 2048 → EReal) (W : Fin 2048 → Fin 512 → EReal) (bias : Fin 512 → EReal) (d : Fin 512) : EReal :=
  max (∑ k, x k * W k d + bias d) 0

/-- The table: actor `a`'s embedding transformed by relation `r`'s operator (contracted along the operator's last
    axis), rectified. -/
def tab (obj : Fin 7 → Fin 512 → EReal) (ops : Fin 9 → Fin 512 → Fin 512 → EReal) (r : Fin 9) (a : Fin 7) (d : Fin 512) : EReal :=
  max (∑ j, obj a j * ops r d j) 0

/-- Whether pair `k` of a row is among its first `n` (a signed comparison of words, as both programs make it). -/
def valid (k : Fin 4) (n : BitVec 32) : EReal := ind (BitVec.slt (BitVec.ofNat 32 k.val) n = true)

/-- The positive vector as a weighted sum over the 63 table rows `T`: row `c`'s weight is the number of valid pairs
    whose combined word `action · 7 + actor` is `c`, over the count `n`. -/
def posK (T : Fin 63 → Fin 512 → EReal) (actor action : Fin 4 → BitVec 32) (n : BitVec 32) (d : Fin 512) : EReal :=
  ∑ c : Fin 63, Ideal.div (∑ k : Fin 4, ind (action k * 7#32 + actor k = BitVec.ofNat 32 c.val) * valid k n) ((n.toInt : ℝ) : EReal) * T c d

/-- The negative vector as a one-hot sum over the 63 table rows. -/
def negK (T : Fin 63 → Fin 512 → EReal) (nactor naction : BitVec 32) (d : Fin 512) : EReal :=
  ∑ c : Fin 63, ind (naction * 7#32 + nactor = BitVec.ofNat 32 c.val) * T c d

/-- The positive vector as the masked sum of the four pairs' table entries over the count `n`. -/
def posR (obj : Fin 7 → Fin 512 → EReal) (ops : Fin 9 → Fin 512 → Fin 512 → EReal) (actor action : Fin 4 → BitVec 32)
    (n : BitVec 32) (d : Fin 512) : EReal :=
  Ideal.div (∑ k : Fin 4, tab obj ops (fin9 (action k)) (fin7 (actor k)) d * valid k n) ((n.toInt : ℝ) : EReal)

/-- The negative vector: one table entry. -/
def negR (obj : Fin 7 → Fin 512 → EReal) (ops : Fin 9 → Fin 512 → Fin 512 → EReal) (nactor naction : BitVec 32) (d : Fin 512) : EReal :=
  tab obj ops (fin9 naction) (fin7 nactor) d

/-- One row's triplet hinge from its feature `f`, positive `p` and negative `n`:
    `max (‖f − p + ε‖ − ‖f − n + ε‖ + margin) 0`. -/
def hinge (f p n : Fin 512 → EReal) : EReal :=
  max (Ideal.sqrt (∑ d, (f d - p d + eps) * (f d - p d + eps)) - Ideal.sqrt (∑ d, (f d - n d + eps) * (f d - n d + eps)) + margin) 0

/-! ## The rows of the ten argument arrays -/

open ValueIdx

section Rows

variable (img : (⟨2, ![4096, 2048]⟩ : Shape).Idx → EReal) (W : (⟨2, ![2048, 512]⟩ : Shape).Idx → EReal)
  (bias : (⟨1, ![512]⟩ : Shape).Idx → EReal) (obj : (⟨2, ![7, 512]⟩ : Shape).Idx → EReal)
  (ops : (⟨3, ![9, 512, 512]⟩ : Shape).Idx → EReal)
  (actor action : (⟨2, ![4096, 4]⟩ : Shape).Idx → BitVec 32)
  (counts nactor naction : (⟨1, ![4096]⟩ : Shape).Idx → BitVec 32)

/-- Row `b`'s feature vector. -/
def featRow (b : Fin 4096) : Fin 512 → EReal :=
  feat (fun k => img (ix2 b k)) (fun k d => W (ix2 k d)) (fun d => bias (ix1 d))

/-- The table of the embedding and operator arrays, by relation and actor. -/
def tabOf : Fin 9 → Fin 7 → Fin 512 → EReal :=
  tab (fun a j => obj (ix2 a j)) (fun r i j => ops (ix3 r i j))

/-- The same table as 63 rows, row `c` relation `c / 7`, actor `c % 7`. -/
def tab63 (c : Fin 63) (d : Fin 512) : EReal := tabOf obj ops (rel c) (act c) d

/-- Row `b`'s hinge, the positive and negative vectors taken as sums over the 63 table rows. -/
def hingeKRow (b : Fin 4096) : EReal :=
  hinge (featRow img W bias b)
    (posK (tab63 obj ops) (fun k => actor (ix2 b k)) (fun k => action (ix2 b k)) (counts (ix1 b)))
    (negK (tab63 obj ops) (nactor (ix1 b)) (naction (ix1 b)))

/-- Row `b`'s hinge, the positive vector the masked mean of the four pairs' table entries and the negative one entry. -/
def hingeRRow (b : Fin 4096) : EReal :=
  hinge (featRow img W bias b)
    (posR (fun a j => obj (ix2 a j)) (fun r i j => ops (ix3 r i j)) (fun k => actor (ix2 b k)) (fun k => action (ix2 b k)) (counts (ix1 b)))
    (negR (fun a j => obj (ix2 a j)) (fun r i j => ops (ix3 r i j)) (nactor (ix1 b)) (naction (ix1 b)))

end Rows

end Cert.Spec

end
-- ==== Proof.LibNary3.lean ====
/- A general lemma about host operations: the result of an operation over a LITERAL family of three references
   (a three-operand concatenate prints as one) is its function applied to the three operands' contents, each named at
   its own reference. The library has the statement for families under a binder (`StableHlo.nary_result`) and for a
   literal family of four; this is the same for three. -/
import Idealize.ShloMosaic.Lib.StableHlo.Run

noncomputable section

namespace Cert.Lib

open Idealize.ShloMosaic

variable {T : Topo} {Sg : RefSig} {Val : EltTy → Type} {x a b y : Ref Sg .tc}

/-- The result of an operation over the literal family `![x, a, b]` is its function at each operand's contents at
    its own reference, in order: the family's three members named one by one instead of under a binder. -/
theorem nary3_result
    (f : ((k : Fin 3) → ((![x, a, b] : Fin 3 → Ref Sg .tc) k).ty.Contents Val) → y.ty.Contents Val) (hxs hy)
    (G : Valuation T Sg Val) :
    (StableHlo.nary (τ := T) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

end Cert.Lib

end
-- ==== Proof.KernelHost.lean ====
/- The host operations of the kernel's program read at an index, at any float instance: between the regions the table
   array is re-laid as 63 rows, the bias as one row, the actor and relation words packed side by side into eight
   columns and the count and the two negative words into three; after the second region the hinge array is summed
   and divided by the batch size. The arrays no item writes are still the launch contents. -/
import proofs.«423928_j62526133895556_3_alg».proof.Proof.KernelVals
import proofs.«423928_j62526133895556_3_alg».proof.Proof.Spec
import proofs.«423928_j62526133895556_3_alg».proof.Proof.LibNary3
import proofs.«423928_j62526133895556_3_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem ValueIdx
open Idealize.ShloMosaic.Pipeline (Dat)
open Cert.Lib (nary3_result)

/-! ## Three vectors laid as columns side by side -/

section Columns

variable {α : Type}

/-- A vector laid as one column reads, at row `b`, the vector at `b`. -/
theorem column_apply (x : S4096.Idx → α) (b : Fin 4096) (u : Fin 1) :
    broadcastInDim S4096x1 ![0] bcast_S4096_S4096x1_0 x (ix2 b u) = x (ix1 b) :=
  broadcastInDim_apply ![0] bcast_S4096_S4096x1_0 x (ix2 b u) (ix1 b) (fun a => by
    match a with
    | ⟨0, _⟩ =>
      show b.val = if (4096 : ℕ) = 1 then 0 else b.val
      rw [if_neg (by decide)])

variable (x0 x1 x2 : S4096.Idx → α)

/-- The three one-column pieces. -/
abbrev cols : List ((s : Shape) × (s.Idx → α)) :=
  [⟨S4096x1, broadcastInDim S4096x1 ![0] bcast_S4096_S4096x1_0 x0⟩,
   ⟨S4096x1, broadcastInDim S4096x1 ![0] bcast_S4096_S4096x1_0 x1⟩,
   ⟨S4096x1, broadcastInDim S4096x1 ![0] bcast_S4096_S4096x1_0 x2⟩]

/-- Column `j` of the three pieces side by side is piece `j`'s vector. -/
theorem cols_apply_0 (b : Fin 4096) :
    concatenate S4096x3 1 (cols x0 x1 x2) concatenates_S4096x1_S4096x1_S4096x1_S4096x3_d1 (ix2 b 0) = x0 (ix1 b) :=
  (concatenate_apply_piece (t := S4096x3) 1 (cols x0 x1 x2) concatenates_S4096x1_S4096x1_S4096x1_S4096x3_d1 (ix2 b 0) 0 (by show (0 : ℕ) < 3; decide)
    S4096x1 _ rfl rfl 0 rfl (ix2 b (0 : Fin 1)) (fun a ha => by
      match a with
      | ⟨0, _⟩ => rfl
      | ⟨1, _⟩ => exact absurd rfl ha) rfl).trans (column_apply x0 b 0)
theorem cols_apply_1 (b : Fin 4096) :
    concatenate S4096x3 1 (cols x0 x1 x2) concatenates_S4096x1_S4096x1_S4096x1_S4096x3_d1 (ix2 b 1) = x1 (ix1 b) :=
  (concatenate_apply_piece (t := S4096x3) 1 (cols x0 x1 x2) concatenates_S4096x1_S4096x1_S4096x1_S4096x3_d1 (ix2 b 1) 1 (by show (1 : ℕ) < 3; decide)
    S4096x1 _ rfl rfl 1 rfl (ix2 b (0 : Fin 1)) (fun a ha => by
      match a with
      | ⟨0, _⟩ => rfl
      | ⟨1, _⟩ => exact absurd rfl ha) rfl).trans (column_apply x1 b 0)
theorem cols_apply_2 (b : Fin 4096) :
    concatenate S4096x3 1 (cols x0 x1 x2) concatenates_S4096x1_S4096x1_S4096x1_S4096x3_d1 (ix2 b 2) = x2 (ix1 b) :=
  (concatenate_apply_piece (t := S4096x3) 1 (cols x0 x1 x2) concatenates_S4096x1_S4096x1_S4096x1_S4096x3_d1 (ix2 b 2) 2 (by show (2 : ℕ) < 3; decide)
    S4096x1 _ rfl rfl 2 rfl (ix2 b (0 : Fin 1)) (fun a ha => by
      match a with
      | ⟨0, _⟩ => rfl
      | ⟨1, _⟩ => exact absurd rfl ha) rfl).trans (column_apply x2 b 0)

end Columns

variable {F : FTy → Type} [FloatOps F]

variable (m : (ℓ : Loc nD τ sig) → Buf (Elt F) ℓ)

/-! ## The arrays no item before the second region writes -/

theorem V2_img (c : Dev nD) : V2 m c main_arg0 = m ((c : Thread nD τ).loc main_arg0) := by
  show StableHlo.after hostOps1 (W1 m c) (Proc.devRef .tc main_arg0) = _
  rw [StableHlo.after_of_writes_sub hostOps1 _ Gen.hostOps1_writes (by decide)]
  exact W1_of_ne m c main_arg0 (by decide)
theorem V2_weights (c : Dev nD) : V2 m c main_arg1 = m ((c : Thread nD τ).loc main_arg1) := by
  show StableHlo.after hostOps1 (W1 m c) (Proc.devRef .tc main_arg1) = _
  rw [StableHlo.after_of_writes_sub hostOps1 _ Gen.hostOps1_writes (by decide)]
  exact W1_of_ne m c main_arg1 (by decide)
theorem V0_obj (c : Dev nD) : V0 m c main_arg3 = m ((c : Thread nD τ).loc main_arg3) := rfl
theorem V0_ops (c : Dev nD) : V0 m c main_arg4 = m ((c : Thread nD τ).loc main_arg4) := rfl

/-! ## The arrays the seven operations between the regions write, as terms of the launch contents -/

/-- The one-row bias array is the bias vector re-laid. -/
theorem V2_bias_eq (c : Dev nD) :
    (V2 m c main_v2 : Vec F S1x512 .f32)
      = shapeCast S1x512 (m ((c : Thread nD τ).loc main_arg2) : Vec F S512 .f32) shapeCasts_S512_S1x512 := by
  show StableHlo.after hostOps1 (W1 m c) (Proc.devRef .tc main_v2) = _
  after_results
  rw [W1_of_ne m c main_arg2 (by decide)]
  rfl

/-- The packed index array is the actor words and the relation words side by side. -/
theorem V2_pairs_eq (c : Dev nD) :
    (V2 m c main_v3 : Vec F S4096x8 .i32)
      = concatenate S4096x8 1 [⟨S4096x4, (m ((c : Thread nD τ).loc main_arg5) : Vec F S4096x4 .i32)⟩,
          ⟨S4096x4, (m ((c : Thread nD τ).loc main_arg6) : Vec F S4096x4 .i32)⟩] concatenates_S4096x4_S4096x4_S4096x8_d1 := by
  show StableHlo.after hostOps1 (W1 m c) (Proc.devRef .tc main_v3) = _
  after_results
  rw [W1_of_ne m c main_arg5 (by decide), W1_of_ne m c main_arg6 (by decide)]

/-- The packed scalar array is the three word vectors, each as one column, side by side. -/
theorem V2_scalars_eq (c : Dev nD) :
    (V2 m c main_v7 : Vec F S4096x3 .i32)
      = concatenate S4096x3 1
          (cols (m ((c : Thread nD τ).loc main_arg7) : Vec F S4096 .i32) (m ((c : Thread nD τ).loc main_arg8) : Vec F S4096 .i32)
            (m ((c : Thread nD τ).loc main_arg9) : Vec F S4096 .i32))
          concatenates_S4096x1_S4096x1_S4096x1_S4096x3_d1 := by
  show StableHlo.after hostOps1 (W1 m c) (Proc.devRef .tc main_v7) = _
  simp only [StableHlo.after_cons, StableHlo.after_nil]
  rw [nary3_result]
  repeat (first
    | rw [StableHlo.unary_result]
    | (rw [StableHlo.unary_result_ne]; rotate_left; decide)
    | (rw [StableHlo.binary_result_ne]; rotate_left; decide)
    | (rw [StableHlo.reshape_result_ne]; rotate_left; decide))
  rw [W1_of_ne m c main_arg7 (by decide), W1_of_ne m c main_arg8 (by decide), W1_of_ne m c main_arg9 (by decide)]
  rfl

/-- The re-laid table is the table array the first region left, cast to 63 rows. -/
theorem V2_table_eq (c : Dev nD) :
    (V2 m c main_v1 : Vec F S63x512 .f32)
      = shapeCast S63x512 (W1 m c (Proc.devRef .tc main_v0) : Vec F S9x7x512 .f32) shapeCasts_S9x7x512_S63x512 := by
  show StableHlo.after hostOps1 (W1 m c) (Proc.devRef .tc main_v1) = _
  after_results
  rfl

/-! ## The same arrays read at an index -/

/-- The bias as one row. -/
theorem V2_bias (c : Dev nD) (d : Fin 512) :
    (V2 m c main_v2 : Vec F S1x512 .f32) (ix2 0 d) = (m ((c : Thread nD τ).loc main_arg2) : Vec F S512 .f32) (ix1 d) := by
  refine (congrFun (V2_bias_eq m c) _).trans ?_
  exact shapeCast_a_1a_apply _ _ 0 d
/-- Columns 0–3 of the packed index array are the actor words, -/
theorem V2_actor (c : Dev nD) (b : Fin 4096) (k : Fin 4) :
    (V2 m c main_v3 : Vec F S4096x8 .i32) (ix2 b ⟨k.val, by omega⟩) = (m ((c : Thread nD τ).loc main_arg5) : Vec F S4096x4 .i32) (ix2 b k) := by
  refine (congrFun (V2_pairs_eq m c) _).trans ?_
  exact concatenate_pair_apply_left 1 _ _ concatenates_S4096x4_S4096x4_S4096x8_d1 _ rfl (ix2 b k) (fun a => by
    match a with
    | ⟨0, _⟩ => rfl
    | ⟨1, _⟩ => rfl)
/-- and columns 4–7 the relation words. -/
theorem V2_action (c : Dev nD) (b : Fin 4096) (k : Fin 4) :
    (V2 m c main_v3 : Vec F S4096x8 .i32) (ix2 b ⟨k.val + 4, by omega⟩) = (m ((c : Thread nD τ).loc main_arg6) : Vec F S4096x4 .i32) (ix2 b k) := by
  refine (congrFun (V2_pairs_eq m c) _).trans ?_
  exact concatenate_pair_apply_right 1 _ _ concatenates_S4096x4_S4096x4_S4096x8_d1 _ rfl rfl (ix2 b k)
    (fun a ha => by
      match a with
      | ⟨0, _⟩ => rfl
      | ⟨1, _⟩ => exact absurd rfl ha)
    rfl

/-- Columns 0, 1, 2 of the packed scalar array are the count, the negative actor and the negative relation. -/
theorem V2_counts (c : Dev nD) (b : Fin 4096) :
    (V2 m c main_v7 : Vec F S4096x3 .i32) (ix2 b 0) = (m ((c : Thread nD τ).loc main_arg7) : Vec F S4096 .i32) (ix1 b) := by
  refine (congrFun (V2_scalars_eq m c) _).trans ?_
  exact cols_apply_0 _ _ _ b
theorem V2_nactor (c : Dev nD) (b : Fin 4096) :
    (V2 m c main_v7 : Vec F S4096x3 .i32) (ix2 b 1) = (m ((c : Thread nD τ).loc main_arg8) : Vec F S4096 .i32) (ix1 b) := by
  refine (congrFun (V2_scalars_eq m c) _).trans ?_
  exact cols_apply_1 _ _ _ b
theorem V2_naction (c : Dev nD) (b : Fin 4096) :
    (V2 m c main_v7 : Vec F S4096x3 .i32) (ix2 b 2) = (m ((c : Thread nD τ).loc main_arg9) : Vec F S4096 .i32) (ix1 b) := by
  refine (congrFun (V2_scalars_eq m c) _).trans ?_
  exact cols_apply_2 _ _ _ b
/-- Row `q` of the re-laid table is relation `q / 7`, actor `q % 7` of the table array the first region left. -/
theorem V2_table (c : Dev nD) (q : Fin 63) (d : Fin 512) :
    (V2 m c main_v1 : Vec F S63x512 .f32) (ix2 q d)
      = (W1 m c (Proc.devRef .tc main_v0) : Vec F S9x7x512 .f32) (ix3 (Spec.rel q) (Spec.act q) d) := by
  refine (congrFun (V2_table_eq m c) _).trans ?_
  exact shapeCast_apply _ shapeCasts_S9x7x512_S63x512 (ix2 q d) (ix3 (Spec.rel q) (Spec.act q) d) (by
    rw [Shape.rowMajor_val_three, Shape.rowMajor_val_two]
    show (q.val / 7 * 7 + q.val % 7) * 512 + d.val = q.val * 512 + d.val
    have := Nat.div_add_mod q.val 7
    omega)
/-- The program's result: the hinge array the second region left, summed from zero and divided by 4096. -/
theorem W4_result (c : Dev nD) :
    W4 m c (Proc.devRef .tc main_v10)
      = Host.divf (Host.reduceAdd (W3 m c (Proc.devRef .tc main_v8) : Vec F S4096 .f32) (constant S_ .f32 0x00000000#32) reducesTo_S4096_S_d0 h_S_)
          (constant S_ .f32 0x45800000#32) := by
  show StableHlo.after hostOps2 (W3 m c) (Proc.devRef .tc main_v10) = _
  after_results

end Cert.KernelIdeal.Hand

end
-- ==== Proof.TableValue.lean ====
/- The table block the first kernel stores, read at an index on the extended reals: entry (r, a, d) of its nine
   stored slabs is the rectified product of actor a's embedding row with row d of relation r's operator. -/
import proofs.«423928_j62526133895556_3_alg».proof.Proof.TableRegion
import proofs.«423928_j62526133895556_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe ValueIdx

/-! ## The product's operand indices

The product contracts axis 1 of the 7×512 left operand with axis 1 of the 512×512 right operand: at output (a, d) and
contraction position j the left operand is read at (a, j) and the right at (d, j). -/

theorem lhs_tab_0 (i : S7x512.Idx) (q : dot_S7x512_S512x512_S7x512_1_1_0_0_n_n.contr.Idx) :
    (dot_S7x512_S512x512_S7x512_1_1_0_0_n_n.lhsIdx i q 0).val = (i 0).val := by
  unfold DotDims.lhsIdx
  rw [dif_neg (show ¬(0 : Fin S7x512.rank) ∈ dot_S7x512_S512x512_S7x512_1_1_0_0_n_n.lhsBatch by decide), dif_pos (show (0 : Fin S7x512.rank) ∈ dot_S7x512_S512x512_S7x512_1_1_0_0_n_n.lhsNonContracting by decide)]
  rfl
theorem lhs_tab_1 (i : S7x512.Idx) (q : dot_S7x512_S512x512_S7x512_1_1_0_0_n_n.contr.Idx) :
    (dot_S7x512_S512x512_S7x512_1_1_0_0_n_n.lhsIdx i q 1).val = (q ⟨0, by decide⟩).val :=
  dot_S7x512_S512x512_S7x512_1_1_0_0_n_n.lhsIdx_val_of_single rfl i q
theorem rhs_tab_0 (i : S7x512.Idx) (q : dot_S7x512_S512x512_S7x512_1_1_0_0_n_n.contr.Idx) :
    (dot_S7x512_S512x512_S7x512_1_1_0_0_n_n.rhsIdx i q 0).val = (i 1).val := by
  unfold DotDims.rhsIdx
  rw [dif_neg (show ¬(0 : Fin S512x512.rank) ∈ dot_S7x512_S512x512_S7x512_1_1_0_0_n_n.rhsBatch by decide), dif_pos (show (0 : Fin S512x512.rank) ∈ dot_S7x512_S512x512_S7x512_1_1_0_0_n_n.rhsNonContracting by decide)]
  rfl
theorem rhs_tab_1 (i : S7x512.Idx) (q : dot_S7x512_S512x512_S7x512_1_1_0_0_n_n.contr.Idx) :
    (dot_S7x512_S512x512_S7x512_1_1_0_0_n_n.rhsIdx i q 1).val = (q ⟨0, by decide⟩).val :=
  dot_S7x512_S512x512_S7x512_1_1_0_0_n_n.rhsIdx_val_of_single rfl i q

/-- The product into a zero accumulator at (a, d): `∑ j, l[a, j] · w[d, j]`. -/
theorem mm_apply (l : FVec Ideal S7x512 .bf16) (w : FVec Ideal S512x512 .bf16) (a : Fin 7) (d : Fin 512) :
    matmul dot_S7x512_S512x512_S7x512_1_1_0_0_n_n none l w (constant (F := Ideal) S7x512 .f32 0x00000000#32) (ix2 a d)
      = ∑ j : Fin 512, l (ix2 a j) * w (ix2 d j) := by
  simp only [matmul]
  rw [Ideal.matmul_constant_zero_apply, ← Equiv.sum_comp (contrEquiv1 dot_S7x512_S512x512_S7x512_1_1_0_0_n_n 512 rfl rfl).symm]
  refine Finset.sum_congr rfl fun k _ => ?_
  have hk := contrEquiv1_symm_val dot_S7x512_S512x512_S7x512_1_1_0_0_n_n 512 rfl rfl k
  have el : dot_S7x512_S512x512_S7x512_1_1_0_0_n_n.lhsIdx (ix2 a d) ((contrEquiv1 dot_S7x512_S512x512_S7x512_1_1_0_0_n_n 512 rfl rfl).symm k) = ix2 a k := funext fun x => Fin.ext (by
    match x with
    | ⟨0, _⟩ => exact lhs_tab_0 _ _
    | ⟨1, _⟩ => exact (lhs_tab_1 _ _).trans hk)
  have er : dot_S7x512_S512x512_S7x512_1_1_0_0_n_n.rhsIdx (ix2 a d) ((contrEquiv1 dot_S7x512_S512x512_S7x512_1_1_0_0_n_n 512 rfl rfl).symm k) = ix2 d k := funext fun x => Fin.ext (by
    match x with
    | ⟨0, _⟩ => exact rhs_tab_0 _ _
    | ⟨1, _⟩ => exact (rhs_tab_1 _ _).trans hk)
  rw [el, er]

/-! ## One slab's payload -/

/-- What each of the nine stores writes, from the embedding block and one operator slab: the product, rectified,
    with a leading unit axis. -/
def slabPay (x0 : Vec Ideal S7x512 .f32) (w : Vec Ideal S1x512x512 .f32) : FVec Ideal S1x7x512 .f32 :=
  shapeCast S1x7x512
    (maximumf
      (matmul dot_S7x512_S512x512_S7x512_1_1_0_0_n_n none (truncf .bf16 x0 bitsLt_bf16_f32)
        (truncf .bf16 (shapeCast S512x512 w shapeCasts_S1x512x512_S512x512) bitsLt_bf16_f32)
        (constant S7x512 .f32 0x00000000#32))
      (broadcast S7x512 (Scalar.ofBits .f32 0x00000000#32)))
    shapeCasts_S7x512_S1x7x512

/-- It reads, at (0, a, d), `max (∑ j, x0[a, j] · w[0, d, j]) 0`. -/
theorem slabPay_apply (x0 : Vec Ideal S7x512 .f32) (w : Vec Ideal S1x512x512 .f32) (z : Fin 1) (a : Fin 7) (d : Fin 512) :
    slabPay x0 w (ix3 z a d) = max (∑ j : Fin 512, x0 (ix2 a j) * w (ix3 0 d j)) 0 := by
  unfold slabPay
  refine (shapeCast_addUnit_apply ![7, 512] _ _ (ix3 z a d)).trans ?_
  have hi : (fun x : Fin 2 => ix3 z a d x.succ) = ix2 a d := funext fun x => match x with | ⟨0, _⟩ => rfl | ⟨1, _⟩ => rfl
  rw [hi, maximumf_apply, mm_apply, broadcast_apply]
  have hz : (Scalar.ofBits (F := Ideal) .f32 0x00000000#32 : Ideal .f32) = 0 := Ideal.ofBits_zero_f32
  rw [hz]
  refine congrArg (fun t => max t (0 : EReal)) (Finset.sum_congr rfl fun j _ => ?_)
  have hw : shapeCast S512x512 w shapeCasts_S1x512x512_S512x512 (ix2 d j) = w (ix3 0 d j) := by
    refine (shapeCast_dropUnit_apply ![512, 512] w _ (ix2 d j)).trans (congrArg w ?_)
    funext x
    match x with
    | ⟨0, _⟩ => rfl
    | ⟨1, _⟩ => rfl
    | ⟨2, _⟩ => rfl
  rw [truncf_apply, truncf_apply, hw]

/-! ## The nine payloads are that one -/

theorem pay5_eq (x0 : Vec Ideal S7x512 .f32) (w : Vec Ideal S1x512x512 .f32) : k0_pay5 (F := Ideal) x0 w = slabPay x0 w := rfl
theorem pay6_eq (x0 : Vec Ideal S7x512 .f32) (w : Vec Ideal S1x512x512 .f32) : k0_pay6 (F := Ideal) x0 w = slabPay x0 w := rfl
theorem pay7_eq (x0 : Vec Ideal S7x512 .f32) (w : Vec Ideal S1x512x512 .f32) : k0_pay7 (F := Ideal) x0 w = slabPay x0 w := rfl
theorem pay8_eq (x0 : Vec Ideal S7x512 .f32) (w : Vec Ideal S1x512x512 .f32) : k0_pay8 (F := Ideal) (k0_pay4 x0) w = slabPay x0 w := rfl
theorem pay9_eq (x0 : Vec Ideal S7x512 .f32) (w : Vec Ideal S1x512x512 .f32) : k0_pay9 (F := Ideal) (k0_pay4 x0) w = slabPay x0 w := rfl
theorem pay10_eq (x0 : Vec Ideal S7x512 .f32) (w : Vec Ideal S1x512x512 .f32) : k0_pay10 (F := Ideal) (k0_pay4 x0) w = slabPay x0 w := rfl
theorem pay1_eq (x0 : Vec Ideal S7x512 .f32) (w : Vec Ideal S1x512x512 .f32) :
    k0_pay1 (F := Ideal) (k0_pay4 x0) (k0_pay11 w) (constant S7x512 .f32 0x00000000#32) = slabPay x0 w := rfl
theorem pay2_eq (x0 : Vec Ideal S7x512 .f32) (w : Vec Ideal S1x512x512 .f32) : k0_pay2 (F := Ideal) (k0_pay4 x0) w = slabPay x0 w := rfl
theorem pay3_eq (x0 : Vec Ideal S7x512 .f32) (w : Vec Ideal S1x512x512 .f32) : k0_pay3 (F := Ideal) (k0_pay4 x0) w = slabPay x0 w := rfl

/-! ## The block in closed form -/

/-- The table as a function of the block's index. -/
def tabG (x0 : Vec Ideal S7x512 .f32) (x1 : Vec Ideal S9x512x512 .f32) : S9x7x512.Idx → Elt Ideal .f32 := fun y =>
  Spec.tab (fun a j => x0 (ix2 a j)) (fun r i j => x1 (ix3 r i j)) (y 0) (y 1) (y 2)

/-- Slab `r` of the operator block at (0, d, j) is the block at (r, d, j). -/
theorem idxO (r : Fin 9) (inb : ∀ a, (![r.val, 0, 0] : Fin 3 → Nat) a + S1x512x512.size a ≤ S9x512x512.size a)
    (z : Fin 1) (d j : Fin 512) :
    (Rect.unit (s := S9x512x512) ![r.val, 0, 0] S1x512x512.size inb).idx (ix3 z d j) = ix3 r d j := by
  funext x; apply Fin.ext
  match x with
  | ⟨0, _⟩ => show r.val + 1 * z.val = r.val; omega
  | ⟨1, _⟩ => show 0 + 1 * d.val = d.val; omega
  | ⟨2, _⟩ => show 0 + 1 * j.val = j.val; omega

/-- Slab `r` of the table block at (0, a, d) is the block at (r, a, d). -/
theorem idxT (r : Fin 9) (inb : ∀ a, (![r.val, 0, 0] : Fin 3 → Nat) a + S1x7x512.size a ≤ S9x7x512.size a)
    (z : Fin 1) (a : Fin 7) (d : Fin 512) :
    (Rect.unit (s := S9x7x512) ![r.val, 0, 0] S1x7x512.size inb).emb (ix3 z a d) = ix3 r a d := by
  funext x; apply Fin.ext
  match x with
  | ⟨0, _⟩ => show r.val + 1 * z.val = r.val; omega
  | ⟨1, _⟩ => show 0 + 1 * a.val = a.val; omega
  | ⟨2, _⟩ => show 0 + 1 * d.val = d.val; omega

/-- The payload stored at slab `r`, from the embedding block and slab `r` of the operators, is the closed form on
    that slab. -/
theorem slab_piece (x0 : Vec Ideal S7x512 .f32) (x1 : Vec Ideal S9x512x512 .f32) (r : Fin 9)
    (inbO : ∀ a, (![r.val, 0, 0] : Fin 3 → Nat) a + S1x512x512.size a ≤ S9x512x512.size a)
    (inbT : ∀ a, (![r.val, 0, 0] : Fin 3 → Nat) a + S1x7x512.size a ≤ S9x7x512.size a)
    (x : (Rect.unit (s := S9x7x512) ![r.val, 0, 0] S1x7x512.size inbT).shape.Idx) :
    slabPay (View.ld x0 rE) (View.ld x1 (Rect.unit (s := S9x512x512) ![r.val, 0, 0] S1x512x512.size inbO)) x
      = tabG x0 x1 ((Rect.unit (s := S9x7x512) ![r.val, 0, 0] S1x7x512.size inbT).emb x) := by
  obtain ⟨z, a, d, rfl⟩ : ∃ (z : Fin 1) (a : Fin 7) (d : Fin 512), x = ix3 z a d := ⟨x 0, x 1, x 2, eq_ix3 x⟩
  have hE : View.ld x0 rE = x0 :=
    View.ld_unit_zero (S := S7x512) (funext fun a => match a with | ⟨0, _⟩ => rfl | ⟨1, _⟩ => rfl) _ x0
  rw [idxT r inbT z a d, hE]
  refine (slabPay_apply x0 _ z a d).trans ?_
  unfold tabG Spec.tab
  refine congrArg (fun t => max t (0 : EReal)) (Finset.sum_congr rfl fun j _ => ?_)
  exact congrArg (fun t => x0 (ix2 a j) * x1 t) (idxO r inbO 0 d j)

/-- The stored table block at (r, a, d): `max (∑ j, x0[a, j] · x1[r, d, j]) 0`. -/
theorem tableOut_apply (x0 : Vec Ideal S7x512 .f32) (x1 : Vec Ideal S9x512x512 .f32) (r : Fin 9) (a : Fin 7) (d : Fin 512) :
    tableOut (F := Ideal) x0 x1 (ix3 r a d)
      = Spec.tab (fun a j => x0 (ix2 a j)) (fun r i j => x1 (ix3 r i j)) r a d := by
  unfold tableOut
  refine (View.canon_apply_of_pieces (tabG x0 x1) _ ?_ (ix3 r a d) (coverT _ _ _ _ _ _ _ _ _ _)).trans rfl
  intro pc hpc x
  rcases List.mem_cons.mp hpc with rfl | hpc
  · exact (congrFun (pay3_eq _ _) x).trans (slab_piece x0 x1 8 inb_S9x512x512_S1x512x512_8_0_0 inb_S9x7x512_S1x7x512_8_0_0 x)
  rcases List.mem_cons.mp hpc with rfl | hpc
  · exact (congrFun (pay2_eq _ _) x).trans (slab_piece x0 x1 7 inb_S9x512x512_S1x512x512_7_0_0 inb_S9x7x512_S1x7x512_7_0_0 x)
  rcases List.mem_cons.mp hpc with rfl | hpc
  · exact (congrFun (pay1_eq _ _) x).trans (slab_piece x0 x1 6 inb_S9x512x512_S1x512x512_6_0_0 inb_S9x7x512_S1x7x512_6_0_0 x)
  rcases List.mem_cons.mp hpc with rfl | hpc
  · exact (congrFun (pay10_eq _ _) x).trans (slab_piece x0 x1 5 inb_S9x512x512_S1x512x512_5_0_0 inb_S9x7x512_S1x7x512_5_0_0 x)
  rcases List.mem_cons.mp hpc with rfl | hpc
  · exact (congrFun (pay9_eq _ _) x).trans (slab_piece x0 x1 4 inb_S9x512x512_S1x512x512_4_0_0 inb_S9x7x512_S1x7x512_4_0_0 x)
  rcases List.mem_cons.mp hpc with rfl | hpc
  · exact (congrFun (pay8_eq _ _) x).trans (slab_piece x0 x1 3 inb_S9x512x512_S1x512x512_3_0_0 inb_S9x7x512_S1x7x512_3_0_0 x)
  rcases List.mem_cons.mp hpc with rfl | hpc
  · exact (congrFun (pay7_eq _ _) x).trans (slab_piece x0 x1 2 inb_S9x512x512_S1x512x512_2_0_0 inb_S9x7x512_S1x7x512_2_0_0 x)
  rcases List.mem_cons.mp hpc with rfl | hpc
  · exact (congrFun (pay6_eq _ _) x).trans (slab_piece x0 x1 1 inb_S9x512x512_S1x512x512_1_0_0 inb_S9x7x512_S1x7x512_1_0_0 x)
  rcases List.mem_cons.mp hpc with rfl | hpc
  · exact (congrFun (pay5_eq _ _) x).trans (slab_piece x0 x1 0 inb_S9x512x512_S1x512x512_0_0_0 inb_S9x7x512_S1x7x512_0_0_0 x)
  nomatch hpc

end Cert.KernelIdeal.Hand

end
-- ==== Proof.FusedValue.lean ====
/- The hinge block the second kernel stores, read at a row on the extended reals: row y of the tile is the triplet
   hinge of the row's feature, of its positive vector as a weighted sum over the 63 table rows, and of its negative
   vector as a one-hot sum over them, all read off the six input blocks. -/
import proofs.«423928_j62526133895556_3_alg».proof.Proof.FusedRegion
import proofs.«423928_j62526133895556_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe ValueIdx

/-! ## Words -/

/-- A one-bit word, zero-extended to 32 bits and read as a signed integer, is the real 0 or 1. -/
theorem bit_toReal (b : Bool) : (((BitVec.setWidth 32 (BitVec.ofBool b)).toInt : ℝ) : EReal) = if b = true then 1 else 0 := by
  cases b
  · simp
  · simp

/-! ## The two contractions -/

theorem lhsA_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhsA_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhsA_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhsA_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The image-by-weights product into a zero accumulator, at (y, d): the sum over the 2048 contracted coordinates. -/
theorem mmA_apply {φ₁ φ₂ : FTy} (prec : Option ContractPrecision) (lhs : FVec Ideal S512x2048 φ₁) (rhs : FVec Ideal S2048x512 φ₂)
    (y : Fin 512) (d : Fin 512) :
    matmul dot_S512x2048_S2048x512_S512x512_1_0_0_1_n_n prec lhs rhs (constant (F := Ideal) S512x512 .f32 0x00000000#32) (ix2 y d)
      = ∑ k : Fin 2048, lhs (ix2 y k) * rhs (ix2 k d) := by
  refine (Ideal.matmul_constant_zero_apply _ prec lhs rhs (ix2 y d)).trans ?_
  rw [← Equiv.sum_comp (ValueIdx.contrEquiv1 dot_S512x2048_S2048x512_S512x512_1_0_0_1_n_n 2048 rfl rfl).symm]
  refine Finset.sum_congr rfl fun k _ => ?_
  have hk := ValueIdx.contrEquiv1_symm_val dot_S512x2048_S2048x512_S512x512_1_0_0_1_n_n 2048 rfl rfl k
  have el : dot_S512x2048_S2048x512_S512x512_1_0_0_1_n_n.lhsIdx (ix2 y d) ((ValueIdx.contrEquiv1 dot_S512x2048_S2048x512_S512x512_1_0_0_1_n_n 2048 rfl rfl).symm k) = ix2 y k := funext fun a => Fin.ext (by
    match a with
    | ⟨0, _⟩ => exact lhsA_0 _ _
    | ⟨1, _⟩ => exact (lhsA_1 _ _).trans hk)
  have er : dot_S512x2048_S2048x512_S512x512_1_0_0_1_n_n.rhsIdx (ix2 y d) ((ValueIdx.contrEquiv1 dot_S512x2048_S2048x512_S512x512_1_0_0_1_n_n 2048 rfl rfl).symm k) = ix2 k d := funext fun a => Fin.ext (by
    match a with
    | ⟨0, _⟩ => exact (rhsA_0 _ _).trans hk
    | ⟨1, _⟩ => exact rhsA_1 _ _)
  rw [el, er]

theorem lhsB_0 (i : S512x512.Idx) (q : dot_S512x63_S63x512_S512x512_1_0_0_1_n_n.contr.Idx) :
    (dot_S512x63_S63x512_S512x512_1_0_0_1_n_n.lhsIdx i q 0).val = (i 0).val := by
  unfold DotDims.lhsIdx
  rw [dif_neg (show ¬(0 : Fin S512x63.rank) ∈ dot_S512x63_S63x512_S512x512_1_0_0_1_n_n.lhsBatch by decide), dif_pos (show (0 : Fin S512x63.rank) ∈ dot_S512x63_S63x512_S512x512_1_0_0_1_n_n.lhsNonContracting by decide)]
  rfl
theorem lhsB_1 (i : S512x512.Idx) (q : dot_S512x63_S63x512_S512x512_1_0_0_1_n_n.contr.Idx) :
    (dot_S512x63_S63x512_S512x512_1_0_0_1_n_n.lhsIdx i q 1).val = (q ⟨0, by decide⟩).val :=
  dot_S512x63_S63x512_S512x512_1_0_0_1_n_n.lhsIdx_val_of_single rfl i q
theorem rhsB_0 (i : S512x512.Idx) (q : dot_S512x63_S63x512_S512x512_1_0_0_1_n_n.contr.Idx) :
    (dot_S512x63_S63x512_S512x512_1_0_0_1_n_n.rhsIdx i q 0).val = (q ⟨0, by decide⟩).val :=
  dot_S512x63_S63x512_S512x512_1_0_0_1_n_n.rhsIdx_val_of_single rfl i q
theorem rhsB_1 (i : S512x512.Idx) (q : dot_S512x63_S63x512_S512x512_1_0_0_1_n_n.contr.Idx) :
    (dot_S512x63_S63x512_S512x512_1_0_0_1_n_n.rhsIdx i q 1).val = (i 1).val := by
  unfold DotDims.rhsIdx
  rw [dif_neg (show ¬(1 : Fin S63x512.rank) ∈ dot_S512x63_S63x512_S512x512_1_0_0_1_n_n.rhsBatch by decide), dif_pos (show (1 : Fin S63x512.rank) ∈ dot_S512x63_S63x512_S512x512_1_0_0_1_n_n.rhsNonContracting by decide)]
  rfl

/-- A row-weights-by-table product into a zero accumulator, at (y, d): the sum over the 63 table rows. -/
theorem mmB_apply {φ₁ φ₂ : FTy} (prec : Option ContractPrecision) (lhs : FVec Ideal S512x63 φ₁) (rhs : FVec Ideal S63x512 φ₂)
    (y : Fin 512) (d : Fin 512) :
    matmul dot_S512x63_S63x512_S512x512_1_0_0_1_n_n prec lhs rhs (constant (F := Ideal) S512x512 .f32 0x00000000#32) (ix2 y d)
      = ∑ c : Fin 63, lhs (ix2 y c) * rhs (ix2 c d) := by
  refine (Ideal.matmul_constant_zero_apply _ prec lhs rhs (ix2 y d)).trans ?_
  rw [← Equiv.sum_comp (ValueIdx.contrEquiv1 dot_S512x63_S63x512_S512x512_1_0_0_1_n_n 63 rfl rfl).symm]
  refine Finset.sum_congr rfl fun k _ => ?_
  have hk := ValueIdx.contrEquiv1_symm_val dot_S512x63_S63x512_S512x512_1_0_0_1_n_n 63 rfl rfl k
  have el : dot_S512x63_S63x512_S512x512_1_0_0_1_n_n.lhsIdx (ix2 y d) ((ValueIdx.contrEquiv1 dot_S512x63_S63x512_S512x512_1_0_0_1_n_n 63 rfl rfl).symm k) = ix2 y k := funext fun a => Fin.ext (by
    match a with
    | ⟨0, _⟩ => exact lhsB_0 _ _
    | ⟨1, _⟩ => exact (lhsB_1 _ _).trans hk)
  have er : dot_S512x63_S63x512_S512x512_1_0_0_1_n_n.rhsIdx (ix2 y d) ((ValueIdx.contrEquiv1 dot_S512x63_S63x512_S512x512_1_0_0_1_n_n 63 rfl rfl).symm k) = ix2 k d := funext fun a => Fin.ext (by
    match a with
    | ⟨0, _⟩ => exact (rhsB_0 _ _).trans hk
    | ⟨1, _⟩ => exact rhsB_1 _ _)
  rw [el, er]

/-! ## Layout operations at an index -/

/-- The lane sum of a 512×512 block at row y. -/
theorem laneSum_apply (v : FVec Ideal S512x512 .f32) (hφ : FKind.Formats .f32)
    (hacc : (0x00000000#32 : BitVec 32) = FKind.add.neutral .f32 hφ) (y : Fin 512) :
    multiReduction (F := Ideal) .add [1] S512 v 0x00000000#32 reduces_S512x512_S512 hφ hacc (ix1 y) = ∑ d : Fin 512, v (ix2 y d) := by
  refine (Ideal.multiReduction_add_single v _ reduces_S512x512_S512 hφ hacc (ix1 y)).trans ?_
  refine Finset.sum_congr rfl fun d _ => congrArg v ?_
  funext a
  match a with
  | ⟨0, _⟩ => rfl
  | ⟨1, _⟩ => rfl

/-- A column broadcast along 63 lanes reads its row's one entry. -/
theorem bcastCol_apply {α : Type} (v : S512x1.Idx → α) (y : Fin 512) (c : Fin 63) :
    broadcastTo S512x63 v broadcasts_S512x1_S512x63 (ix2 y c) = v (ix2 y (0 : Fin 1)) := by
  refine broadcastTo_apply v broadcasts_S512x1_S512x63 (ix2 y c) (ix2 y (0 : Fin 1)) fun ax => ?_
  match ax with
  | ⟨0, _⟩ => rfl
  | ⟨1, _⟩ => rfl

/-- The bias row broadcast over the tile's rows. -/
theorem bcastRow_apply {α : Type} (v : S1x512.Idx → α) (y : Fin 512) (d : Fin 512) :
    broadcastTo S512x512 v broadcasts_S1x512_S512x512 (ix2 y d) = v (ix2 (0 : Fin 1) d) :=
  broadcastTo_1b_ab_apply v broadcasts_S1x512_S512x512 y d

/-- The lane index at (y, c) is the word of c. -/
theorem comboIota_apply (y : Fin 512) (c : Fin 63) : comboIota (ix2 y c) = BitVec.ofNat 32 c.val :=
  iota_single_apply .tc S512x63 32 1 iota_S512x63_d1_w32 (ix2 y c)
theorem laneIota_apply (y : Fin 512) (c : Fin 63) :
    iota .tc S512x63 32 [1] iota_S512x63_d1_w32 (ix2 y c) = BitVec.ofNat 32 c.val :=
  iota_single_apply .tc S512x63 32 1 iota_S512x63_d1_w32 (ix2 y c)

/-! ## The feature -/

theorem pay2_apply (v0 : Vec Ideal S512x2048 .f32) (v2 : Vec Ideal S2048x512 .f32) (v5 : Vec Ideal S1x512 .f32) (y d : Fin 512) :
    k1_pay2 (F := Ideal) v0 v2 v5 (ix2 y d)
      = Spec.feat (fun k => v0 (ix2 y k)) (fun k d => v2 (ix2 k d)) (fun d => v5 (ix2 0 d)) d := by
  unfold k1_pay2 Spec.feat
  simp only [maximumf_apply, addf_apply, broadcast_apply, mmA_apply, bcastRow_apply, shapeCast_self, truncf_apply,
    Scalar.ofBits, Ideal.ofBits_def, Ideal.ofBits_zero_f32]

/-! ## More pointwise operations at an index -/

theorem sqrt_apply {s : Shape} {φ : FTy} (a : FVec Ideal s φ) (i : s.Idx) : sqrt a i = Ideal.sqrt (a i) := rfl
theorem cmpi_apply {s : Shape} {w : Nat} (p : CmpIPredicate) (a b : IVec s w) (i : s.Idx) : cmpi p a b i = IntOp.cmpi p (a i) (b i) := rfl
theorem muli_apply {s : Shape} {w : Nat} (a b : IVec s w) (i : s.Idx) : muli a b i = a i * b i := rfl
theorem addi_apply {s : Shape} {w : Nat} (a b : IVec s w) (i : s.Idx) : addi a b i = a i + b i := rfl

/-- The one-hot entry: an equality test of words, widened and converted, is the indicator of the equality. -/
theorem oneHot_word (a b : BitVec 32) :
    FloatOps.sitofp (F := Ideal) .f32 ((IntOp.cmpi .eq a b).setWidth 32) = Spec.ind (a = b) := by
  show (((BitVec.setWidth 32 (BitVec.ofBool (a == b))).toInt : ℝ) : EReal) = _
  rw [bit_toReal]
  unfold Spec.ind
  simp only [beq_iff_eq]

/-- The validity entry: a signed "greater than" test, widened and converted, is the indicator of the comparison. -/
theorem valid_word (n k : BitVec 32) :
    FloatOps.sitofp (F := Ideal) .f32 ((IntOp.cmpi .sgt n k).setWidth 32) = Spec.ind (BitVec.slt k n = true) := by
  show (((BitVec.setWidth 32 (BitVec.ofBool (k.slt n))).toInt : ℝ) : EReal) = _
  rw [bit_toReal]
  rfl

/-! ## The hinge of a row -/

theorem pay1_apply (f : FVec Ideal S512x512 .f32) (T : FVec Ideal S63x512 .bf16) (na nr : IVec S512x1 32)
    (p : FVec Ideal S512x512 .f32) (y : Fin 512) :
    k1_pay1 (F := Ideal) f T na nr comboIota p k1_pay15 (ix1 y)
      = Spec.hinge (fun d => f (ix2 y d)) (fun d => p (ix2 y d))
          (fun d => ∑ c : Fin 63, Spec.ind (nr (ix2 y 0) * 7#32 + na (ix2 y 0) = BitVec.ofNat 32 c.val) * T (ix2 c d)) := by
  unfold k1_pay1 k1_pay15 Spec.hinge Spec.eps Spec.margin
  simp only [maximumf_apply, addf_apply, subf_apply, broadcast_apply, sqrt_apply,
    Scalar.ofBits, Ideal.ofBits_def, Ideal.ofBits_zero_f32]
  refine congrArg₂ (fun a b => max (Ideal.sqrt a - Ideal.sqrt b + _) 0) ?_ ?_
  · refine (laneSum_apply _ _ _ y).trans ?_
    rfl
  · refine (laneSum_apply _ _ _ y).trans ?_
    refine Finset.sum_congr rfl fun d _ => ?_
    simp only [addf_apply, subf_apply, mulf_apply, broadcast_apply, mmB_apply,
      truncf_apply, sitofp_apply, extui_apply, cmpi_apply, muli_apply, addi_apply, bcastCol_apply, comboIota_apply,
      oneHot_word]

/-! ## The pooled weights and the positive vector -/

/-- The first pair's term of the weights, at (y, c). -/
theorem pay13_apply (x3 : Vec Ideal S512x8 .i32) (x4 : Vec Ideal S512x3 .i32) (y : Fin 512) (c : Fin 63) :
    k1_pay13 (F := Ideal) x3 x4 (ix2 y c)
      = 0 + Spec.ind (x3 (ix2 y (4 : Fin 8)) * 7#32 + x3 (ix2 y (0 : Fin 8)) = BitVec.ofNat 32 c.val)
          * Spec.ind (BitVec.slt 0#32 (x4 (ix2 y (0 : Fin 3))) = true) := by
  unfold k1_pay13 k1_pay6 k1_pay7 k1_pay5 k1_pay9 k1_pay8
  simp only [addf_apply, mulf_apply, broadcast_apply, sitofp_apply, extui_apply, cmpi_apply, muli_apply, addi_apply,
    bcastCol_apply, laneIota_apply, oneHot_word, valid_word, shapeCast_self, slice2_axis1_eq,
    Scalar.ofBits, Ideal.ofBits_def, Ideal.ofBits_zero_f32]
  rw [laneIota_apply y c]
  rfl

/-- The positive vector from the table, the actor and relation columns, the count column and its conversion, and the
    first pair's term of the weights. -/
theorem pay14_apply (T : FVec Ideal S63x512 .f32) (A R : IVec S512x4 32) (n : IVec S512x1 32) (nf : FVec Ideal S512x1 .f32)
    (w0 : FVec Ideal S512x63 .f32) (y d : Fin 512) :
    k1_pay14 (F := Ideal) T A R n nf comboIota w0 (ix2 y d)
      = ∑ c : Fin 63, Ideal.div
          (((w0 (ix2 y c)
            + Spec.ind (R (ix2 y (1 : Fin 4)) * 7#32 + A (ix2 y (1 : Fin 4)) = BitVec.ofNat 32 c.val)
                * Spec.ind (BitVec.slt 1#32 (n (ix2 y (0 : Fin 1))) = true))
            + Spec.ind (R (ix2 y (2 : Fin 4)) * 7#32 + A (ix2 y (2 : Fin 4)) = BitVec.ofNat 32 c.val)
                * Spec.ind (BitVec.slt 2#32 (n (ix2 y (0 : Fin 1))) = true))
            + Spec.ind (R (ix2 y (3 : Fin 4)) * 7#32 + A (ix2 y (3 : Fin 4)) = BitVec.ofNat 32 c.val)
                * Spec.ind (BitVec.slt 3#32 (n (ix2 y (0 : Fin 1))) = true))
          (nf (ix2 y (0 : Fin 1))) * T (ix2 c d) := by
  unfold k1_pay14
  refine (mmB_apply _ _ _ y d).trans ?_
  refine Finset.sum_congr rfl fun c _ => ?_
  simp only [divf_apply, addf_apply, mulf_apply, broadcast_apply, sitofp_apply, extui_apply, cmpi_apply, muli_apply, addi_apply,
    bcastCol_apply, comboIota_apply, laneIota_apply, oneHot_word, valid_word, slice2_axis1_eq]
  rfl

/-! ## The stored block -/

/-- The stored hinge block at row `y`. Columns 0–3 of the packed index block are the actor words and 4–7 the relation
    words; columns 0, 1, 2 of the packed scalar block are the count, the negative actor and the negative relation. -/
theorem hingeOut_apply (x0 : Vec Ideal S512x2048 .f32) (x1 : Vec Ideal S2048x512 .f32) (x2 : Vec Ideal S1x512 .f32)
    (x3 : Vec Ideal S512x8 .i32) (x4 : Vec Ideal S512x3 .i32) (x5 : Vec Ideal S63x512 .f32) (y : Fin 512) :
    hingeOut (F := Ideal) x0 x1 x2 x3 x4 x5 (ix1 y)
      = Spec.hinge (Spec.feat (fun k => x0 (ix2 y k)) (fun k d => x1 (ix2 k d)) (fun d => x2 (ix2 0 d)))
          (Spec.posK (fun c d => x5 (ix2 c d)) (fun k => x3 (ix2 y ⟨k.val, by omega⟩)) (fun k => x3 (ix2 y ⟨k.val + 4, by omega⟩)) (x4 (ix2 y 0)))
          (Spec.negK (fun c d => x5 (ix2 c d)) (x4 (ix2 y 1)) (x4 (ix2 y 2))) := by
  have hz1 : (![0] : Fin 1 → Nat) = fun _ => 0 := funext fun a => by match a with | ⟨0, _⟩ => rfl
  have hz2 : (![0, 0] : Fin 2 → Nat) = fun _ => 0 := funext fun a => by match a with | ⟨0, _⟩ => rfl | ⟨1, _⟩ => rfl
  have hf : (fun d => k1_pay2 (F := Ideal) x0 x1 x2 (ix2 y d))
      = Spec.feat (fun k => x0 (ix2 y k)) (fun k d => x1 (ix2 k d)) (fun d => x2 (ix2 0 d)) :=
    funext fun d => pay2_apply x0 x1 x2 y d
  have hp : (fun d => k1_pay14 (F := Ideal) (k1_pay3 x5) (k1_pay6 x3) (k1_pay7 x3) (k1_pay9 x4) (k1_pay12 x4) comboIota
        (k1_pay13 x3 x4) (ix2 y d))
      = Spec.posK (fun c d => x5 (ix2 c d)) (fun k => x3 (ix2 y ⟨k.val, by omega⟩)) (fun k => x3 (ix2 y ⟨k.val + 4, by omega⟩)) (x4 (ix2 y 0)) := by
    funext d
    rw [pay14_apply]
    unfold Spec.posK Spec.valid
    refine Finset.sum_congr rfl fun c _ => ?_
    rw [pay13_apply, Fin.sum_univ_four, zero_add]
    unfold k1_pay3 k1_pay6 k1_pay7 k1_pay5 k1_pay9 k1_pay12 k1_pay9 k1_pay8
    simp only [shapeCast_self, slice2_axis1_eq, sitofp_apply]
    rfl
  have hn : (fun d => ∑ c : Fin 63, Spec.ind (k1_pay11 (F := Ideal) x4 (ix2 y 0) * 7#32 + k1_pay10 (F := Ideal) x4 (ix2 y 0) = BitVec.ofNat 32 c.val)
        * k1_pay4 (F := Ideal) x5 (ix2 c d))
      = Spec.negK (fun c d => x5 (ix2 c d)) (x4 (ix2 y 1)) (x4 (ix2 y 2)) := by
    funext d
    unfold Spec.negK k1_pay11 k1_pay10 k1_pay8 k1_pay4 k1_pay3
    simp only [shapeCast_self, slice2_axis1_eq, truncf_apply]
    rfl
  unfold hingeOut
  rw [View.canon_unit_zero hz1]
  simp only [View.ld_unit_zero (S := S512x2048) hz2, View.ld_unit_zero (S := S2048x512) hz2, View.ld_unit_zero (S := S1x512) hz2,
    View.ld_unit_zero (S := S512x8) hz2, View.ld_unit_zero (S := S512x3) hz2, View.ld_unit_zero (S := S63x512) hz2]
  refine (pay1_apply _ _ _ _ _ y).trans ?_
  rw [hf, hp, hn]

end Cert.KernelIdeal.Hand

end
-- ==== Proof.KernelValue.lean ====
/- The kernel program's result on the extended reals: the mean over the batch of the per-row hinge, each row's positive
   and negative vectors in the kernel's arrangement (sums over the 63 table rows), all read off the launch contents of
   the ten argument arrays. -/
import proofs.«423928_j62526133895556_3_alg».proof.Proof.KernelBlocks
import proofs.«423928_j62526133895556_3_alg».proof.Proof.KernelHost
import proofs.«423928_j62526133895556_3_alg».proof.Proof.TableValue
import proofs.«423928_j62526133895556_3_alg».proof.Proof.FusedValue
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem ValueIdx

variable (m : (ℓ : Loc nD τ sig) → Buf (Elt Ideal) ℓ)

/-- The hinge array the second region leaves, row by row. -/
theorem hinge_array (c : Dev nD) :
    (W3 (F := Ideal) m c (Proc.devRef .tc main_v8) : Vec Ideal S4096 .f32)
      = fun i => Spec.hingeKRow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (i 0) := by
  funext i
  obtain ⟨t, y, hb⟩ := exists_rowOf (i 0)
  have hi : i = ix1 (rowOf t y) := by rw [← hb]; exact ValueIdx.eq_ix1 i
  subst hi
  have hW : (W3 (F := Ideal) m c (Proc.devRef .tc main_v8) : Vec Ideal S4096 .f32)
      = ((dat1 (V2 (F := Ideal) m) c).arrAt 6 cfg1.N : Vec Ideal S4096 .f32) := W3_arr m c 6
  rw [hW, hinge_final (V2 (F := Ideal) m) c t y, hingeOut_apply]
  -- the six blocks of point t, read at row y, are the launch arrays read at row 512·t + y
  have h0 : (fun k => (iblk1 (V2 (F := Ideal) m) c 0 t : Vec Ideal S512x2048 .f32) (ix2 y k))
      = fun k => ((m ((c : Thread nD τ).loc main_arg0)) : Vec Ideal S4096x2048 .f32) (ix2 (rowOf t y) k) := by
    funext k; rw [iblk1_img, V2_img]
  have h1 : (fun k d => (iblk1 (V2 (F := Ideal) m) c 1 t : Vec Ideal S2048x512 .f32) (ix2 k d))
      = fun k d => ((m ((c : Thread nD τ).loc main_arg1)) : Vec Ideal S2048x512 .f32) (ix2 k d) := by
    rw [iblk1_weights, V2_weights]
  have h2 : (fun d => (iblk1 (V2 (F := Ideal) m) c 2 t : Vec Ideal S1x512 .f32) (ix2 0 d))
      = fun d => ((m ((c : Thread nD τ).loc main_arg2)) : Vec Ideal S512 .f32) (ix1 d) := by
    funext d; rw [iblk1_bias, V2_bias]
  have h3a : (fun k : Fin 4 => (iblk1 (V2 (F := Ideal) m) c 3 t : Vec Ideal S512x8 .i32) (ix2 y ⟨k.val, by omega⟩))
      = fun k => ((m ((c : Thread nD τ).loc main_arg5)) : Vec Ideal S4096x4 .i32) (ix2 (rowOf t y) k) := by
    funext k; rw [iblk1_idx, V2_actor]
  have h3b : (fun k : Fin 4 => (iblk1 (V2 (F := Ideal) m) c 3 t : Vec Ideal S512x8 .i32) (ix2 y ⟨k.val + 4, by omega⟩))
      = fun k => ((m ((c : Thread nD τ).loc main_arg6)) : Vec Ideal S4096x4 .i32) (ix2 (rowOf t y) k) := by
    funext k; rw [iblk1_idx, V2_action]
  have h4a : (iblk1 (V2 (F := Ideal) m) c 4 t : Vec Ideal S512x3 .i32) (ix2 y 0)
      = ((m ((c : Thread nD τ).loc main_arg7)) : Vec Ideal S4096 .i32) (ix1 (rowOf t y)) := by
    rw [iblk1_scal, V2_counts]
  have h4b : (iblk1 (V2 (F := Ideal) m) c 4 t : Vec Ideal S512x3 .i32) (ix2 y 1)
      = ((m ((c : Thread nD τ).loc main_arg8)) : Vec Ideal S4096 .i32) (ix1 (rowOf t y)) := by
    rw [iblk1_scal, V2_nactor]
  have h4c : (iblk1 (V2 (F := Ideal) m) c 4 t : Vec Ideal S512x3 .i32) (ix2 y 2)
      = ((m ((c : Thread nD τ).loc main_arg9)) : Vec Ideal S4096 .i32) (ix1 (rowOf t y)) := by
    rw [iblk1_scal, V2_naction]
  -- the table block is the 63-row table of the embedding and operator arrays
  have hT : (W1 (F := Ideal) m c (Proc.devRef .tc main_v0) : Vec Ideal S9x7x512 .f32)
      = tableOut (V0 (F := Ideal) m c main_arg3) (V0 (F := Ideal) m c main_arg4) :=
    (W1_arr m c 2).trans (table_final (V0 (F := Ideal) m) c)
  have h5 : (fun q d => (iblk1 (V2 (F := Ideal) m) c 5 t : Vec Ideal S63x512 .f32) (ix2 q d))
      = Spec.tab63 (m ((c : Thread nD τ).loc main_arg3)) (m ((c : Thread nD τ).loc main_arg4)) := by
    funext q d
    rw [iblk1_table, V2_table, hT, tableOut_apply, V0_obj, V0_ops]
    rfl
  rw [h0, h1, h2, h3a, h3b, h4a, h4b, h4c, h5]
  rfl

/-- The program's result: the mean of the per-row hinges. -/
theorem kernel_value (c : Dev nD) :
    W4 (F := Ideal) m c (Proc.devRef .tc main_v10)
      = Host.divf (Host.reduceAdd (F := Ideal) (fun i : S4096.Idx => Spec.hingeKRow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (i 0)) (constant S_ .f32 0x00000000#32) reducesTo_S4096_S_d0 h_S_)
          (constant S_ .f32 0x45800000#32) := by
  rw [W4_result, hinge_array]
  rfl

end Cert.KernelIdeal.Hand

end
-- ==== Proof.RefPos.lean ====
/- The reference program's positive vector read on the extended reals: with every actor and relation word in range
   of its axis, entry (b, d) is the masked sum of row b's four pairs' table entries over the row's count (the gather of
   the actor's embedding, its product with every relation's operator, the look-up of the pair's relation along that
   axis, the rectification, the mask and the quotient). -/
import proofs.«423928_j62526133895556_3_alg».proof.Proof.RefRead
import proofs.«423928_j62526133895556_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen Cert.ReferenceIdeal.ReadP
open Idealize.ShloMosaic Idealize.ShloMosaic.TcCoe ValueIdx

/-! ## Words below 2^31: not negative, so the wrap of a negative index leaves them, and the signed reading is the
    unsigned one -/

/-- The signed value of a word below 2^31 is its unsigned one. -/
theorem toInt_of_small (x : BitVec 32) (h : x.toNat < 2 ^ 31) : x.toInt = (x.toNat : Int) := by
  rw [BitVec.toInt_eq_toNat_cond, if_pos (by omega)]

/-- A word below 2^31 is not signed-below zero. -/
theorem slt_zero_of_small (x : BitVec 32) (h : x.toNat < 2 ^ 31) : IntOp.cmpi .slt x 0#32 = 0#1 := by
  unfold IntOp.cmpi
  have h0 : (0#32 : BitVec 32).toInt = 0 := by decide
  have : x.slt 0#32 = false := by
    simp only [BitVec.slt, decide_eq_false_iff_not, not_lt]
    rw [h0, toInt_of_small x h]
    exact Int.natCast_nonneg _
  rw [this]; rfl

/-- So the wrap (add the extent when negative) is the identity on it. -/
theorem wrap_of_small (x c : BitVec 32) (h : x.toNat < 2 ^ 31) :
    Scalar.select (IntOp.cmpi .slt x 0#32) (IntOp.addi x c) x = x := by
  rw [slt_zero_of_small x h]; exact select_zero _ _

/-- Its signed value, as a natural, is its unsigned one. -/
theorem toInt_toNat_of_small (x : BitVec 32) (h : x.toNat < 2 ^ 31) : x.toInt.toNat = x.toNat := by
  rw [toInt_of_small x h]; exact Int.toNat_natCast _

/-- A word below 9 passes the bounds test of the look-up along an axis of extent 9 (0 ≤ x ≤ 8, signed). -/
theorem inb_of_lt9 (x : BitVec 32) (h : x.toNat < 9) :
    IntOp.andi (IntOp.cmpi .sge x 0#32) (IntOp.cmpi .sle x 8#32) = 1#1 := by
  have h0 : (0#32 : BitVec 32).toInt = 0 := by decide
  have h8 : (8#32 : BitVec 32).toInt = 8 := by decide
  have hx : x.toInt = (x.toNat : Int) := toInt_of_small x (by omega)
  have e1 : IntOp.cmpi .sge x 0#32 = 1#1 := by
    unfold IntOp.cmpi
    have : (0#32 : BitVec 32).sle x = true := by
      simp only [BitVec.sle, decide_eq_true_eq]; rw [h0, hx]; exact Int.natCast_nonneg _
    rw [this]; rfl
  have e2 : IntOp.cmpi .sle x 8#32 = 1#1 := by
    unfold IntOp.cmpi
    have : x.sle 8#32 = true := by
      simp only [BitVec.sle, decide_eq_true_eq]; rw [h8, hx]; omega
    rw [this]; rfl
  rw [e1, e2]; rfl

/-! ## The two gathers read at an index -/

/-- The gather of embedding rows: result element (b, k, j) is the operand's at (the start word for (b, k), read signed
    and clamped into 0 … 6; j). -/
theorem gather_emb {α : Type} (x : S7x512.Idx → α) (idx : IVec S4096x4x1 32) (b : Fin 4096) (k : Fin 4) (j : Fin 512) :
    Host.gather gather_S7x512_S4096x4x1_S4096x4x512_2_0_n_n_0_2_1512 x idx (ix3 b k j)
      = x (ix2 ⟨min (idx (ix3 b k 0)).toInt.toNat 6, by omega⟩ j) := by
  unfold Host.gather; congr 1; funext a; apply Fin.ext
  match a with
  | ⟨0, _⟩ =>
    show gather_S7x512_S4096x4x1_S4096x4x512_2_0_n_n_0_2_1512.start (ix3 b k j) idx 0
      + gather_S7x512_S4096x4x1_S4096x4x512_2_0_n_n_0_2_1512.batchCoord (ix3 b k j) 0
      + gather_S7x512_S4096x4x1_S4096x4x512_2_0_n_n_0_2_1512.offCoord (ix3 b k j) 0 = _
    rw [GatherDims.batchCoord_eq_zero _ _ _ (by decide),
      GatherDims.offCoord_eq_zero _ _ _ (by decide)]
    simp only [Nat.add_zero]
    unfold GatherDims.start
    rw [dif_pos (by decide)]
    have hsi : gather_S7x512_S4096x4x1_S4096x4x512_2_0_n_n_0_2_1512.siIdx (ix3 b k j)
        ⟨List.idxOf (0 : Fin S7x512.rank) gather_S7x512_S4096x4x1_S4096x4x512_2_0_n_n_0_2_1512.startIndexMap,
          List.idxOf_lt_length_iff.2 (by decide)⟩ = ix3 b k 0 := by
      funext c; refine Fin.ext ?_
      match c with
      | ⟨0, _⟩ => rfl
      | ⟨1, _⟩ => rfl
      | ⟨2, _⟩ => rfl
    rw [hsi]
    rfl
  | ⟨1, _⟩ =>
    show gather_S7x512_S4096x4x1_S4096x4x512_2_0_n_n_0_2_1512.start (ix3 b k j) idx 1
      + gather_S7x512_S4096x4x1_S4096x4x512_2_0_n_n_0_2_1512.batchCoord (ix3 b k j) 1
      + gather_S7x512_S4096x4x1_S4096x4x512_2_0_n_n_0_2_1512.offCoord (ix3 b k j) 1 = _
    rw [GatherDims.batchCoord_eq_zero _ _ _ (by decide)]
    unfold GatherDims.start GatherDims.offCoord
    rw [dif_neg (by decide), dif_pos (by decide)]
    simp only [Nat.zero_add]
    exact congrArg (fun a => (ix3 b k j a : ℕ)) (show _ = (2 : Fin S4096x4x512.rank) by decide)

/-- The look-up along the relation axis: result element (b, k, z, d) is the operand's at (b, k, the start word for
    (b, k, z), read signed and clamped into 0 … 8; d). -/
theorem gather_rel {α : Type} (x : S4096x4x9x512.Idx → α) (idx : IVec S4096x4x1x1 32) (b : Fin 4096) (k : Fin 4) (z : Fin 1)
    (d : Fin 512) :
    Host.gather gather_S4096x4x9x512_S4096x4x1x1_S4096x4x1x512_3_2_01_01_2_3_111512 x idx (ix4 b k z d)
      = x (ix4 b k ⟨min (idx (ix4 b k z 0)).toInt.toNat 8, by omega⟩ d) := by
  unfold Host.gather; congr 1; funext a; apply Fin.ext
  match a with
  | ⟨0, _⟩ =>
    show gather_S4096x4x9x512_S4096x4x1x1_S4096x4x1x512_3_2_01_01_2_3_111512.start (ix4 b k z d) idx 0
      + gather_S4096x4x9x512_S4096x4x1x1_S4096x4x1x512_3_2_01_01_2_3_111512.batchCoord (ix4 b k z d) 0
      + gather_S4096x4x9x512_S4096x4x1x1_S4096x4x1x512_3_2_01_01_2_3_111512.offCoord (ix4 b k z d) 0 = _
    rw [GatherDims.start_batching _ _ _ _ (by decide), GatherDims.offCoord_eq_zero _ _ _ (by decide)]
    unfold GatherDims.batchCoord
    rw [dif_pos (by decide)]
    simp only [Nat.zero_add, Nat.add_zero]
    exact congrArg (fun a => (ix4 b k z d a : ℕ)) (show _ = (0 : Fin S4096x4x1x512.rank) by decide)
  | ⟨1, _⟩ =>
    show gather_S4096x4x9x512_S4096x4x1x1_S4096x4x1x512_3_2_01_01_2_3_111512.start (ix4 b k z d) idx 1
      + gather_S4096x4x9x512_S4096x4x1x1_S4096x4x1x512_3_2_01_01_2_3_111512.batchCoord (ix4 b k z d) 1
      + gather_S4096x4x9x512_S4096x4x1x1_S4096x4x1x512_3_2_01_01_2_3_111512.offCoord (ix4 b k z d) 1 = _
    rw [GatherDims.start_batching _ _ _ _ (by decide), GatherDims.offCoord_eq_zero _ _ _ (by decide)]
    unfold GatherDims.batchCoord
    rw [dif_pos (by decide)]
    simp only [Nat.zero_add, Nat.add_zero]
    exact congrArg (fun a => (ix4 b k z d a : ℕ)) (show _ = (1 : Fin S4096x4x1x512.rank) by decide)
  | ⟨2, _⟩ =>
    show gather_S4096x4x9x512_S4096x4x1x1_S4096x4x1x512_3_2_01_01_2_3_111512.start (ix4 b k z d) idx 2
      + gather_S4096x4x9x512_S4096x4x1x1_S4096x4x1x512_3_2_01_01_2_3_111512.batchCoord (ix4 b k z d) 2
      + gather_S4096x4x9x512_S4096x4x1x1_S4096x4x1x512_3_2_01_01_2_3_111512.offCoord (ix4 b k z d) 2 = _
    rw [GatherDims.batchCoord_eq_zero _ _ _ (by decide), GatherDims.offCoord_eq_zero _ _ _ (by decide)]
    simp only [Nat.add_zero]
    unfold GatherDims.start
    rw [dif_pos (by decide)]
    have hsi : gather_S4096x4x9x512_S4096x4x1x1_S4096x4x1x512_3_2_01_01_2_3_111512.siIdx (ix4 b k z d)
        ⟨List.idxOf (2 : Fin S4096x4x9x512.rank) gather_S4096x4x9x512_S4096x4x1x1_S4096x4x1x512_3_2_01_01_2_3_111512.startIndexMap,
          List.idxOf_lt_length_iff.2 (by decide)⟩ = ix4 b k z 0 := by
      funext c; refine Fin.ext ?_
      match c with
      | ⟨0, _⟩ => rfl
      | ⟨1, _⟩ => rfl
      | ⟨2, _⟩ => rfl
      | ⟨3, _⟩ => rfl
    rw [hsi]
    rfl
  | ⟨3, _⟩ =>
    show gather_S4096x4x9x512_S4096x4x1x1_S4096x4x1x512_3_2_01_01_2_3_111512.start (ix4 b k z d) idx 3
      + gather_S4096x4x9x512_S4096x4x1x1_S4096x4x1x512_3_2_01_01_2_3_111512.batchCoord (ix4 b k z d) 3
      + gather_S4096x4x9x512_S4096x4x1x1_S4096x4x1x512_3_2_01_01_2_3_111512.offCoord (ix4 b k z d) 3 = _
    rw [GatherDims.batchCoord_eq_zero _ _ _ (by decide)]
    unfold GatherDims.start GatherDims.offCoord
    rw [dif_neg (by decide), dif_pos (by decide)]
    simp only [Nat.zero_add]
    exact congrArg (fun a => (ix4 b k z d a : ℕ)) (show _ = (3 : Fin S4096x4x1x512.rank) by decide)

/-! ## The integer preludes and the bounds flag, with the words in range -/

/-- The wrapped actor word is the actor word. -/
theorem actor_word (x5 : (⟨S4096x4, .i32⟩ : BufTy).Contents (Elt Ideal)) (hactor : ∀ i, (x5 i : BitVec 32).toNat < 7)
    (i : S4096x4.Idx) : val_main_v9 (F := Ideal) x5 i = x5 i := by
  rw [val_main_v9_apply, val_main_v6_apply, val_main_v8_apply, val_main_v5_apply, val_main_c_apply]
  exact wrap_of_small _ _ (by have := hactor i; omega)

/-- The wrapped relation word is the relation word. -/
theorem rel_word (x6 : (⟨S4096x4, .i32⟩ : BufTy).Contents (Elt Ideal)) (haction : ∀ i, (x6 i : BitVec 32).toNat < 9)
    (i : S4096x4x1x1.Idx) : val_main_call1_v4 (F := Ideal) x6 i = x6 (idx_main_v13 i) := by
  rw [val_main_call1_v4_apply, val_main_call1_v1_apply, val_main_call1_v3_apply, val_main_v13_apply,
    val_main_call1_v0_apply, val_main_call1_c_apply]
  exact wrap_of_small _ _ (by have := haction (idx_main_v13 i); omega)

/-- A fold of the one-bit conjunction from 1 over a family that is 1 everywhere is 1. -/
theorem foldl_andi_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a, show IntOp.andi 1#1 1#1 = 1#1 by decide]; exact ih

/-- The bounds flag of the look-up is set everywhere. -/
theorem inb_flag (x6 : (⟨S4096x4, .i32⟩ : BufTy).Contents (Elt Ideal)) (haction : ∀ i, (x6 i : BitVec 32).toNat < 9)
    (i : S4096x4x1.Idx) : val_main_call1_v11 (F := Ideal) x6 i = 1#1 := by
  have hx : ∀ i, val_main_call1_v10 (F := Ideal) x6 i = 1#1 := by
    intro i
    rw [val_main_call1_v10_apply, val_main_call1_v6_apply, val_main_call1_v9_apply, rel_word x6 haction,
      val_main_call1_v5_apply, val_main_call1_c_2_apply, val_main_call1_v8_apply, val_main_call1_v7_apply,
      val_main_call1_c_1_apply]
    exact inb_of_lt9 _ (haction _)
  unfold val_main_call1_v11
  rw [Host.reduce_eq_foldl, val_main_call1_c_3_apply]
  exact foldl_andi_one _ hx _

/-! ## The stages of the positive branch at explicit coordinates -/

section Stages

variable (x3 : (⟨S7x512, .f32⟩ : BufTy).Contents (Elt Ideal)) (x4 : (⟨S9x512x512, .f32⟩ : BufTy).Contents (Elt Ideal))
  (x5 x6 : (⟨S4096x4, .i32⟩ : BufTy).Contents (Elt Ideal)) (x7 : (⟨S4096, .i32⟩ : BufTy).Contents (Elt Ideal))

/-- The gathered embedding: pair (b, k)'s actor's row. -/
theorem emb_at (hactor : ∀ i, (x5 i : BitVec 32).toNat < 7) (b : Fin 4096) (k : Fin 4) (j : Fin 512) :
    val_main_v11 (F := Ideal) x3 x5 (ix3 b k j) = x3 (ix2 (Spec.fin7 (x5 (ix2 b k))) j) := by
  unfold val_main_v11
  rw [gather_emb]
  refine congrArg x3 (funext fun a => Fin.ext ?_)
  match a with
  | ⟨0, _⟩ =>
    show min (val_main_v10 (F := Ideal) x5 (ix3 b k 0)).toInt.toNat 6 = (x5 (ix2 b k)).toNat % 7
    have hi : idx_main_v10 (ix3 b k (0 : Fin 1)) = ix2 b k :=
      funext fun a => Fin.ext (by match a with | ⟨0, _⟩ => rfl | ⟨1, _⟩ => rfl)
    have hlt := hactor (ix2 b k)
    rw [val_main_v10_apply, actor_word x5 hactor, hi, toInt_toNat_of_small _ (by omega)]
    omega
  | ⟨1, _⟩ => rfl

/-- Its product with every relation's operator. -/
theorem dot_at (hactor : ∀ i, (x5 i : BitVec 32).toNat < 7) (b : Fin 4096) (k : Fin 4) (r : Fin 9) (d : Fin 512) :
    val_main_v12 (F := Ideal) x3 x4 x5 (ix4 b k r d)
      = ∑ j : Fin 512, x3 (ix2 (Spec.fin7 (x5 (ix2 b k))) j) * x4 (ix3 r d j) := by
  rw [val_main_v12_apply]
  refine Finset.sum_congr rfl fun j _ => ?_
  have hl : lidx_main_v12 (ix4 b k r d) j = ix3 b k j :=
    funext fun a => Fin.ext (by match a with | ⟨0, _⟩ => rfl | ⟨1, _⟩ => rfl | ⟨2, _⟩ => rfl)
  have hr : ridx_main_v12 (ix4 b k r d) j = ix3 r d j :=
    funext fun a => Fin.ext (by match a with | ⟨0, _⟩ => rfl | ⟨1, _⟩ => rfl | ⟨2, _⟩ => rfl)
  rw [hl, hr, emb_at x3 x5 hactor]

/-- The look-up picks the pair's relation along the relation axis. -/
theorem look_at (haction : ∀ i, (x6 i : BitVec 32).toNat < 9) (b : Fin 4096) (k : Fin 4) (z : Fin 1) (d : Fin 512) :
    val_main_call1_v12 (F := Ideal) x3 x4 x5 x6 (ix4 b k z d)
      = val_main_v12 (F := Ideal) x3 x4 x5 (ix4 b k (Spec.fin9 (x6 (ix2 b k))) d) := by
  unfold val_main_call1_v12
  generalize val_main_v12 (F := Ideal) x3 x4 x5 = y
  rw [gather_rel]
  refine congrArg y (funext fun a => Fin.ext ?_)
  match a with
  | ⟨0, _⟩ => rfl
  | ⟨1, _⟩ => rfl
  | ⟨2, _⟩ =>
    show min (val_main_call1_v4 (F := Ideal) x6 (ix4 b k z 0)).toInt.toNat 8 = (x6 (ix2 b k)).toNat % 9
    have hi : idx_main_v13 (ix4 b k z (0 : Fin 1)) = ix2 b k :=
      funext fun a => Fin.ext (by match a with | ⟨0, _⟩ => rfl | ⟨1, _⟩ => rfl)
    have hlt := haction (ix2 b k)
    rw [rel_word x6 haction, hi, toInt_toNat_of_small _ (by omega)]
    omega
  | ⟨3, _⟩ => rfl

/-- The select on the bounds flag keeps the looked-up value. -/
theorem sel_at (haction : ∀ i, (x6 i : BitVec 32).toNat < 9) (b : Fin 4096) (k : Fin 4) (z : Fin 1) (d : Fin 512) :
    val_main_v14 (F := Ideal) x3 x4 x5 x6 (ix4 b k z d)
      = val_main_v12 (F := Ideal) x3 x4 x5 (ix4 b k (Spec.fin9 (x6 (ix2 b k))) d) := by
  rw [val_main_v14_apply, val_main_call1_v13_apply, inb_flag x6 haction, select_one, look_at x3 x4 x5 x6 haction]

/-- The rectified entry of pair (b, k): the table's entry at the pair's relation and actor. -/
theorem comp_at (hactor : ∀ i, (x5 i : BitVec 32).toNat < 7) (haction : ∀ i, (x6 i : BitVec 32).toNat < 9)
    (b : Fin 4096) (k : Fin 4) (d : Fin 512) :
    val_main_v16 (F := Ideal) x3 x4 x5 x6 (ix3 b k d)
      = Spec.tab (fun a j => x3 (ix2 a j)) (fun r i j => x4 (ix3 r i j)) (Spec.fin9 (x6 (ix2 b k))) (Spec.fin7 (x5 (ix2 b k))) d := by
  have hi : idx_main_v15 (ix3 b k d) = ix4 b k (0 : Fin 1) d := by
    have hb := b.isLt; have hk := k.isLt; have hd := d.isLt
    refine funext fun a => Fin.ext ?_
    match a with
    | ⟨0, _⟩ => show ((b.val * 4 + k.val) * 512 + d.val) / 2048 = b.val; omega
    | ⟨1, _⟩ => show ((b.val * 4 + k.val) * 512 + d.val) / 512 % 4 = k.val; omega
    | ⟨2, _⟩ => rfl
    | ⟨3, _⟩ => show ((b.val * 4 + k.val) * 512 + d.val) % 512 = d.val; omega
  rw [val_main_v16_apply, val_main_v15_apply, hi, sel_at x3 x4 x5 x6 haction, dot_at x3 x4 x5 hactor,
    val_main_call2_v0_apply, val_main_call2_cst_apply, Ideal.maximumf_def, Ideal.ofBits_def, Ideal.ofBits_zero_f32]
  rfl

/-- The mask of pair k in row b, as the extended real 0 or 1. -/
theorem mask_at (b : Fin 4096) (k : Fin 4) (d : Fin 512) :
    val_main_v25 (F := Ideal) x7 (ix3 b k d) = Spec.valid k (x7 (ix1 b)) := by
  rw [val_main_v25_apply, val_main_v24_apply, val_main_v23_apply, val_main_v22_apply, val_main_v20_apply,
    val_main_v18_apply, val_main_v17_apply, val_main_v21_apply, val_main_v19_apply]
  have hi : idx_main_v19 (idx_main_v21 (idx_main_v24 (idx_main_v25 (ix3 b k d)))) = ix1 b :=
    funext fun a => Fin.ext (by match a with | ⟨0, _⟩ => rfl)
  rw [hi]
  show (((IntOp.cmpi .slt (BitVec.ofNat 32 k.val) (x7 (ix1 b))).toNat : ℝ) : EReal) = Spec.valid k (x7 (ix1 b))
  unfold Spec.valid Spec.ind IntOp.cmpi
  cases h : BitVec.slt (BitVec.ofNat 32 k.val) (x7 (ix1 b))
  · simp
  · simp

end Stages

/-- The positive vector at (b, d). -/
theorem ref_pos (x3 : (⟨S7x512, .f32⟩ : BufTy).Contents (Elt Ideal)) (x4 : (⟨S9x512x512, .f32⟩ : BufTy).Contents (Elt Ideal))
    (x5 x6 : (⟨S4096x4, .i32⟩ : BufTy).Contents (Elt Ideal)) (x7 : (⟨S4096, .i32⟩ : BufTy).Contents (Elt Ideal))
    (hactor : ∀ i, (x5 i : BitVec 32).toNat < 7) (haction : ∀ i, (x6 i : BitVec 32).toNat < 9) (b : Fin 4096) (d : Fin 512) :
    val_main_v31 (F := Ideal) x3 x4 x5 x6 x7 (ix2 b d)
      = Spec.posR (fun a j => x3 (ix2 a j)) (fun r i j => x4 (ix3 r i j)) (fun k => x5 (ix2 b k)) (fun k => x6 (ix2 b k)) (x7 (ix1 b)) d := by
  have hn : idx_main_v28 (idx_main_v30 (ix2 b d)) = ix1 b :=
    funext fun a => Fin.ext (by match a with | ⟨0, _⟩ => rfl)
  rw [val_main_v31_apply, val_main_v27_apply, val_main_v30_apply, val_main_v29_apply, val_main_v28_apply, hn,
    val_main_cst_apply, Ideal.hostDivf_def, Ideal.ofBits_def, Ideal.ofBits_zero_f32, zero_add]
  unfold Spec.posR
  refine congrArg₂ Ideal.div (Finset.sum_congr rfl fun k _ => ?_) rfl
  have hk : idx_main_v27 (ix2 b d) k = ix3 b k d :=
    funext fun a => Fin.ext (by match a with | ⟨0, _⟩ => rfl | ⟨1, _⟩ => rfl | ⟨2, _⟩ => rfl)
  rw [hk, val_main_v26_apply, Ideal.mulf_def, comp_at x3 x4 x5 x6 hactor haction, mask_at x7]

end Cert.ReferenceIdeal.Hand

end
-- ==== Proof.RefNeg.lean ====
/- The reference program's negative vector read on the extended reals: with the negative actor and relation words in
   range of their axes, entry (b, d) is the table entry of row b's negative pair (the gather of the actor's embedding,
   its product with every relation's operator, the look-up of the relation along that axis, the rectification). -/
import proofs.«423928_j62526133895556_3_alg».proof.Proof.RefRead
import proofs.«423928_j62526133895556_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen Cert.ReferenceIdeal.ReadP
open Idealize.ShloMosaic Idealize.ShloMosaic.TcCoe ValueIdx

/-! The steps, one lemma each; the statement this file is for comes last. -/
namespace Neg

/-- A word below 2^31 reads the same signed and unsigned. -/
theorem toInt_of_small (x : BitVec 32) (h : x.toNat < 2 ^ 31) : x.toInt = (x.toNat : Int) :=
  BitVec.toInt_eq_toNat_of_lt (by omega)

/-- The wrap of a negative index (compare with 0, add the extent, select) leaves a word below 2^31 as it is. -/
theorem wrap_id (x c : BitVec 32) (h : x.toNat < 2 ^ 31) :
    Scalar.select (IntOp.cmpi .slt x 0#32) (IntOp.addi x c) x = x := by
  have hn : ¬ (IntOp.cmpi .slt x 0#32 = 1#1) := by
    rw [IntOp.cmpi_slt, toInt_of_small x h]
    show ¬ ((x.toNat : Int) < 0)
    omega
  exact if_neg hn

/-- The in-bounds flag of a word between 0 and 8. -/
theorem inb9 (x : BitVec 32) (h : x.toNat < 9) :
    IntOp.andi (IntOp.cmpi .sge x 0#32) (IntOp.cmpi .sle x 8#32) = 1#1 := by
  rw [IntOp.andi_eq_one, IntOp.cmpi_sge, IntOp.cmpi_sle, toInt_of_small x (by omega)]
  refine ⟨?_, ?_⟩
  · show (0 : Int) ≤ (x.toNat : Int); omega
  · show (x.toNat : Int) ≤ 8; omega

/-- A left fold by conjunction from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- The dimension numbers of the row look-up obj[idx]. -/
abbrev G1 := gather_S7x512_S4096x1_S4096x512_1_0_n_n_0_1_1512

/-- The row look-up read at (b, k): with the start word of row b below 7, the operand at (that word, k). -/
theorem gather_row {α : Type} (x : S7x512.Idx → α) (idx : IVec S4096x1 32) (b : Fin 4096) (k : Fin 512)
    (h : (idx (ix2 b (0 : Fin 1))).toNat < 7) :
    Host.gather G1 x idx (ix2 b k) = x (ix2 (⟨(idx (ix2 b (0 : Fin 1))).toNat, h⟩ : Fin 7) k) := by
  unfold Host.gather
  congr 1
  funext a
  refine Fin.ext ?_
  match a with
  | ⟨0, _⟩ =>
    show G1.start (ix2 b k) idx 0 + G1.batchCoord (ix2 b k) 0 + G1.offCoord (ix2 b k) 0 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 2) ∈ G1.startIndexMap from List.mem_singleton.mpr rfl)]
    have hsi : G1.siIdx (ix2 b k) ⟨List.idxOf (0 : Fin 2) G1.startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi, toInt_of_small _ (by omega)]
    show min (idx (ix2 b (0 : Fin 1))).toNat (7 - 1) = (idx (ix2 b (0 : Fin 1))).toNat
    omega
  | ⟨1, _⟩ =>
    show G1.start (ix2 b k) idx 1 + G1.batchCoord (ix2 b k) 1 + G1.offCoord (ix2 b k) 1 = k.val
    rw [GatherDims.batchCoord_eq_zero _ _ _ List.not_mem_nil]
    unfold GatherDims.start
    rw [dif_neg (show ¬ (1 : Fin 2) ∈ G1.startIndexMap by decide)]
    simp only [Nat.add_zero, Nat.zero_add]
    unfold GatherDims.offCoord
    rw [dif_pos (show (1 : Fin 2) ∈ G1.sKept by decide)]
    rfl

/-- The dimension numbers of the look-up of one relation along axis 1, row by row. -/
abbrev G3 := gather_S4096x9x512_S4096x1x1_S4096x1x512_2_1_0_0_1_2_11512

/-- The look-up along axis 1 read at (b, 0, d): with the start word of row b below 9, the operand at (b, that word, d). -/
theorem gather_rel {α : Type} (x : S4096x9x512.Idx → α) (idx : IVec S4096x1x1 32) (b : Fin 4096) (d : Fin 512)
    (h : (idx (ix3 b (0 : Fin 1) (0 : Fin 1))).toNat < 9) :
    Host.gather G3 x idx (ix3 b (0 : Fin 1) d)
      = x (ix3 b (⟨(idx (ix3 b (0 : Fin 1) (0 : Fin 1))).toNat, h⟩ : Fin 9) d) := by
  unfold Host.gather
  congr 1
  funext a
  refine Fin.ext ?_
  match a with
  | ⟨0, _⟩ =>
    show G3.start (ix3 b (0 : Fin 1) d) idx 0 + G3.batchCoord (ix3 b (0 : Fin 1) d) 0 + G3.offCoord (ix3 b (0 : Fin 1) d) 0 = b.val
    rw [GatherDims.start_batching _ _ _ _ (show (0 : Fin 3) ∈ G3.operandBatchingDims from List.mem_singleton.mpr rfl),
      GatherDims.offCoord_eq_zero _ _ _ (fun hh => ((GatherDims.mem_sKept _ _).mp hh).2 (List.mem_singleton.mpr rfl))]
    simp only [Nat.add_zero, Nat.zero_add]
    unfold GatherDims.batchCoord
    rw [dif_pos (show (0 : Fin 3) ∈ G3.operandBatchingDims from List.mem_singleton.mpr rfl)]
    rfl
  | ⟨1, _⟩ =>
    show G3.start (ix3 b (0 : Fin 1) d) idx 1 + G3.batchCoord (ix3 b (0 : Fin 1) d) 1 + G3.offCoord (ix3 b (0 : Fin 1) d) 1 = _
    rw [GatherDims.batchCoord_eq_zero _ _ _ (show ¬ (1 : Fin 3) ∈ G3.operandBatchingDims by decide),
      GatherDims.offCoord_eq_zero _ _ _ (fun hh => ((GatherDims.mem_sKept _ _).mp hh).1 (List.mem_singleton.mpr rfl))]
    simp only [Nat.add_zero]
    unfold GatherDims.start
    rw [dif_pos (show (1 : Fin 3) ∈ G3.startIndexMap from List.mem_singleton.mpr rfl)]
    have hsi : G3.siIdx (ix3 b (0 : Fin 1) d) ⟨List.idxOf (1 : Fin 3) G3.startIndexMap,
        List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi, toInt_of_small _ (by omega)]
    show min (idx (ix3 b (0 : Fin 1) (0 : Fin 1))).toNat (9 - 1) = (idx (ix3 b (0 : Fin 1) (0 : Fin 1))).toNat
    omega
  | ⟨2, _⟩ =>
    show G3.start (ix3 b (0 : Fin 1) d) idx 2 + G3.batchCoord (ix3 b (0 : Fin 1) d) 2 + G3.offCoord (ix3 b (0 : Fin 1) d) 2 = d.val
    rw [GatherDims.batchCoord_eq_zero _ _ _ (show ¬ (2 : Fin 3) ∈ G3.operandBatchingDims by decide)]
    unfold GatherDims.start
    rw [dif_neg (show ¬ (2 : Fin 3) ∈ G3.startIndexMap by decide)]
    simp only [Nat.add_zero, Nat.zero_add]
    unfold GatherDims.offCoord
    rw [dif_pos (show (2 : Fin 3) ∈ G3.sKept by decide)]
    rfl

section Stages

variable (x3 : (⟨S7x512, .f32⟩ : BufTy).Contents (Elt Ideal)) (x4 : (⟨S9x512x512, .f32⟩ : BufTy).Contents (Elt Ideal))
  (x8 x9 : (⟨S4096, .i32⟩ : BufTy).Contents (Elt Ideal))

/-- The wrapped actor word is the actor word. -/
theorem v36_eq (hnactor : ∀ i, (x8 i : BitVec 32).toNat < 7) (i : S4096.Idx) :
    val_main_v36 (F := Ideal) x8 i = x8 i := by
  rw [val_main_v36_apply, val_main_v33_apply, val_main_v35_apply, val_main_v32_apply, val_main_c_1_apply]
  exact wrap_id _ _ (by have := hnactor i; omega)

/-- The start word of row b of the row look-up. -/
theorem v37_at (hnactor : ∀ i, (x8 i : BitVec 32).toNat < 7) (b : Fin 4096) :
    val_main_v37 (F := Ideal) x8 (ix2 b (0 : Fin 1)) = x8 (ix1 b) := by
  rw [val_main_v37_apply, v36_eq x8 hnactor]
  congr 1
  funext a
  match a with
  | ⟨0, _⟩ => rfl

/-- The looked-up embedding row at (b, k). -/
theorem v38_at (hnactor : ∀ i, (x8 i : BitVec 32).toNat < 7) (b : Fin 4096) (k : Fin 512) :
    val_main_v38 (F := Ideal) x3 x8 (ix2 b k) = x3 (ix2 (Spec.fin7 (x8 (ix1 b))) k) := by
  have hb : (val_main_v37 (F := Ideal) x8 (ix2 b (0 : Fin 1))).toNat < 7 := by
    rw [v37_at x8 hnactor]; exact hnactor _
  unfold val_main_v38
  rw [gather_row x3 _ b k hb]
  congr 2
  refine Fin.ext ?_
  show (val_main_v37 (F := Ideal) x8 (ix2 b (0 : Fin 1))).toNat = (x8 (ix1 b) : BitVec 32).toNat % 7
  rw [v37_at x8 hnactor, Nat.mod_eq_of_lt (hnactor _)]

/-- The product with every relation's operator at (b, r, d). -/
theorem v39_at (hnactor : ∀ i, (x8 i : BitVec 32).toNat < 7) (b : Fin 4096) (r : Fin 9) (d : Fin 512) :
    val_main_v39 (F := Ideal) x3 x4 x8 (ix3 b r d)
      = ∑ k : Fin 512, x3 (ix2 (Spec.fin7 (x8 (ix1 b))) k) * x4 (ix3 r d k) := by
  rw [val_main_v39_apply]
  refine Finset.sum_congr rfl fun k _ => ?_
  have el : lidx_main_v39 (ix3 b r d) k = ix2 b k := funext fun a => Fin.ext (by
    match a with
    | ⟨0, _⟩ => rfl
    | ⟨1, _⟩ => rfl)
  have er : ridx_main_v39 (ix3 b r d) k = ix3 r d k := funext fun a => Fin.ext (by
    match a with
    | ⟨0, _⟩ => rfl
    | ⟨1, _⟩ => rfl
    | ⟨2, _⟩ => rfl)
  rw [el, er, v38_at x3 x8 hnactor]

/-- The wrapped relation word is the relation word of its row. -/
theorem c3v4_eq (hnaction : ∀ i, (x9 i : BitVec 32).toNat < 9) (i : S4096x1x1.Idx) :
    val_main_call3_v4 (F := Ideal) x9 i = x9 (idx_main_v40 i) := by
  rw [val_main_call3_v4_apply, val_main_call3_v1_apply, val_main_call3_v3_apply, val_main_v40_apply,
    val_main_call3_v0_apply, val_main_call3_c_apply]
  exact wrap_id _ _ (by have := hnaction (idx_main_v40 i); omega)

/-- The in-bounds flag is 1 everywhere. -/
theorem c3v10_eq (hnaction : ∀ i, (x9 i : BitVec 32).toNat < 9) (i : S4096x1x1.Idx) :
    val_main_call3_v10 (F := Ideal) x9 i = 1#1 := by
  rw [val_main_call3_v10_apply, val_main_call3_v6_apply, val_main_call3_v9_apply, c3v4_eq x9 hnaction,
    val_main_call3_v5_apply, val_main_call3_c_2_apply, val_main_call3_v8_apply, val_main_call3_v7_apply,
    val_main_call3_c_1_apply]
  exact inb9 _ (hnaction _)

/-- Its conjunction over the unit axis is 1 everywhere. -/
theorem c3v11_eq (hnaction : ∀ i, (x9 i : BitVec 32).toNat < 9) (j : S4096x1.Idx) :
    val_main_call3_v11 (F := Ideal) x9 j = 1#1 := by
  unfold val_main_call3_v11 Host.reduce
  exact foldl_andi_one (fun n => val_main_call3_v10 (F := Ideal) x9 (S4096x1x1.rowMajor.symm n))
    (fun n => c3v10_eq x9 hnaction _) _

end Stages

section Final

variable (x3 : (⟨S7x512, .f32⟩ : BufTy).Contents (Elt Ideal)) (x4 : (⟨S9x512x512, .f32⟩ : BufTy).Contents (Elt Ideal))
  (x8 x9 : (⟨S4096, .i32⟩ : BufTy).Contents (Elt Ideal))

/-- The looked-up relation's product at (b, 0, d): the flag is 1, so the select takes the gathered element. -/
theorem v41_at (hnactor : ∀ i, (x8 i : BitVec 32).toNat < 7) (hnaction : ∀ i, (x9 i : BitVec 32).toNat < 9)
    (b : Fin 4096) (d : Fin 512) :
    val_main_v41 (F := Ideal) x3 x4 x8 x9 (ix3 b (0 : Fin 1) d)
      = ∑ k : Fin 512, x3 (ix2 (Spec.fin7 (x8 (ix1 b))) k) * x4 (ix3 (Spec.fin9 (x9 (ix1 b))) d k) := by
  have hi : idx_main_v40 (ix3 b (0 : Fin 1) (0 : Fin 1)) = ix1 b := funext fun a => by
    match a with
    | ⟨0, _⟩ => rfl
  have hw : val_main_call3_v4 (F := Ideal) x9 (ix3 b (0 : Fin 1) (0 : Fin 1)) = x9 (ix1 b) := by
    rw [c3v4_eq x9 hnaction, hi]
  have hb : (val_main_call3_v4 (F := Ideal) x9 (ix3 b (0 : Fin 1) (0 : Fin 1))).toNat < 9 := by
    rw [hw]; exact hnaction _
  have hr : (⟨(val_main_call3_v4 (F := Ideal) x9 (ix3 b (0 : Fin 1) (0 : Fin 1))).toNat, hb⟩ : Fin 9)
      = Spec.fin9 (x9 (ix1 b)) := by
    refine Fin.ext ?_
    show (val_main_call3_v4 (F := Ideal) x9 (ix3 b (0 : Fin 1) (0 : Fin 1))).toNat = (x9 (ix1 b) : BitVec 32).toNat % 9
    rw [hw, Nat.mod_eq_of_lt (hnaction _)]
  rw [val_main_v41_apply, val_main_call3_v13_apply, c3v11_eq x9 hnaction, select_one]
  unfold val_main_call3_v12
  rw [gather_rel _ _ b d hb, hr, v39_at x3 x4 x8 hnactor]

/-- The reshape drops the unit axis. -/
theorem v42_at (b : Fin 4096) (d : Fin 512) :
    val_main_v42 (F := Ideal) x3 x4 x8 x9 (ix2 b d) = val_main_v41 (F := Ideal) x3 x4 x8 x9 (ix3 b (0 : Fin 1) d) := by
  rw [val_main_v42_apply]
  congr 1
  funext a
  refine Fin.ext ?_
  have hb := b.isLt
  have hd := d.isLt
  match a with
  | ⟨0, _⟩ => show (b.val * 512 + d.val) / 512 = b.val; omega
  | ⟨1, _⟩ => rfl
  | ⟨2, _⟩ => show (b.val * 512 + d.val) % 512 = d.val; omega

end Final

end Neg

/-- The negative vector at (b, d). -/
theorem ref_neg (x3 : (⟨S7x512, .f32⟩ : BufTy).Contents (Elt Ideal)) (x4 : (⟨S9x512x512, .f32⟩ : BufTy).Contents (Elt Ideal))
    (x8 x9 : (⟨S4096, .i32⟩ : BufTy).Contents (Elt Ideal))
    (hnactor : ∀ i, (x8 i : BitVec 32).toNat < 7) (hnaction : ∀ i, (x9 i : BitVec 32).toNat < 9) (b : Fin 4096) (d : Fin 512) :
    val_main_v43 (F := Ideal) x3 x4 x8 x9 (ix2 b d)
      = Spec.negR (fun a j => x3 (ix2 a j)) (fun r i j => x4 (ix3 r i j)) (x8 (ix1 b)) (x9 (ix1 b)) d := by
  rw [val_main_v43_apply, Neg.v42_at, Neg.v41_at x3 x4 x8 x9 hnactor hnaction, val_main_call4_v0_apply, val_main_call4_cst_apply,
    Ideal.maximumf_def, Ideal.ofBits_def, Ideal.ofBits_zero_f32]
  rfl

end Cert.ReferenceIdeal.Hand

end
-- ==== Proof.RefValue.lean ====
/- The reference program's per-row hinge vector read on the extended reals: where every actor and relation word is
   in range of its axis, row b of the vector the program averages is the triplet hinge of the row's feature, of the
   masked mean of its four pairs' table entries, and of its negative pair's table entry. -/
import proofs.«423928_j62526133895556_3_alg».proof.Proof.RefRead
import proofs.«423928_j62526133895556_3_alg».proof.Proof.Spec
import proofs.«423928_j62526133895556_3_alg».proof.Proof.RefPos
import proofs.«423928_j62526133895556_3_alg».proof.Proof.RefNeg
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen Cert.ReferenceIdeal.ReadP
open Idealize.ShloMosaic Idealize.ShloMosaic.TcCoe ValueIdx

/-- The feature stage at (b, d): the rectified affine image of row b. -/
theorem feat_at (x0 : (⟨S4096x2048, .f32⟩ : BufTy).Contents (Elt Ideal)) (x1 : (⟨S2048x512, .f32⟩ : BufTy).Contents (Elt Ideal))
    (x2 : (⟨S512, .f32⟩ : BufTy).Contents (Elt Ideal)) (b : Fin 4096) (d : Fin 512) :
    val_main_v4 (F := Ideal) x0 x1 x2 (ix2 b d) = Spec.featRow x0 x1 x2 b d := by
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32]
  unfold Spec.featRow Spec.feat
  have el : ∀ k : Fin 2048, lidx_main_v0 (ix2 b d) k = ix2 b k := fun k =>
    funext fun a => Fin.ext (by match a with | ⟨0, _⟩ => rfl | ⟨1, _⟩ => rfl)
  have er : ∀ k : Fin 2048, ridx_main_v0 (ix2 b d) k = ix2 k d := fun k =>
    funext fun a => Fin.ext (by match a with | ⟨0, _⟩ => rfl | ⟨1, _⟩ => rfl)
  have eb : idx_main_v1 (idx_main_v2 (ix2 b d)) = ix1 d :=
    funext fun a => Fin.ext (by match a with | ⟨0, _⟩ => rfl)
  simp only [el, er, eb]

/-- The squared distance to the positive vector, summed along a row. -/
theorem dpos_at (x0 : (⟨S4096x2048, .f32⟩ : BufTy).Contents (Elt Ideal)) (x1 : (⟨S2048x512, .f32⟩ : BufTy).Contents (Elt Ideal))
    (x2 : (⟨S512, .f32⟩ : BufTy).Contents (Elt Ideal)) (x3 : (⟨S7x512, .f32⟩ : BufTy).Contents (Elt Ideal))
    (x4 : (⟨S9x512x512, .f32⟩ : BufTy).Contents (Elt Ideal)) (x5 x6 : (⟨S4096x4, .i32⟩ : BufTy).Contents (Elt Ideal))
    (x7 : (⟨S4096, .i32⟩ : BufTy).Contents (Elt Ideal))
    (hactor : ∀ i, (x5 i : BitVec 32).toNat < 7) (haction : ∀ i, (x6 i : BitVec 32).toNat < 9) (b : Fin 4096) :
    val_main_v49 (F := Ideal) x0 x1 x2 x3 x4 x5 x6 x7 (ix1 b)
      = Ideal.sqrt (∑ d : Fin 512,
          (Spec.featRow x0 x1 x2 b d
            - Spec.posR (fun a j => x3 (ix2 a j)) (fun r i j => x4 (ix3 r i j)) (fun k => x5 (ix2 b k)) (fun k => x6 (ix2 b k)) (x7 (ix1 b)) d
            + Spec.eps)
          * (Spec.featRow x0 x1 x2 b d
            - Spec.posR (fun a j => x3 (ix2 a j)) (fun r i j => x4 (ix3 r i j)) (fun k => x5 (ix2 b k)) (fun k => x6 (ix2 b k)) (x7 (ix1 b)) d
            + Spec.eps)) := by
  rw [val_main_v49_apply, val_main_v48_apply, val_main_cst_4_apply]
  have ei : ∀ k : Fin 512, idx_main_v48 (ix1 b) k = ix2 b k := fun k =>
    funext fun a => Fin.ext (by match a with | ⟨0, _⟩ => rfl | ⟨1, _⟩ => rfl)
  simp only [ei, val_main_v47_apply, val_main_v46_apply, val_main_v44_apply, val_main_v45_apply, val_main_cst_3_apply,
    feat_at, ref_pos x3 x4 x5 x6 x7 hactor haction,
    Ideal.hostUnary_sqrt_def, Ideal.addf_def, Ideal.subf_def, Ideal.mulf_def, Ideal.ofBits_def, Ideal.ofBits_zero_f32, zero_add]
  rfl

/-- The squared distance to the negative vector, summed along a row. -/
theorem dneg_at (x0 : (⟨S4096x2048, .f32⟩ : BufTy).Contents (Elt Ideal)) (x1 : (⟨S2048x512, .f32⟩ : BufTy).Contents (Elt Ideal))
    (x2 : (⟨S512, .f32⟩ : BufTy).Contents (Elt Ideal)) (x3 : (⟨S7x512, .f32⟩ : BufTy).Contents (Elt Ideal))
    (x4 : (⟨S9x512x512, .f32⟩ : BufTy).Contents (Elt Ideal))
    (x8 x9 : (⟨S4096, .i32⟩ : BufTy).Contents (Elt Ideal))
    (hnactor : ∀ i, (x8 i : BitVec 32).toNat < 7) (hnaction : ∀ i, (x9 i : BitVec 32).toNat < 9) (b : Fin 4096) :
    val_main_v55 (F := Ideal) x0 x1 x2 x3 x4 x8 x9 (ix1 b)
      = Ideal.sqrt (∑ d : Fin 512,
          (Spec.featRow x0 x1 x2 b d
            - Spec.negR (fun a j => x3 (ix2 a j)) (fun r i j => x4 (ix3 r i j)) (x8 (ix1 b)) (x9 (ix1 b)) d
            + Spec.eps)
          * (Spec.featRow x0 x1 x2 b d
            - Spec.negR (fun a j => x3 (ix2 a j)) (fun r i j => x4 (ix3 r i j)) (x8 (ix1 b)) (x9 (ix1 b)) d
            + Spec.eps)) := by
  rw [val_main_v55_apply, val_main_v54_apply, val_main_cst_6_apply]
  have ei : ∀ k : Fin 512, idx_main_v54 (ix1 b) k = ix2 b k := fun k =>
    funext fun a => Fin.ext (by match a with | ⟨0, _⟩ => rfl | ⟨1, _⟩ => rfl)
  simp only [ei, val_main_v53_apply, val_main_v52_apply, val_main_v50_apply, val_main_v51_apply, val_main_cst_5_apply,
    feat_at, ref_neg x3 x4 x8 x9 hnactor hnaction,
    Ideal.hostUnary_sqrt_def, Ideal.addf_def, Ideal.subf_def, Ideal.mulf_def, Ideal.ofBits_def, Ideal.ofBits_zero_f32, zero_add]
  rfl

/-- The hinge vector (the value the program's closing mean is taken of), row by row, on in-range index words. -/
theorem ref_hinge (x0 : (⟨S4096x2048, .f32⟩ : BufTy).Contents (Elt Ideal)) (x1 : (⟨S2048x512, .f32⟩ : BufTy).Contents (Elt Ideal))
    (x2 : (⟨S512, .f32⟩ : BufTy).Contents (Elt Ideal)) (x3 : (⟨S7x512, .f32⟩ : BufTy).Contents (Elt Ideal))
    (x4 : (⟨S9x512x512, .f32⟩ : BufTy).Contents (Elt Ideal)) (x5 x6 : (⟨S4096x4, .i32⟩ : BufTy).Contents (Elt Ideal))
    (x7 x8 x9 : (⟨S4096, .i32⟩ : BufTy).Contents (Elt Ideal))
    (hactor : ∀ i, (x5 i : BitVec 32).toNat < 7) (haction : ∀ i, (x6 i : BitVec 32).toNat < 9)
    (hnactor : ∀ i, (x8 i : BitVec 32).toNat < 7) (hnaction : ∀ i, (x9 i : BitVec 32).toNat < 9) :
    val_main_v59 (F := Ideal) x0 x1 x2 x3 x4 x5 x6 x7 x8 x9
      = fun i => Spec.hingeRRow x0 x1 x2 x3 x4 x5 x6 x7 x8 x9 (i 0) := by
  funext i
  obtain ⟨b, rfl⟩ : ∃ b : Fin 4096, i = ix1 b := ⟨i 0, ValueIdx.eq_ix1 (n := 4096) i⟩
  show val_main_v59 (F := Ideal) x0 x1 x2 x3 x4 x5 x6 x7 x8 x9 (ix1 b) = Spec.hingeRRow x0 x1 x2 x3 x4 x5 x6 x7 x8 x9 b
  rw [val_main_v59_apply, val_main_v58_apply, val_main_v56_apply, val_main_v57_apply, val_main_cst_7_apply,
    val_main_call5_v0_apply, val_main_call5_cst_apply,
    dpos_at x0 x1 x2 x3 x4 x5 x6 x7 hactor haction, dneg_at x0 x1 x2 x3 x4 x8 x9 hnactor hnaction]
  simp only [Ideal.maximumf_def, Ideal.addf_def, Ideal.subf_def, Ideal.ofBits_def, Ideal.ofBits_zero_f32]
  rfl

end Cert.ReferenceIdeal.Hand

end
-- ==== Proof.Algebra.lean ====
/- The one law that joins the two programs: where every index word is in range of its axis, the count is not zero
   and the embedding and operator entries are finite, the weighted sum over the 63 table rows is the masked mean of
   the four looked-up rows, and the one-hot sum is the looked-up row. -/
import proofs.«423928_j62526133895556_3_alg».proof.Proof.Spec

noncomputable section

namespace Cert.Spec

open Idealize.ShloMosaic ValueIdx

/-! ## Words and table rows -/

/-- The table row of a relation word below 9 and an actor word below 7. -/
def comb (r a : BitVec 32) (hr : r.toNat < 9) (ha : a.toNat < 7) : Fin 63 := ⟨r.toNat * 7 + a.toNat, by omega⟩

/-- The combined word, computed in 32-bit arithmetic, does not wrap: it names a table row exactly when that row is
    the pair's own. -/
theorem word_eq_iff (r a : BitVec 32) (hr : r.toNat < 9) (ha : a.toNat < 7) (c : Fin 63) :
    (r * 7#32 + a = BitVec.ofNat 32 c.val) ↔ comb r a hr ha = c := by
  have hc := c.isLt
  constructor
  · intro h
    have h' := congrArg BitVec.toNat h
    simp only [BitVec.toNat_add, BitVec.toNat_mul, BitVec.toNat_ofNat] at h'
    apply Fin.ext
    simp only [comb]
    omega
  · intro h
    subst h
    apply BitVec.eq_of_toNat_eq
    simp only [comb, BitVec.toNat_add, BitVec.toNat_mul, BitVec.toNat_ofNat]
    omega

theorem rel_comb (r a : BitVec 32) (hr : r.toNat < 9) (ha : a.toNat < 7) : rel (comb r a hr ha) = fin9 r := by
  apply Fin.ext
  simp only [rel, comb, fin9]
  omega

theorem act_comb (r a : BitVec 32) (hr : r.toNat < 9) (ha : a.toNat < 7) : act (comb r a hr ha) = fin7 a := by
  apply Fin.ext
  simp only [act, comb, fin7]
  omega

/-! ## The one-hot sum -/

theorem negK_eq (T : Fin 63 → Fin 512 → EReal) (na nr : BitVec 32) (hr : nr.toNat < 9) (ha : na.toNat < 7)
    (d : Fin 512) : negK T na nr d = T (comb nr na hr ha) d := by
  unfold negK
  rw [Finset.sum_eq_single (comb nr na hr ha)]
  · rw [ind, if_pos ((word_eq_iff nr na hr ha _).2 rfl), one_mul]
  · intro c _ hc
    rw [ind, if_neg (fun h => hc ((word_eq_iff nr na hr ha c).1 h).symm), zero_mul]
  · intro h
    exact absurd (Finset.mem_univ _) h

/-! ## Real values inside the extended reals -/

theorem coe_sum {ι : Type*} (s : Finset ι) (f : ι → ℝ) : ((∑ i ∈ s, f i : ℝ) : EReal) = ∑ i ∈ s, (f i : EReal) := by
  classical
  induction s using Finset.induction_on with
  | empty => simp
  | insert _ _ ha ih => rw [Finset.sum_insert ha, Finset.sum_insert ha, EReal.coe_add, ih]

theorem ind_coe (p : Prop) [Decidable p] : ind p = (((if p then 1 else 0 : ℝ)) : EReal) := by
  unfold ind
  split <;> simp

/-- A table of finite entries is a table of reals. -/
theorem tab_real (obj : Fin 7 → Fin 512 → EReal) (ops : Fin 9 → Fin 512 → Fin 512 → EReal)
    (hobj : ∀ a j, obj a j ≠ ⊤ ∧ obj a j ≠ ⊥) (hops : ∀ r i j, ops r i j ≠ ⊤ ∧ ops r i j ≠ ⊥) :
    ∃ t : Fin 9 → Fin 7 → Fin 512 → ℝ, ∀ r a d, tab obj ops r a d = (t r a d : EReal) := by
  refine ⟨fun r a d => max (∑ j, (obj a j).toReal * (ops r d j).toReal) 0, fun r a d => ?_⟩
  unfold tab
  have h : ∀ j, obj a j * ops r d j = (((obj a j).toReal * (ops r d j).toReal : ℝ) : EReal) := fun j => by
    rw [EReal.coe_mul, EReal.coe_toReal (hobj a j).1 (hobj a j).2, EReal.coe_toReal (hops r d j).1 (hops r d j).2]
  simp only [h]
  rw [← coe_sum, ← EReal.coe_zero]
  exact (EReal.coe_strictMono.monotone.map_max).symm

/-! ## The weighted sum -/

/-- In the reals: weighting each table row by the masked count of the pairs that name it, over the count, sums to
    the masked sum of the pairs' own rows over the count. -/
theorem real_core (t : Fin 63 → ℝ) (ck : Fin 4 → Fin 63) (w : Fin 4 → ℝ) (N : ℝ) :
    ∑ c : Fin 63, (∑ k : Fin 4, (if ck k = c then 1 else 0 : ℝ) * w k) * (1 / N) * t c
      = (∑ k : Fin 4, t (ck k) * w k) * (1 / N) := by
  simp only [Finset.sum_mul]
  rw [Finset.sum_comm]
  refine Finset.sum_congr rfl fun k _ => ?_
  rw [Finset.sum_eq_single (ck k)]
  · rw [if_pos rfl]; ring
  · intro c _ hc
    rw [if_neg (Ne.symm hc)]; ring
  · intro h
    exact absurd (Finset.mem_univ _) h

theorem posK_eq (t : Fin 63 → ℝ) (T : Fin 63 → EReal) (hT : ∀ c, T c = (t c : EReal))
    (actor action : Fin 4 → BitVec 32) (hr : ∀ k, (action k).toNat < 9) (ha : ∀ k, (actor k).toNat < 7)
    (n : BitVec 32) (hn : n ≠ 0#32) :
    ∑ c : Fin 63, Ideal.div (∑ k : Fin 4, ind (action k * 7#32 + actor k = BitVec.ofNat 32 c.val) * valid k n)
        ((n.toInt : ℝ) : EReal) * T c
      = Ideal.div (∑ k : Fin 4, T (comb (action k) (actor k) (hr k) (ha k)) * valid k n) ((n.toInt : ℝ) : EReal) := by
  have hN : ((n.toInt : ℝ)) ≠ 0 := by
    intro h
    apply hn
    have : n.toInt = 0 := by exact_mod_cast h
    exact BitVec.eq_of_toInt_eq (by rw [this, BitVec.toInt_zero])
  simp only [Ideal.div_coe hN, hT, valid, ind_coe, ← EReal.coe_mul, ← coe_sum]
  simp only [word_eq_iff _ _ (hr _) (ha _)]
  rw [real_core]

/-! ## The two arrangements of the hinge -/

variable (img : (⟨2, ![4096, 2048]⟩ : Shape).Idx → EReal) (W : (⟨2, ![2048, 512]⟩ : Shape).Idx → EReal)
  (bias : (⟨1, ![512]⟩ : Shape).Idx → EReal) (obj : (⟨2, ![7, 512]⟩ : Shape).Idx → EReal)
  (ops : (⟨3, ![9, 512, 512]⟩ : Shape).Idx → EReal)
  (actor action : (⟨2, ![4096, 4]⟩ : Shape).Idx → BitVec 32)
  (counts nactor naction : (⟨1, ![4096]⟩ : Shape).Idx → BitVec 32)

/-- Row by row the two arrangements of the hinge agree, on the domain the certificate's precondition states. -/
theorem hingeKRow_eq_hingeRRow
    (hobj : ∀ i, obj i ≠ ⊤ ∧ obj i ≠ ⊥) (hops : ∀ i, ops i ≠ ⊤ ∧ ops i ≠ ⊥)
    (hactor : ∀ i, (actor i).toNat < 7) (haction : ∀ i, (action i).toNat < 9)
    (hcounts : ∀ i, counts i ≠ 0#32)
    (hnactor : ∀ i, (nactor i).toNat < 7) (hnaction : ∀ i, (naction i).toNat < 9) (b : Fin 4096) :
    hingeKRow img W bias obj ops actor action counts nactor naction b
      = hingeRRow img W bias obj ops actor action counts nactor naction b := by
  obtain ⟨t, ht⟩ := tab_real (fun a j => obj (ix2 a j)) (fun r i j => ops (ix3 r i j))
    (fun a j => hobj _) (fun r i j => hops _)
  have hpos : posK (tab63 obj ops) (fun k => actor (ix2 b k)) (fun k => action (ix2 b k)) (counts (ix1 b))
      = posR (fun a j => obj (ix2 a j)) (fun r i j => ops (ix3 r i j)) (fun k => actor (ix2 b k))
          (fun k => action (ix2 b k)) (counts (ix1 b)) := by
    funext d
    unfold posK posR
    rw [posK_eq (fun c => t (rel c) (act c) d) (fun c => tab63 obj ops c d) (fun c => ht _ _ _)
      (fun k => actor (ix2 b k)) (fun k => action (ix2 b k)) (fun k => haction _) (fun k => hactor _)
      (counts (ix1 b)) (hcounts _)]
    simp only [tab63, tabOf, rel_comb, act_comb]
  have hneg : negK (tab63 obj ops) (nactor (ix1 b)) (naction (ix1 b))
      = negR (fun a j => obj (ix2 a j)) (fun r i j => ops (ix3 r i j)) (nactor (ix1 b)) (naction (ix1 b)) := by
    funext d
    rw [negK_eq _ _ _ (hnaction _) (hnactor _)]
    simp only [negR, tab63, tabOf, rel_comb, act_comb]
  unfold hingeKRow hingeRRow
  rw [hpos, hneg]

end Cert.Spec

end
-- ==== Proof.PreFacts.lean ====
/- What the certificate's precondition says of the argument arrays, decoded from its printed form (a conjunction of
   whole-array "all" reductions of elementwise comparisons): every embedding and operator entry is finite, every actor
   word is below 7 and every relation word below 9 (as unsigned numbers, from the two signed comparisons 0 ≤ x < n),
   and no count is zero. -/
import proofs.«423928_j62526133895556_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

/-- The scalar shape has exactly one index. -/
local instance : Subsingleton S_.Idx := ⟨fun a b => funext fun d => d.elim0⟩

/-- A word that is at least 0 and below a small bound `n`, both as signed numbers, is below `n` as an unsigned number. -/
theorem toNat_lt_of_signed (x : BitVec 32) (n : Nat) (hn : n < 2 ^ 31)
    (h0 : IntOp.cmpi .sge x 0#32 = 1#1) (h1 : IntOp.cmpi .slt x (BitVec.ofNat 32 n) = 1#1) : x.toNat < n := by
  simp only [IntOp.cmpi, StableHlo.Predicate.ofBool_eq_one_iff, BitVec.sle, BitVec.slt, decide_eq_true_eq] at h0 h1
  rw [StableHlo.Predicate.toInt_ofNat_small n hn] at h1
  have hz : (0#32 : BitVec 32).toInt = 0 := by decide
  rw [hz] at h0
  rw [BitVec.toInt_eq_toNat_cond] at h0 h1
  have := x.isLt
  split at h0 <;> split at h1 <;> omega

/-- A word unequal to 0 by the printed comparison is not the zero word. -/
theorem ne_zero_of_cmpi_ne (x : BitVec 32) (h : IntOp.cmpi .ne x 0#32 = 1#1) : x ≠ 0#32 := by
  simp only [IntOp.cmpi, StableHlo.Predicate.ofBool_eq_one_iff, bne_iff_ne] at h
  exact h

/-- An extended real whose absolute value max x (-x) is strictly below +∞ (the pattern 0x7F800000) is neither infinity. -/
theorem finite_of_abs_lt (x : EReal)
    (h : Ideal.cmp .olt (max x (-x)) (Ideal.ofBits .f32 0x7F800000#32) = 1#1) : x ≠ ⊤ ∧ x ≠ ⊥ := by
  have htop : Ideal.ofBits .f32 0x7F800000#32 = (⊤ : EReal) := by simp [Ideal.ofBits, Ideal.ieee]
  rw [htop] at h
  simp only [Ideal.cmp, StableHlo.Predicate.ofBool_eq_one_iff, decide_eq_true_eq] at h
  constructor
  · rintro rfl; simp at h
  · rintro rfl; simp at h

/-- A conjunction of two one-bit scalars read at an index is 1 exactly when both are. -/
theorem andi_scalar_eq_one (x y : IVec S_ 1) (i : S_.Idx) : andi x y i = 1#1 ↔ x i = 1#1 ∧ y i = 1#1 :=
  IntOp.andi_eq_one

variable [Cert.Pre_finite_inputs.Facts]

/-- The precondition, all ones, gives the seven facts the value claim uses. -/
theorem of_pre (a0 : FVec Ideal S4096x2048 .f32) (a1 : FVec Ideal S2048x512 .f32) (a2 : FVec Ideal S512 .f32)
    (a3 : FVec Ideal S7x512 .f32) (a4 : FVec Ideal S9x512x512 .f32) (a5 a6 : IVec S4096x4 32) (a7 a8 a9 : IVec S4096 32)
    (h : Cert.Pre_finite_inputs.fn (F := Ideal) a0 a1 a2 a3 a4 a5 a6 a7 a8 a9 = fun _ => 1#1) :
    (∀ i, (a3 i : EReal) ≠ ⊤ ∧ (a3 i : EReal) ≠ ⊥) ∧ (∀ i, (a4 i : EReal) ≠ ⊤ ∧ (a4 i : EReal) ≠ ⊥)
    ∧ (∀ i, (a5 i).toNat < 7) ∧ (∀ i, (a6 i).toNat < 9) ∧ (∀ i, a7 i ≠ 0#32)
    ∧ (∀ i, (a8 i).toNat < 7) ∧ (∀ i, (a9 i).toNat < 9) := by
  -- the printed chain at the scalar result's one index: a conjunction of ten whole-array "all" reductions
  have h0 := congrFun h ValueIdx.ix0
  dsimp only [fn, fn_part1, fn_part2, fn_part3] at h0
  simp only [andi_scalar_eq_one] at h0
  obtain ⟨⟨⟨⟨⟨⟨⟨⟨⟨_, _⟩, _⟩, h3⟩, h4⟩, h5⟩, h6⟩, h7⟩, h8⟩, h9⟩ := h0
  refine ⟨fun i => ?_, fun i => ?_, fun i => ?_, fun i => ?_, fun i => ?_, fun i => ?_, fun i => ?_⟩
  · -- |a3 i| < +∞
    exact finite_of_abs_lt (a3 i) (Host.reduce_andi_all _ _ _ _ _ h3 i)
  · exact finite_of_abs_lt (a4 i) (Host.reduce_andi_all _ _ _ _ _ h4 i)
  · -- 0 ≤ a5 i < 7, signed
    have e : IntOp.andi (IntOp.cmpi .sge (a5 i) 0#32) (IntOp.cmpi .slt (a5 i) 7#32) = 1#1 :=
      Host.reduce_andi_all _ _ _ _ _ h5 i
    exact toNat_lt_of_signed (a5 i) 7 (by norm_num) (IntOp.andi_eq_one.1 e).1 (IntOp.andi_eq_one.1 e).2
  · have e : IntOp.andi (IntOp.cmpi .sge (a6 i) 0#32) (IntOp.cmpi .slt (a6 i) 9#32) = 1#1 :=
      Host.reduce_andi_all _ _ _ _ _ h6 i
    exact toNat_lt_of_signed (a6 i) 9 (by norm_num) (IntOp.andi_eq_one.1 e).1 (IntOp.andi_eq_one.1 e).2
  · -- a7 i ≠ 0
    exact ne_zero_of_cmpi_ne (a7 i) (Host.reduce_andi_all _ _ _ _ _ h7 i)
  · have e : IntOp.andi (IntOp.cmpi .sge (a8 i) 0#32) (IntOp.cmpi .slt (a8 i) 7#32) = 1#1 :=
      Host.reduce_andi_all _ _ _ _ _ h8 i
    exact toNat_lt_of_signed (a8 i) 7 (by norm_num) (IntOp.andi_eq_one.1 e).1 (IntOp.andi_eq_one.1 e).2
  · have e : IntOp.andi (IntOp.cmpi .sge (a9 i) 0#32) (IntOp.cmpi .slt (a9 i) 9#32) = 1#1 :=
      Host.reduce_andi_all _ _ _ _ _ h9 i
    exact toNat_lt_of_signed (a9 i) 9 (by norm_num) (IntOp.andi_eq_one.1 e).1 (IntOp.andi_eq_one.1 e).2

end Cert.PreFacts

end
-- ==== Proof.lean ====
/- The certificate of the fused triplet-hinge kernel against its jnp reference, on the extended reals.
   Both programs compute, for each of the 4096 rows, the hinge max (‖f − p + ε‖ − ‖f − n + ε‖ + ½) 0 of the row's
   rectified linear feature f, a positive vector p and a negative vector n, and return the mean of the hinges. The
   reference forms p as the masked mean of the row's (up to four) pairs' relational transforms — actor embedding times
   relation operator, rectified — and n as the one transform of the negative pair. The kernel first tabulates all
   9·7 = 63 transforms, then forms p as a weighted sum over the 63 table rows (weight: the number of valid pairs with
   that combined index, over the count) and n as a one-hot sum over them. With every index word in range of its axis,
   the count not zero and the embedding and operator entries finite, the two arrangements are the same real numbers.
   The frames: each program terminates, faults nowhere and leaves its argument arrays as launched. -/
import proofs.«423928_j62526133895556_3_alg».proof.Defs
import proofs.«423928_j62526133895556_3_alg».proof.Proof.Gen.Kernel
import proofs.«423928_j62526133895556_3_alg».proof.Proof.Gen.KernelIdeal
import proofs.«423928_j62526133895556_3_alg».proof.Proof.Gen.ReferenceIdeal
import proofs.«423928_j62526133895556_3_alg».proof.Proof.Gen.Pre_finite_inputs
import proofs.«423928_j62526133895556_3_alg».proof.Proof.KernelRunW
import proofs.«423928_j62526133895556_3_alg».proof.Proof.KernelRun
import proofs.«423928_j62526133895556_3_alg».proof.Proof.KernelValue
import proofs.«423928_j62526133895556_3_alg».proof.Proof.RefRun
import proofs.«423928_j62526133895556_3_alg».proof.Proof.RefValue
import proofs.«423928_j62526133895556_3_alg».proof.Proof.Algebra
import proofs.«423928_j62526133895556_3_alg».proof.Proof.PreFacts

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: there is nothing to preserve. -/
theorem preserves : Cert.preserves_Kernel_KernelIdeal := trivial

/-- From memories agreeing on the arguments both programs end with the mean of the per-row hinges; row by row the
    kernel's arrangement of the hinge is the reference's, on the domain the precondition states. -/
theorem algebraic : Cert.algebraic_KernelIdeal_ReferenceIdeal := by
  intro m ρ m' ρ' hpre hagree
  refine ⟨fun c => Cert.KernelIdeal.Hand.W4 (F := Ideal) m c (Proc.devRef .tc Cert.KernelIdeal.main_v10),
    Cert.KernelIdeal.Hand.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨hobj, hops, hactor, haction, hcounts, hnactor, hnaction⟩ := Cert.PreFacts.of_pre _ _ _ _ _ _ _ _ _ _ (hpre c)
  obtain ⟨e0, e1, e2, e3, e4, e5, e6, e7, e8, e9⟩ := hagree c
  show Cert.ReferenceIdeal.ValueP.res_main_v61 m' c = Cert.KernelIdeal.Hand.W4 (F := Ideal) m c (Proc.devRef .tc Cert.KernelIdeal.main_v10)
  rw [Cert.KernelIdeal.Hand.kernel_value, Cert.ReferenceIdeal.ReadP.val_main_v61_eq, e0, e1, e2, e3, e4, e5, e6, e7, e8, e9]
  unfold Cert.ReferenceIdeal.ReadP.val_main_v61 Cert.ReferenceIdeal.ReadP.val_main_v60
  rw [Cert.ReferenceIdeal.Hand.ref_hinge _ _ _ _ _ _ _ _ _ _ hactor haction hnactor hnaction]
  unfold Cert.ReferenceIdeal.ReadP.val_main_cst_8 Cert.ReferenceIdeal.ReadP.val_main_cst_9
  refine congrArg (fun v => Host.divf (Host.reduceAdd (F := Ideal) v _ _ _) _) ?_
  funext i
  exact (Cert.Spec.hingeKRow_eq_hingeRRow _ _ _ _ _ _ _ _ _ _ hobj hops hactor haction hcounts hnactor hnaction (i 0)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
